-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S64 .f32) (main_arg7 : FVec F S64x2 .f32) (main_arg8 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg7
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x2 .f32) (main_arg8 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x64 : Shape := ⟨2, ![5000, 64]⟩
abbrev S5000x1 : Shape := ⟨2, ![5000, 1]⟩
abbrev S1700000x64 : Shape := ⟨2, ![1700000, 64]⟩
abbrev S1x64 : Shape := ⟨2, ![1, 64]⟩
abbrev S1x2 : Shape := ⟨2, ![1, 2]⟩
abbrev S64x5000 : Shape := ⟨2, ![64, 5000]⟩
abbrev S64x1 : Shape := ⟨2, ![64, 1]⟩

abbrev nBuf : Space → Nat
  | .hbm => 60
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x64, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000x64, .f32⟩
  | .hbm, ⟨37, _⟩ => ⟨S_, .f32⟩
  | .hbm, ⟨38, _⟩ => ⟨S100000x64, .f32⟩
  | .hbm, ⟨39, _⟩ => ⟨S1700000x1, .i32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x1, .i32⟩
  | .hbm, ⟨58, _⟩ => ⟨S1x2, .f32⟩
  | .hbm, ⟨59, _⟩ => ⟨S64x2, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S5000x1, .i32⟩
  | .local _ .vmem, ⟨21, _⟩ => ⟨S5000x1, .i32⟩
  | .local _ .vmem, ⟨22, _⟩ => ⟨S64x2, .f32⟩
  | .local _ .vmem, ⟨23, _⟩ => ⟨S1x2, .f32⟩
  | .local _ .vmem, ⟨24, _⟩ => ⟨S64x2, .f32⟩
  | .local _ .vmem, ⟨25, _⟩ => ⟨S64x64, .f32⟩
  | .local _ .vmem, ⟨26, _⟩ => ⟨S64x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_scratch0 : Ref sig .tc := ⟨.vmem, 25, rfl⟩
abbrev cc2_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v40 : BitVec 1 := Scalar.cmpi .eq arg0 c19_i32
  let v41 : BitVec 32 := Scalar.extui v40
  let c0_i32_21 : BitVec 32 := 0#32
  let v42 : BitVec 1 := Scalar.cmpi .ne v41 c0_i32_21
  v42

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S2_S1x2 : S2.ShapeCasts S1x2
  shapeCasts_S64x64_S64x64 : S64x64.ShapeCasts S64x64
  iota_S5000x64_d1_w32 : S5000x64.Iotas .tc 32 [1]
  transposes_S5000x64_p1_0_S64x5000 : S5000x64.Transposes [1, 0] S64x5000
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  reduces_S64x2_S64 : S64x2.Reduces [1] S64
  shapeCasts_S64_S64x1 : S64.ShapeCasts S64x1
  broadcasts_S64x1_S64x2 : S64x1.Broadcasts S64x2
  scatter_S100000_S1700000x1_S1700000_n_0_0_1_wf : ScatterDims.WF S100000 S1700000x1 S1700000 [] [0] [0] 1
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S64x5000_S5000x64_S64x64_1_0_0_1_n_n_wf : DotDims.WF S64x5000 S5000x64 S64x64 [1] [0] [0] [1] [] []
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .i32 = 32 ∨ (Rect.block (s := S100000x1) S5000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x2.size a ≤ S64x2.size a
  hwx2_4 : ∀ i : grid2.Coords, EltTy.bits .f32 = 32 ∨ (Rect.block (s := S64x2) S64x2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2.size a ≤ S1x2.size a
  hwx2_5 : ∀ i : grid2.Coords, EltTy.bits .f32 = 32 ∨ (Rect.block (s := S1x2) S1x2.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x2.size a ≤ S64x2.size a
  hwx2_6 : ∀ i : grid2.Coords, EltTy.bits .f32 = 32 ∨ (Rect.block (s := S64x2) S64x2.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S64x5000_S5000x64_S64x64_1_0_0_1_n_n : DotDims S64x5000 S5000x64 S64x64 where
  lhsContracting := [1]
  rhsContracting := [0]
  lhsNonContracting := [0]
  rhsNonContracting := [1]
  lhsBatch := []
  rhsBatch := []
  wf := dot_S64x5000_S5000x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S1x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S64x2.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S64x1 : Shape := ⟨2, ![64, 1]⟩
abbrev S1x2 : Shape := ⟨2, ![1, 2]⟩

abbrev nBuf : Space → Nat
  | .hbm => 155
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x2, .f32⟩
  | 8 => ⟨S2, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S100000x64, .f32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x64, .f32⟩
  | 55 => ⟨S1700000x1, .f32⟩
  | 56 => ⟨S1700000x64, .f32⟩
  | 57 => ⟨S1700000x64, .f32⟩
  | 58 => ⟨S_, .f32⟩
  | 59 => ⟨S100000x64, .f32⟩
  | 60 => ⟨S1700000x1, .i32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S100000x64, .f32⟩
  | 69 => ⟨S_, .f32⟩
  | 70 => ⟨S1700000, .f32⟩
  | 71 => ⟨S_, .f32⟩
  | 72 => ⟨S100000, .f32⟩
  | 73 => ⟨S1700000x1, .i32⟩
  | 74 => ⟨S100000, .f32⟩
  | 75 => ⟨S_, .f32⟩
  | 76 => ⟨S100000, .f32⟩
  | 77 => ⟨S100000, .f32⟩
  | 78 => ⟨S100000, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x64, .f32⟩
  | 107 => ⟨S1700000x1, .f32⟩
  | 108 => ⟨S1700000x64, .f32⟩
  | 109 => ⟨S1700000x64, .f32⟩
  | 110 => ⟨S_, .f32⟩
  | 111 => ⟨S100000x64, .f32⟩
  | 112 => ⟨S1700000x1, .i32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S_, .f32⟩
  | 121 => ⟨S64x64, .f32⟩
  | 122 => ⟨S100000x1, .i32⟩
  | 123 => ⟨S64x64, .f32⟩
  | 124 => ⟨S_, .f32⟩
  | 125 => ⟨S100000, .f32⟩
  | 126 => ⟨S_, .f32⟩
  | 127 => ⟨S64, .f32⟩
  | _ => ⟨S100000x64, .f32⟩

abbrev hbmTy0_1 (i : Nat) : BufTy := match i % 128 with
  | 0 => ⟨S100000x1, .i32⟩
  | 1 => ⟨S64, .f32⟩
  | 2 => ⟨S_, .f32⟩
  | 3 => ⟨S64, .f32⟩
  | 4 => ⟨S64, .f32⟩
  | 5 => ⟨S64x1, .f32⟩
  | 6 => ⟨S64x64, .f32⟩
  | 7 => ⟨S64x64, .f32⟩
  | 8 => ⟨S64x2, .f32⟩
  | 9 => ⟨S1x2, .f32⟩
  | 10 => ⟨S64x2, .f32⟩
  | 11 => ⟨S64x2, .f32⟩
  | 12 => ⟨S_, .f32⟩
  | 13 => ⟨S64, .f32⟩
  | 14 => ⟨S_, .f32⟩
  | 15 => ⟨S64, .f32⟩
  | 16 => ⟨S64, .f32⟩
  | 17 => ⟨S64x1, .f32⟩
  | 18 => ⟨S64x2, .f32⟩
  | 19 => ⟨S64x2, .f32⟩
  | 20 => ⟨S64x2, .f32⟩
  | 21 => ⟨S_, .f32⟩
  | 22 => ⟨S64, .f32⟩
  | 23 => ⟨S64x1, .f32⟩
  | 24 => ⟨S64x1, .f32⟩
  | 25 => ⟨S64x2, .f32⟩
  | 26 => ⟨S64x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_15 : Ref sig .tc := ⟨.hbm, 98, rfl⟩
abbrev main_v70 : Ref sig .tc := ⟨.hbm, 99, rfl⟩
abbrev main_v71 : Ref sig .tc := ⟨.hbm, 100, rfl⟩
abbrev main_c_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_call1_cst : Ref sig .tc := ⟨.hbm, 117, rfl⟩
abbrev main_call1_v0 : Ref sig .tc := ⟨.hbm, 118, rfl⟩
abbrev main_v86 : Ref sig .tc := ⟨.hbm, 119, rfl⟩
abbrev main_cst_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_19 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_21 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_call2_cst : Ref sig .tc := ⟨.hbm, 140, rfl⟩
abbrev main_call2_v0 : Ref sig .tc := ⟨.hbm, 141, rfl⟩
abbrev main_call2_cst_0 : Ref sig .tc := ⟨.hbm, 142, rfl⟩
abbrev main_call2_v1 : Ref sig .tc := ⟨.hbm, 143, rfl⟩
abbrev main_call2_v2 : Ref sig .tc := ⟨.hbm, 144, rfl⟩
abbrev main_call2_v3 : Ref sig .tc := ⟨.hbm, 145, rfl⟩
abbrev main_call2_v4 : Ref sig .tc := ⟨.hbm, 146, rfl⟩
abbrev main_call2_v5 : Ref sig .tc := ⟨.hbm, 147, rfl⟩
abbrev main_call2_v6 : Ref sig .tc := ⟨.hbm, 148, rfl⟩
abbrev main_call2_cst_1 : Ref sig .tc := ⟨.hbm, 149, rfl⟩
abbrev main_call2_v7 : Ref sig .tc := ⟨.hbm, 150, rfl⟩
abbrev main_call2_v8 : Ref sig .tc := ⟨.hbm, 151, rfl⟩
abbrev main_call2_v9 : Ref sig .tc := ⟨.hbm, 152, rfl⟩
abbrev main_call2_v10 : Ref sig .tc := ⟨.hbm, 153, rfl⟩
abbrev main_v103 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  h_S_ : 0 < S_.numel
  bcast_S64x1_S64x2_0_1 : S64x1.BroadcastsInDim S64x2 (![0, 1] : Fin 2 → Fin S64x2.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x2_S64x2_1_0_0_1_n_n_wf : DotDims.WF S64x64 S64x2 S64x2 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.K.Reg0.lean ====
/-
  The first launch (rows of x times W1, each row scaled by its node's scale), one grid point at a time.

  The launch walks 20 blocks of 5000 rows. At a point the body reads the block of x, the whole 64 × 64 weight
  matrix and the block of the scale column, and overwrites the output block with  (x_blk · W1) ⊙ scale_blk .
  Nothing is carried from one point to the next, so the proof data name, for every point, each input window's
  buffer as its block of the array the launch found, and the output window's buffer as that one product.
-/
import proofs.«410454_j88278757802580_2_alg».proof.Proof.Gen.Kernel.Launch
import proofs.«410454_j88278757802580_2_alg».proof.Proof.Gen.Kernel.Skeleton
import proofs.«410454_j88278757802580_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the launch finds them on each core: the parameter every statement below is made at
variable (V : (c : Dev nD) → (b : Ref sig .tc) → Buf (Elt F) ((c : Thread nD τ).loc b))

/-- Window `w`'s block at point `t`, cut out of its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 5000 × 64 block, as one rectangle. -/
abbrev r0_out : Rect S5000x64 := Rect.unit (s := S5000x64) ![0, 0] S5000x64.size inb_S5000x64_S5000x64_0_0
abbrev r0_w : Rect S64x64 := Rect.unit (s := S64x64) ![0, 0] S64x64.size inb_S64x64_S64x64_0_0
abbrev r0_col : Rect S5000x1 := Rect.unit (s := S5000x1) ![0, 0] S5000x1.size inb_S5000x1_S5000x1_0_0

/-- What the body leaves in the output window's buffer: its one whole-block store of the scaled product. -/
def out0_3 (x0 : Vec F S5000x64 .f32) (x1 : Vec F S64x64 .f32) (x2 : Vec F S5000x1 .f32) : Vec F S5000x64 .f32 :=
  View.canon [⟨r0_out, k0_pay1 (View.ld x0 r0_out) (View.ld x1 r0_w) (View.ld x2 r0_col)⟩]

/-- The one store is the whole block, so it covers it. -/
theorem cover0_3 (p0 : Vec F S5000x64 .f32) (y : S5000x64.Idx) :
    ∃ pc ∈ ([⟨r0_out, p0⟩] : List (View.Piece (Elt F) S5000x64 .f32)), y ∈ pc.1.set :=
  View.cover_of_tiled [⟨r0_out, p0⟩] S5000x64.size (by rfl) y

set_option maxHeartbeats 1000000 in
/-- The body on whole staging buffers, the three inputs at known contents and the output at anything, runs to the
    end with the inputs as they were and the output at the scaled product of the inputs. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S5000x1 .f32) (harg3 : arg3.IsWhole) (arg4 : Memref sig .tc .vmem S5000x64 .f32) (harg4 : arg4.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_scale_kernel i arg1 harg1 arg2 harg2 arg3 harg3 arg4 harg4) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first launch on core `c`: the arrays as found; after the body each input's buffer at its
    block and the output's at the scaled product of the point's blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- The buffer of the x window holds the point's block of x: the window moves at every point, and a moved window's
    buffer holds the block the transfer brought. -/
private theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The buffer of the weight window holds the whole weight matrix at every point although it is brought in at the
    first point only: the body leaves it as found, and the window's block index is the same at all points. -/
private theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The buffer of the scale window holds the point's block of the scale column. -/
private theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- What the body is handed at point `t`: the invariant, the core's debt, and each window's current buffer, whole,
    at what the pipeline left in it, -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back: the same invariant and debt, and each buffer at what the proof data say the body leaves. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at a point. The three input buffers hold their blocks, so the body's triple applies with those blocks as
    the known contents; the invariant and the debt are not read and come out as they went in (they do not depend on
    the point). -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body at every point meets the pipeline's obligation for these proof data. -/
theorem body_obligation0 (c : Dev nD) : BodyObligation (dat0 (F := F) V c) (defs₀ (F := F)) Variants.none () Set.univ := by
  intro t
  rw [bigSep_W0, bigSep_W0]
  exact sound_body0 V c t

end Cert.Kernel.Hand

end
-- ==== Proof.K.Reg1.lean ====
/-
  The second launch, one grid point at a time: the first layer's epilogue fused with the second layer's product.

  At a point the body reads the block of the raw aggregate, the block of the scale column, the bias row and the whole
  64 × 64 weight matrix, forms  h = max(scale ⊙ agg + bias, 0) , and overwrites the output block with
  (h · W2) ⊙ scale_blk . Nothing is carried between points.
-/
import proofs.«410454_j88278757802580_2_alg».proof.Proof.Gen.Kernel.Launch
import proofs.«410454_j88278757802580_2_alg».proof.Proof.Gen.Kernel.Skeleton
import proofs.«410454_j88278757802580_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_out : Rect S5000x64 := Rect.unit (s := S5000x64) ![0, 0] S5000x64.size inb_S5000x64_S5000x64_0_0
abbrev r1_col : Rect S5000x1 := Rect.unit (s := S5000x1) ![0, 0] S5000x1.size inb_S5000x1_S5000x1_0_0
abbrev r1_row : Rect S1x64 := Rect.unit (s := S1x64) ![0, 0] S1x64.size inb_S1x64_S1x64_0_0
abbrev r1_w : Rect S64x64 := Rect.unit (s := S64x64) ![0, 0] S64x64.size inb_S64x64_S64x64_0_0

/-- What the body leaves in the output window's buffer, from the aggregate block `x0`, the scale column block `x1`,
    the bias row `x2` and the weight matrix `x3`: its one whole-block store (the scale column is read twice). -/
def out1_4 (x0 : Vec F S5000x64 .f32) (x1 : Vec F S5000x1 .f32) (x2 : Vec F S1x64 .f32) (x3 : Vec F S64x64 .f32) : Vec F S5000x64 .f32 :=
  View.canon [⟨r1_out, k1_pay1 (View.ld x1 r1_col) (View.ld x0 r1_out) (View.ld x2 r1_row) (View.ld x3 r1_w) (View.ld x1 r1_col)⟩]

theorem cover1_4 (p0 : Vec F S5000x64 .f32) (y : S5000x64.Idx) :
    ∃ pc ∈ ([⟨r1_out, p0⟩] : List (View.Piece (Elt F) S5000x64 .f32)), y ∈ pc.1.set :=
  View.cover_of_tiled [⟨r1_out, p0⟩] S5000x64.size (by rfl) y

set_option maxHeartbeats 1000000 in
/-- The body on whole staging buffers, the four inputs at known contents and the output at anything, runs to the
    end with the inputs as they were and the output at `out1_4` of them. -/
theorem sound_kernel1 (c : Dev nD) (E : Set ℕ) (i : grid1.Coords)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S5000x64 .f32) (harg5 : arg5.IsWhole)
    (x0 : Vec F S5000x64 .f32) (x1 : Vec F S5000x1 .f32) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__layer2_fused_kernel i arg1 harg1 arg2 harg2 arg3 harg3 arg4 harg4 arg5 harg5) K := by
  simp only [cc1__layer2_fused_kernel_eq_skeleton]; unfold cc1__layer2_fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the second launch on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- The buffer of the aggregate window holds the point's block of the aggregate: the window moves at every point, and
    a moved window's buffer holds the block the transfer brought. -/
private theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The buffer of the scale window holds the point's block of the scale column. -/
private theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The buffer of the bias window holds the bias row at every point although it is brought in at the first point
    only: the body leaves it as found, and the window's block index is the same at all points. -/
private theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The same of the weight window: the whole weight matrix, brought in once and left as found. -/
private theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- What the body is handed at point `t`: the invariant, the core's debt, and each window's current buffer, whole,
    at what the pipeline left in it, -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back: the same invariant and debt, and each buffer at what the proof data say the body leaves. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at a point. The four input buffers hold their blocks, so the body's triple applies with those blocks as
    the known contents; the invariant and the debt are not read and come out as they went in (they do not depend on
    the point). -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body at every point meets the pipeline's obligation for these proof data. -/
theorem body_obligation1 (c : Dev nD) : BodyObligation (dat1 (F := F) V c) (defs₀ (F := F)) Variants.none () Set.univ := by
  intro t
  rw [bigSep_W1, bigSep_W1]
  exact sound_body1 V c t

end Cert.Kernel.Hand

end
-- ==== Proof.K.Reg2Runs.lean ====
/-
  The third launch's body, run once for each of its three control cases, and what each run leaves.

  The body has two conditionals on the grid coordinate: at the first point it clears the two 64 × 64 accumulators, at
  the last point it computes the head from them and stores the 64 × 2 output block. Over the 20 points that makes
  three cases: the first point (clear, then accumulate), the eighteen middle points (accumulate), the last point
  (accumulate, then the head). In every case the first accumulator receives  onehotᵀ · h  added to what it held and the
  second  onehotᵀ · ones  added to what it held, each by one store of the whole buffer; so what a buffer holds after
  the run is the value of the last store into it, with every load inside that value read back: a load of an input
  buffer reads the block, a load of an accumulator after a store into it reads what was stored.
-/
import proofs.«410454_j88278757802580_2_alg».proof.Proof.Gen.Kernel.Launch
import proofs.«410454_j88278757802580_2_alg».proof.Proof.Gen.Kernel.Skeleton
import proofs.«410454_j88278757802580_2_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body, over the grid -/

/-- The first conditional of the body (clear both accumulators), from the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The second conditional of the body (compute the head and store the output), from the grid coordinate. -/
abbrev cond2_1 (i : grid2.Coords) : Prop := k2_cond2 i = 1#1
/-- It holds at the last point only. -/
theorem hcond2_1 : ∀ t : Fin cfg2.N, cond2_1 (grid2.coords t) ↔ t.val = 19 :=
  (by decide +kernel : ∀ t : Fin grid2.N, cond2_1 (grid2.coords t) ↔ t.val = 19)

/-- The output window is idle, and not written back, exactly where the second conditional fails. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-- The six input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl

/-- The offsets of every whole-buffer rectangle of the body are zero. -/
theorem hz2 : (![0, 0] : Fin 2 → Nat) = fun _ => 0 := funext fun a => by fin_cases a <;> rfl

/-! ## The body run once per control case

Each run is stated on arbitrary whole memrefs: the six inputs at given contents and handed back as they were; the
output block handed back untouched where the head is not computed, and with the head's store written where it is; the two
accumulators at anything at the first point (they are cleared there) and at given contents later, and left with
the stores of the point written. The lists of stores are found by running the body. -/

set_option maxHeartbeats 1000000 in
/-- The first point: both accumulators cleared, then this point's products added. -/
noncomputable def kernelRun2_A (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : cond2_0 i) (hc1 : ¬cond2_1 i)
    (x0 : Vec F S5000x64 .f32) (x1 : Vec F S5000x1 .f32) (x2 : Vec F S1x64 .f32) (x3 : Vec F S5000x1 .i32) (x4 : Vec F S64x2 .f32) (x5 : Vec F S1x2 .f32) :
    Σ' (LS0 : List (View.Piece (Elt F) S64x64 .f32)), { LS1 : List (View.Piece (Elt F) S64x64 .f32) //
      ∀ (xi6 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__pool_fc_kernel i arg1 harg1 arg2 harg2 arg3 harg3 arg4 harg4 arg5 harg5 arg6 harg6 arg7 harg7 arg8 harg8 arg9 harg9) K } := by
  refine ⟨?_, ?_, fun xi6 E K => ?run⟩
  case run =>
    simp only [cc2__pool_fc_kernel_eq_skeleton]; unfold cc2__pool_fc_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 1000000 in
/-- A middle point: this point's products added to what the point before left. -/
noncomputable def kernelRun2_B (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : ¬cond2_0 i) (hc1 : ¬cond2_1 i)
    (x0 : Vec F S5000x64 .f32) (x1 : Vec F S5000x1 .f32) (x2 : Vec F S1x64 .f32) (x3 : Vec F S5000x1 .i32) (x4 : Vec F S64x2 .f32) (x5 : Vec F S1x2 .f32) (xs0 xs1 : Vec F S64x64 .f32) :
    Σ' (LS0 : List (View.Piece (Elt F) S64x64 .f32)), { LS1 : List (View.Piece (Elt F) S64x64 .f32) //
      ∀ (xi6 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__pool_fc_kernel i arg1 harg1 arg2 harg2 arg3 harg3 arg4 harg4 arg5 harg5 arg6 harg6 arg7 harg7 arg8 harg8 arg9 harg9) K } := by
  refine ⟨?_, ?_, fun xi6 E K => ?run⟩
  case run =>
    simp only [cc2__pool_fc_kernel_eq_skeleton]; unfold cc2__pool_fc_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 1000000 in
/-- The last point: this point's products added, then the head computed from the two accumulators and stored. -/
noncomputable def kernelRun2_C (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : ¬cond2_0 i) (hc1 : cond2_1 i)
    (x0 : Vec F S5000x64 .f32) (x1 : Vec F S5000x1 .f32) (x2 : Vec F S1x64 .f32) (x3 : Vec F S5000x1 .i32) (x4 : Vec F S64x2 .f32) (x5 : Vec F S1x2 .f32) (xs0 xs1 : Vec F S64x64 .f32) :
    Σ' (L6 : List (View.Piece (Elt F) S64x2 .f32)) (LS0 : List (View.Piece (Elt F) S64x64 .f32)), { LS1 : List (View.Piece (Elt F) S64x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__pool_fc_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__pool_fc_kernel_eq_skeleton]; unfold cc2__pool_fc_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

/-! ## What each run leaves

The stores found by a run, read back through any view of the buffer: the last store into a buffer is of the whole
buffer, so the buffer holds that store's value; the value's own loads are of whole buffers and read their contents,
a load of an accumulator after a store into it in the same run reads what was stored. -/

/-- A buffer whose last store is of the whole buffer (a rectangle of the buffer's own sizes at zero offsets) holds
    that store's value, whatever was stored before and whatever it held: the store covers every index, and the last
    store into an index is what the index holds. -/
theorem read_writes_whole_last {S : Shape} {e : EltTy} {κ : Kind} {sp : Space} (v : View sig κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- The first point leaves in the first accumulator the point's sums over the cleared buffer. -/
theorem left2_A_0 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : cond2_0 i) (hc1 : ¬cond2_1 i) (x0 : Vec F S5000x64 .f32) (x1 : Vec F S5000x1 .f32) (x2 : Vec F S1x64 .f32) (x3 : Vec F S5000x1 .i32) (x4 : Vec F S64x2 .f32) (x5 : Vec F S1x2 .f32)
    (v : View sig .tc .vmem S64x64 .f32) (f : v.ty.Contents (Elt F)) :
    v.read (Elt F) (v.writes (Elt F) f (kernelRun2_A c i arg1 harg1 arg2 harg2 arg3 harg3 arg4 harg4 arg5 harg5 arg6 harg6 arg7 harg7 arg8 harg8 arg9 harg9 hc0 hc1 x0 x1 x2 x3 x4 x5).1) = k2_pay7 x1 x0 x2 x3 (k2_pay3 (F := F)) := by
  unfold kernelRun2_A
  dsimp only
  sl_unfold_words
  refine (read_writes_whole_last (S := S64x64) v f hz2 _ _ _).trans ?_
  simp only [View.readAt_eq_ld, harg1.read_unread, harg2.read_unread, harg3.read_unread, harg4.read_unread, harg5.read_unread, harg6.read_unread, harg8.read_unread, harg9.read_unread,
    View.readCov_unit_zero (S := S64x64) _ hz2,
    View.ld_unit_zero (S := S5000x64) hz2, View.ld_unit_zero (S := S5000x1) hz2, View.ld_unit_zero (S := S1x64) hz2, View.ld_unit_zero (S := S64x2) hz2, View.ld_unit_zero (S := S1x2) hz2, View.ld_unit_zero (S := S64x64) hz2]

/-- The first point leaves in the second accumulator the point's counts over the cleared buffer. -/
theorem left2_A_1 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : cond2_0 i) (hc1 : ¬cond2_1 i) (x0 : Vec F S5000x64 .f32) (x1 : Vec F S5000x1 .f32) (x2 : Vec F S1x64 .f32) (x3 : Vec F S5000x1 .i32) (x4 : Vec F S64x2 .f32) (x5 : Vec F S1x2 .f32)
    (v : View sig .tc .vmem S64x64 .f32) (f : v.ty.Contents (Elt F)) :
    v.read (Elt F) (v.writes (Elt F) f (kernelRun2_A c i arg1 harg1 arg2 harg2 arg3 harg3 arg4 harg4 arg5 harg5 arg6 harg6 arg7 harg7 arg8 harg8 arg9 harg9 hc0 hc1 x0 x1 x2 x3 x4 x5).2.1) = k2_pay1 (k2_pay6 (F := F)) (k2_pay4 (F := F)) (k2_pay8 x3) (constant S64x64 .f32 0x00000000#32) := by
  unfold kernelRun2_A
  dsimp only
  sl_unfold_words
  refine (read_writes_whole_last (S := S64x64) v f hz2 _ _ _).trans ?_
  simp only [View.readAt_eq_ld, harg1.read_unread, harg2.read_unread, harg3.read_unread, harg4.read_unread, harg5.read_unread, harg6.read_unread, harg8.read_unread, harg9.read_unread,
    View.readCov_unit_zero (S := S64x64) _ hz2,
    View.ld_unit_zero (S := S5000x64) hz2, View.ld_unit_zero (S := S5000x1) hz2, View.ld_unit_zero (S := S1x64) hz2, View.ld_unit_zero (S := S64x2) hz2, View.ld_unit_zero (S := S1x2) hz2, View.ld_unit_zero (S := S64x64) hz2]

/-- A middle point leaves in the first accumulator the point's sums over what it held. -/
theorem left2_B_0 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : ¬cond2_0 i) (hc1 : ¬cond2_1 i) (x0 : Vec F S5000x64 .f32) (x1 : Vec F S5000x1 .f32) (x2 : Vec F S1x64 .f32) (x3 : Vec F S5000x1 .i32) (x4 : Vec F S64x2 .f32) (x5 : Vec F S1x2 .f32) (xs0 xs1 : Vec F S64x64 .f32)
    (v : View sig .tc .vmem S64x64 .f32) (f : v.ty.Contents (Elt F)) :
    v.read (Elt F) (v.writes (Elt F) f (kernelRun2_B c i arg1 harg1 arg2 harg2 arg3 harg3 arg4 harg4 arg5 harg5 arg6 harg6 arg7 harg7 arg8 harg8 arg9 harg9 hc0 hc1 x0 x1 x2 x3 x4 x5 xs0 xs1).1) = k2_pay7 x1 x0 x2 x3 xs0 := by
  unfold kernelRun2_B
  dsimp only
  sl_unfold_words
  refine (read_writes_whole_last (S := S64x64) v f hz2 _ _ _).trans ?_
  simp only [View.readAt_eq_ld, harg1.read_unread, harg2.read_unread, harg3.read_unread, harg4.read_unread, harg5.read_unread, harg6.read_unread, harg8.read_unread, harg9.read_unread,
    View.readCov_unit_zero (S := S64x64) _ hz2,
    View.ld_unit_zero (S := S5000x64) hz2, View.ld_unit_zero (S := S5000x1) hz2, View.ld_unit_zero (S := S1x64) hz2, View.ld_unit_zero (S := S64x2) hz2, View.ld_unit_zero (S := S1x2) hz2, View.ld_unit_zero (S := S64x64) hz2]

/-- A middle point leaves in the second accumulator the point's counts over what it held. -/
theorem left2_B_1 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : ¬cond2_0 i) (hc1 : ¬cond2_1 i) (x0 : Vec F S5000x64 .f32) (x1 : Vec F S5000x1 .f32) (x2 : Vec F S1x64 .f32) (x3 : Vec F S5000x1 .i32) (x4 : Vec F S64x2 .f32) (x5 : Vec F S1x2 .f32) (xs0 xs1 : Vec F S64x64 .f32)
    (v : View sig .tc .vmem S64x64 .f32) (f : v.ty.Contents (Elt F)) :
    v.read (Elt F) (v.writes (Elt F) f (kernelRun2_B c i arg1 harg1 arg2 harg2 arg3 harg3 arg4 harg4 arg5 harg5 arg6 harg6 arg7 harg7 arg8 harg8 arg9 harg9 hc0 hc1 x0 x1 x2 x3 x4 x5 xs0 xs1).2.1) = k2_pay1 (k2_pay6 (F := F)) xs1 (k2_pay8 x3) (constant S64x64 .f32 0x00000000#32) := by
  unfold kernelRun2_B
  dsimp only
  sl_unfold_words
  refine (read_writes_whole_last (S := S64x64) v f hz2 _ _ _).trans ?_
  simp only [View.readAt_eq_ld, harg1.read_unread, harg2.read_unread, harg3.read_unread, harg4.read_unread, harg5.read_unread, harg6.read_unread, harg8.read_unread, harg9.read_unread,
    View.readCov_unit_zero (S := S64x64) _ hz2,
    View.ld_unit_zero (S := S5000x64) hz2, View.ld_unit_zero (S := S5000x1) hz2, View.ld_unit_zero (S := S1x64) hz2, View.ld_unit_zero (S := S64x2) hz2, View.ld_unit_zero (S := S1x2) hz2, View.ld_unit_zero (S := S64x64) hz2]

/-- The last point leaves in the output block the head of the two accumulators as the point itself has just left them. -/
theorem left2_C_6 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : ¬cond2_0 i) (hc1 : cond2_1 i) (x0 : Vec F S5000x64 .f32) (x1 : Vec F S5000x1 .f32) (x2 : Vec F S1x64 .f32) (x3 : Vec F S5000x1 .i32) (x4 : Vec F S64x2 .f32) (x5 : Vec F S1x2 .f32) (xs0 xs1 : Vec F S64x64 .f32)
    (v : View sig .tc .vmem S64x2 .f32) (f : v.ty.Contents (Elt F)) :
    v.read (Elt F) (v.writes (Elt F) f (kernelRun2_C c i arg1 harg1 arg2 harg2 arg3 harg3 arg4 harg4 arg5 harg5 arg6 harg6 arg7 harg7 arg8 harg8 arg9 harg9 hc0 hc1 x0 x1 x2 x3 x4 x5 xs0 xs1).1) = k2_pay2 (k2_pay7 x1 x0 x2 x3 xs0) (k2_pay1 (k2_pay6 (F := F)) xs1 (k2_pay8 x3) (constant S64x64 .f32 0x00000000#32)) x4 x5 := by
  unfold kernelRun2_C
  dsimp only
  sl_unfold_words
  refine (read_writes_whole_last (S := S64x2) v f hz2 _ _ _).trans ?_
  simp only [View.readAt_eq_ld, harg1.read_unread, harg2.read_unread, harg3.read_unread, harg4.read_unread, harg5.read_unread, harg6.read_unread, harg8.read_unread, harg9.read_unread,
    View.readCov_unit_zero (S := S64x64) _ hz2,
    View.ld_unit_zero (S := S5000x64) hz2, View.ld_unit_zero (S := S5000x1) hz2, View.ld_unit_zero (S := S1x64) hz2, View.ld_unit_zero (S := S64x2) hz2, View.ld_unit_zero (S := S1x2) hz2, View.ld_unit_zero (S := S64x64) hz2]

/-- The last point leaves in the first accumulator the point's sums over what it held. -/
theorem left2_C_0 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : ¬cond2_0 i) (hc1 : cond2_1 i) (x0 : Vec F S5000x64 .f32) (x1 : Vec F S5000x1 .f32) (x2 : Vec F S1x64 .f32) (x3 : Vec F S5000x1 .i32) (x4 : Vec F S64x2 .f32) (x5 : Vec F S1x2 .f32) (xs0 xs1 : Vec F S64x64 .f32)
    (v : View sig .tc .vmem S64x64 .f32) (f : v.ty.Contents (Elt F)) :
    v.read (Elt F) (v.writes (Elt F) f (kernelRun2_C c i arg1 harg1 arg2 harg2 arg3 harg3 arg4 harg4 arg5 harg5 arg6 harg6 arg7 harg7 arg8 harg8 arg9 harg9 hc0 hc1 x0 x1 x2 x3 x4 x5 xs0 xs1).2.1) = k2_pay7 x1 x0 x2 x3 xs0 := by
  unfold kernelRun2_C
  dsimp only
  sl_unfold_words
  refine (read_writes_whole_last (S := S64x64) v f hz2 _ _ _).trans ?_
  simp only [View.readAt_eq_ld, harg1.read_unread, harg2.read_unread, harg3.read_unread, harg4.read_unread, harg5.read_unread, harg6.read_unread, harg8.read_unread, harg9.read_unread,
    View.readCov_unit_zero (S := S64x64) _ hz2,
    View.ld_unit_zero (S := S5000x64) hz2, View.ld_unit_zero (S := S5000x1) hz2, View.ld_unit_zero (S := S1x64) hz2, View.ld_unit_zero (S := S64x2) hz2, View.ld_unit_zero (S := S1x2) hz2, View.ld_unit_zero (S := S64x64) hz2]

/-- The last point leaves in the second accumulator the point's counts over what it held. -/
theorem left2_C_1 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : ¬cond2_0 i) (hc1 : cond2_1 i) (x0 : Vec F S5000x64 .f32) (x1 : Vec F S5000x1 .f32) (x2 : Vec F S1x64 .f32) (x3 : Vec F S5000x1 .i32) (x4 : Vec F S64x2 .f32) (x5 : Vec F S1x2 .f32) (xs0 xs1 : Vec F S64x64 .f32)
    (v : View sig .tc .vmem S64x64 .f32) (f : v.ty.Contents (Elt F)) :
    v.read (Elt F) (v.writes (Elt F) f (kernelRun2_C c i arg1 harg1 arg2 harg2 arg3 harg3 arg4 harg4 arg5 harg5 arg6 harg6 arg7 harg7 arg8 harg8 arg9 harg9 hc0 hc1 x0 x1 x2 x3 x4 x5 xs0 xs1).2.2.1) = k2_pay1 (k2_pay6 (F := F)) xs1 (k2_pay8 x3) (constant S64x64 .f32 0x00000000#32) := by
  unfold kernelRun2_C
  dsimp only
  sl_unfold_words
  refine (read_writes_whole_last (S := S64x64) v f hz2 _ _ _).trans ?_
  simp only [View.readAt_eq_ld, harg1.read_unread, harg2.read_unread, harg3.read_unread, harg4.read_unread, harg5.read_unread, harg6.read_unread, harg8.read_unread, harg9.read_unread,
    View.readCov_unit_zero (S := S64x64) _ hz2,
    View.ld_unit_zero (S := S5000x64) hz2, View.ld_unit_zero (S := S5000x1) hz2, View.ld_unit_zero (S := S1x64) hz2, View.ld_unit_zero (S := S64x2) hz2, View.ld_unit_zero (S := S1x2) hz2, View.ld_unit_zero (S := S64x64) hz2]

end Cert.Kernel.Hand

end
-- ==== Proof.K.Reg2.lean ====
/-
  The third launch, one grid point at a time: the second layer's epilogue, the per-graph sums and counts carried in
  two 64 × 64 accumulators over the 20 points, and at the last point the mean, the two logits and their log-softmax.

  Point 0 first clears both accumulators. Every point forms  h = max(scale ⊙ agg + bias, 0)  on its 5000 rows and
  the one-hot matrix of the rows' graph numbers, and adds  onehotᵀ · h  to the first accumulator and
  onehotᵀ · ones  to the second. Point 19 then divides the first by the second (a count below one read as one),
  multiplies by the 64 × 2 weights, adds the bias, and writes the log-softmax to the 64 × 2 output block, which is
  written back only there. The accumulators are the launch's own two buffers: the invariant carried from point to
  point says what they hold.
-/
import proofs.«410454_j88278757802580_2_alg».proof.Proof.Gen.Kernel.Launch
import proofs.«410454_j88278757802580_2_alg».proof.Proof.Gen.Kernel.Skeleton
import proofs.«410454_j88278757802580_2_alg».proof.Proof.Gen.Kernel.Points
import proofs.«410454_j88278757802580_2_alg».proof.Proof.K.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two accumulators after point `n`: the sums and the counts. Point 0 starts both from the cleared buffers;
    a later point adds its block's products to what the point before left. -/
def acc2 (c : Dev nD) : (n : ℕ) → n < cfg2.N → Vec F S64x64 .f32 × Vec F S64x64 .f32
  | 0, h =>
    (k2_pay7 (iblk2 V c 1 ⟨0, h⟩) (iblk2 V c 0 ⟨0, h⟩) (iblk2 V c 2 ⟨0, h⟩) (iblk2 V c 3 ⟨0, h⟩) (k2_pay3 (F := F)),
     k2_pay1 (k2_pay6 (F := F)) (k2_pay4 (F := F)) (k2_pay8 (iblk2 V c 3 ⟨0, h⟩)) (constant S64x64 .f32 0x00000000#32))
  | n + 1, h =>
    (k2_pay7 (iblk2 V c 1 ⟨n + 1, h⟩) (iblk2 V c 0 ⟨n + 1, h⟩) (iblk2 V c 2 ⟨n + 1, h⟩) (iblk2 V c 3 ⟨n + 1, h⟩)
        (acc2 c n (Nat.lt_of_succ_lt h)).1,
     k2_pay1 (k2_pay6 (F := F)) (acc2 c n (Nat.lt_of_succ_lt h)).2 (k2_pay8 (iblk2 V c 3 ⟨n + 1, h⟩))
        (constant S64x64 .f32 0x00000000#32))

/-- The last point, as a point of the grid. -/
abbrev tLast2 : Fin cfg2.N := ⟨19, by decide⟩

/-- What the last point writes to the output block: the head of the network on the two full accumulators. -/
def outLast2 (c : Dev nD) : Vec F S64x2 .f32 :=
  k2_pay2 (acc2 V c 19 (by decide)).1 (acc2 V c 19 (by decide)).2 (iblk2 V c 4 tLast2) (iblk2 V c 5 tLast2)

/-! ## The accumulators, point by point -/

/-- At the first point the accumulators hold the point's products over the cleared buffers. -/
theorem acc2_first (c : Dev nD) (t : Fin cfg2.N) (h : t.val = 0) :
    acc2 V c t.val t.isLt
      = (k2_pay7 (iblk2 V c 1 t) (iblk2 V c 0 t) (iblk2 V c 2 t) (iblk2 V c 3 t) (k2_pay3 (F := F)),
       k2_pay1 (k2_pay6 (F := F)) (k2_pay4 (F := F)) (k2_pay8 (iblk2 V c 3 t)) (constant S64x64 .f32 0x00000000#32)) := by
  obtain ⟨n, hn⟩ := t
  cases n with
  | zero => rfl
  | succ n => exact absurd h (Nat.succ_ne_zero n)

/-- At a later point they hold the point's products over what the point before left. -/
theorem acc2_later (c : Dev nD) (t : Fin cfg2.N) (h : t.val ≠ 0) :
    acc2 V c t.val t.isLt
      = (k2_pay7 (iblk2 V c 1 t) (iblk2 V c 0 t) (iblk2 V c 2 t) (iblk2 V c 3 t) (acc2 V c (t.val - 1) (Nat.lt_of_le_of_lt (Nat.sub_le _ _) t.isLt)).1,
       k2_pay1 (k2_pay6 (F := F)) (acc2 V c (t.val - 1) (Nat.lt_of_le_of_lt (Nat.sub_le _ _) t.isLt)).2 (k2_pay8 (iblk2 V c 3 t)) (constant S64x64 .f32 0x00000000#32)) := by
  obtain ⟨n, hn⟩ := t
  cases n with
  | zero => exact absurd rfl h
  | succ n => rfl

/-! ## The memrefs the body is called with -/

/-- Each window's current staging memref at point `t`, and that it is a whole buffer. -/
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5000x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x2 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x2 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64x2 .f32 := win2_6.stage (cfg2.slots t 6)
abbrev hs2_6 (t : Fin cfg2.N) : (ms2_6 t).IsWhole := hstage2_6 ((cfg2.slots t 6).cast nbuf2_6)
/-- The two accumulators: whole buffers of the launch's own, passed beside the windows. -/
abbrev scM2_0 : Memref sig .tc .vmem S64x64 .f32 := Memref.whole cc2_scratch0
abbrev scM2_1 : Memref sig .tc .vmem S64x64 .f32 := Memref.whole cc2_scratch1

/-! ## The invariant carried from point to point -/

/-- The core's scoped buffers that are neither a staging buffer of this launch nor one of the two accumulators
    (the staging buffers of the two launches before), each at anything: carried unopened. -/
abbrev others2 (c : Dev nD) : sProp 𝕄 :=
  Pipeline.scopedRestBut (Ix := Unit) (Name := ℕ) (U := UR sig nD τ) (Lvl := ℕ) (Val := Elt F) spec2 c [cc2_scratch0, cc2_scratch1]

/-- The plain invariant of the launch with the two accumulators taken out of the scoped rest, as memrefs owned at
    some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ others2 c) ∗ (∃ r, prngReg c r)) := by
  unfold Pipeline.ΦA
  rw [Pipeline.scopedRest_split_of_list spec2 c [cc2_scratch0, cc2_scratch1] (by decide) (by decide)]
  simp only [scM2_0, scM2_1, owns_whole, bigSepL_cons_cons, bigSepL_singleton]; try rfl

/-- The invariant before position `n`: before the first point the plain one (the accumulators at anything);
    afterwards the accumulators at what the points so far have left in them, the other scoped buffers at anything and
    the generator register at some state. -/
def Phi2 (c : Dev nD) : (n : ℕ) → n ≤ cfg2.N → sProp 𝕄
  | 0, _ => Pipeline.ΦA spec2 c
  | n + 1, hn => iprop(iprop(iprop(owns (c : Thread nD τ) scM2_0 fullShare (acc2 V c n hn).1 ∗ owns (c : Thread nD τ) scM2_1 fullShare (acc2 V c n hn).2) ∗ others2 c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(iprop(owns (c : Thread nD τ) scM2_0 fullShare (acc2 V c n hn).1 ∗ owns (c : Thread nD τ) scM2_1 fullShare (acc2 V c n hn).2) ∗ others2 c) ∗ (∃ r, prngReg c r)) := rfl

theorem Phi2_pos (c : Dev nD) (n : ℕ) (h : n ≤ cfg2.N) (hz : n ≠ 0) :
    Phi2 V c n h = iprop(iprop(iprop(owns (c : Thread nD τ) scM2_0 fullShare (acc2 V c (n - 1) (by omega)).1 ∗ owns (c : Thread nD τ) scM2_1 fullShare (acc2 V c (n - 1) (by omega)).2) ∗ others2 c) ∗ (∃ r, prngReg c r)) := by
  cases n with
  | zero => exact absurd rfl hz
  | succ n => rfl

/-! ## The proof data -/

/-- The proof data of the third launch on core `c`: the arrays as the launch finds them; after the body at a point
    each input's buffer still at its block, and the output's at the head of the accumulators as they stand after
    that point (which the pipeline reads at the last point only); the carried invariant; nothing owed; full shares. -/
def dat2 (V : (c : Dev nD) → (b : Ref sig .tc) → Buf (Elt F) ((c : Thread nD τ).loc b)) (c : Dev nD) :
    Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay2 (acc2 V c t.val t.isLt).1 (acc2 V c t.val t.isLt).2 (iblk2 V c 4 t) (iblk2 V c 5 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- Every window holds its buffer at the full share, and the body owes nothing at the pipeline's cells. -/
theorem q_eq2 (c : Dev nD) (w : Fin cfg2.W) : (dat2 V c).q w = fullShare := by
  dsimp only [dat2]
theorem owed_eq2 (c : Dev nD) (t) : (dat2 V c).owed t = 0 := by
  dsimp only [dat2]

/-- The body takes on no new units: the bound on recorded pairs stays everything. -/
theorem recorded_eq2 (c : Dev nD) (t : Fin (cfg2.N + 1)) : (dat2 V c).recorded t = Set.univ := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = k2_pay2 (acc2 V c t.val t.isLt).1 (acc2 V c t.val t.isLt).2 (iblk2 V c 4 t) (iblk2 V c 5 t) := by dsimp only [dat2]

/-- After the last point the output window's buffer holds the head's result. -/
theorem after2_6_last (c : Dev nD) : (dat2 V c).after 6 tLast2 = outLast2 V c := by
  rw [after2_6]; rfl

/-- The invariant at a point's start, restated at the point's number. -/
theorem Phi2_castSucc (c : Dev nD) (t : Fin cfg2.N) :
    (dat2 V c).Φ t.castSucc = Phi2 V c t.val (Nat.le_of_lt t.isLt) := by
  dsimp only [dat2]; simp only [Fin.coe_castSucc]

/-- The aggregate window moves at every point: its buffer holds the point's block of the aggregate. -/
private theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The scale window moves at every point: its buffer holds the point's block of the scale column. -/
private theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- The bias row is brought in at the first point only; the body leaves it as found and the window's block index never moves, so the buffer holds the row at every point. -/
private theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- The graph-number window moves at every point: its buffer holds the point's block of graph numbers. -/
private theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- The 64 × 2 weights are brought in once and left as found: the buffer holds them at every point. -/
private theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-- The 1 × 2 bias is brought in once and left as found: the buffer holds it at every point. -/
private theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-- An input window is never idle: the body leaves its buffer at the block it found. -/
private theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
private theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
private theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
private theorem leaves2_3 (c : Dev nD) (t : Fin cfg2.N) :
    (dat2 V c).leavesExact 3 t = owns (c : Thread nD τ) (ms2_3 t) fullShare (iblk2 V c 3 t) := by
  unfold Dat.leavesExact; rw [liveAt2_3 t, after2_3]
private theorem leaves2_4 (c : Dev nD) (t : Fin cfg2.N) :
    (dat2 V c).leavesExact 4 t = owns (c : Thread nD τ) (ms2_4 t) fullShare (iblk2 V c 4 t) := by
  unfold Dat.leavesExact; rw [liveAt2_4 t, after2_4]
private theorem leaves2_5 (c : Dev nD) (t : Fin cfg2.N) :
    (dat2 V c).leavesExact 5 t = owns (c : Thread nD τ) (ms2_5 t) fullShare (iblk2 V c 5 t) := by
  unfold Dat.leavesExact; rw [liveAt2_5 t, after2_5]

/-! ## The body obligation -/

/-- What the body is handed at point `t`: the invariant, the core's debt, and each window's current buffer, whole,
    at what the pipeline left in it, -/
private def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it hands back. -/
private def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point. The inputs' buffers hold their blocks. At the first point the invariant hands the body
    the two accumulators at anything, the body clears them and adds the point's products; at a later point it hands
    them at what the point before left, and the body adds to that. Either way the invariant takes them back at this
    point's contents. The output block is handed back untouched except at the last point, where the body stores the
    head of the accumulators as the point has just left them. The core owes nothing throughout. -/
private theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2, leaves2_3, leaves2_4, leaves2_5]
  have hN : t.val < 20 := lt_of_lt_of_eq t.isLt (show cfg2.N = 20 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 6 t (idleAt2_6 t hc1) (noFlush2_6 t hc1)]
    rw [acc2_first V c t h0]; dsimp only
    rw [Phi2_castSucc V c t, Phi2_zero V c _ _ h0, PhiA2_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro
            exact left2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) scM2_0.view es0
          · unfold owns; iexists _; isplitr
            swap; · iexact HS1
            ipureintro
            exact left2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) scM2_1.view es1
        · iexact Hr
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val = 19
    · have hc0 : ¬cond2_0 (grid2.coords t) := fun h => h0 ((hcond2_0 t).mp h)
      have hc1 : cond2_1 (grid2.coords t) := (hcond2_1 t).mpr h1
      rw [show (dat2 V c).leavesExact 6 t = owns (c : Thread nD τ) (ms2_6 t) fullShare ((dat2 V c).after 6 t) from by
        unfold Dat.leavesExact; rw [liveAt2_6 t hc1], after2_6]
      rw [acc2_later V c t h0]; dsimp only
      rw [Phi2_castSucc V c t, Phi2_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)).1 (acc2 V c (t.val - 1) (Nat.lt_of_le_of_lt (Nat.sub_le _ _) t.isLt)).2).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro
              exact left2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)).1 (acc2 V c (t.val - 1) (Nat.lt_of_le_of_lt (Nat.sub_le _ _) t.isLt)).2 scM2_0.view es0
            · unfold owns; iexists _; isplitr
              swap; · iexact HS1
              ipureintro
              exact left2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)).1 (acc2 V c (t.val - 1) (Nat.lt_of_le_of_lt (Nat.sub_le _ _) t.isLt)).2 scM2_1.view es1
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      exact left2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)).1 (acc2 V c (t.val - 1) (Nat.lt_of_le_of_lt (Nat.sub_le _ _) t.isLt)).2 (ms2_6 t).view e6
    · have hc0 : ¬cond2_0 (grid2.coords t) := fun h => h0 ((hcond2_0 t).mp h)
      have hc1 : ¬cond2_1 (grid2.coords t) := fun h => h1 ((hcond2_1 t).mp h)
      rw [Dat.leavesExact_idle (dat2 V c) 6 t (idleAt2_6 t hc1) (noFlush2_6 t hc1)]
      rw [acc2_later V c t h0]; dsimp only
      rw [Phi2_castSucc V c t, Phi2_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)).1 (acc2 V c (t.val - 1) (Nat.lt_of_le_of_lt (Nat.sub_le _ _) t.isLt)).2).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro
              exact left2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)).1 (acc2 V c (t.val - 1) (Nat.lt_of_le_of_lt (Nat.sub_le _ _) t.isLt)).2 scM2_0.view es0
            · unfold owns; iexists _; isplitr
              swap; · iexact HS1
              ipureintro
              exact left2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)).1 (acc2 V c (t.val - 1) (Nat.lt_of_le_of_lt (Nat.sub_le _ _) t.isLt)).2 scM2_1.view es1
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body at every point meets the pipeline's obligation for these proof data. -/
theorem body_obligation2 (c : Dev nD) : BodyObligation (dat2 (F := F) V c) (defs₀ (F := F)) Variants.none () Set.univ := fun t => by
  rw [bigSep_W2, bigSep_W2]
  exact sound_body2 V c t

/-- Before the first point the carried invariant is the plain one: the launch's own buffers at anything. -/
theorem hin2 (c : Dev nD) : Pipeline.ΦA spec2 c ⊢ (dat2 V c).Φ 0 := by
  rw [show (dat2 V c).Φ 0 = Phi2 V c 0 (Nat.zero_le _) from rfl, Phi2_zero V c 0 _ rfl]

/-- After the last point the carried invariant gives the plain one back: what the accumulators hold is forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 20 := N_2; omega), PhiA2_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

end Cert.Kernel.Hand

end
-- ==== Proof.K.Run.lean ====
/-
  The whole program run: three host stretches and three launches, from the launch memory to the return.

  Between two items every buffer that outlives a launch holds known contents. They are named here as a fold from
  the launch memory: a host stretch applies its operations; a launch leaves its input arrays as it found them and
  its output array at what its write-backs add up to; every other buffer is untouched. The run theorem says that
  every execution ends with each such buffer at the last of these contents. From it the frame is read off (no
  item writes an argument) and the result buffer is the third launch's output array.
-/
import proofs.«410454_j88278757802580_2_alg».proof.Proof.Gen.Kernel.Launch
import proofs.«410454_j88278757802580_2_alg».proof.Proof.Gen.Kernel.Skeleton
import proofs.«410454_j88278757802580_2_alg».proof.Proof.Gen.Kernel.Points
import proofs.«410454_j88278757802580_2_alg».proof.Proof.Gen.Kernel.Regions
import proofs.«410454_j88278757802580_2_alg».proof.Proof.K.Reg0
import proofs.«410454_j88278757802580_2_alg».proof.Proof.K.Reg1
import proofs.«410454_j88278757802580_2_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => m (c, b)
/-- After the first host stretch (the degree count and the scale column): the first launch's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first launch: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (gather along the edges, sum into the landing nodes): the second launch's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second launch. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the third host stretch: the third launch's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the third launch: the contents every execution ends with. -/
def W6 (c : Dev nD) : Valuation τ sig (Elt F) :=
  Pipeline.withArrays spec2 c (W5 m c) fun w => (dat2 (V5 m) c).arrAt w cfg2.N

/-! ## Reading the boundary contents

A launch's contents at one of its own arrays are what the pipeline leaves there; at any other buffer they are the
contents the launch was entered with. -/

namespace Run

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (V5 m) c).arrAt w cfg2.N = W6 m c (Proc.devRef .tc (Pipeline.arrRef spec2 w)) :=
  (W6_arr m c w).symm
theorem hrest2 (c : Dev nD) : ∀ b, b ∉ Finset.univ.image (Pipeline.arrRef spec2) → W6 m c (Proc.devRef .tc b) = V5 m c b :=
  fun b hb => W6_of_ne m c b fun w e => hb (Finset.mem_image.mpr ⟨w, Finset.mem_univ _, e⟩)

/-- An input array of a launch leaves it as it entered. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hin _).trans (A_eq1 (V3 m) c w))
theorem W6_in (c : Dev nD) (w : Fin cfg2.W) (hin : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hin _).trans (A_eq2 (V5 m) c w))

/-- A host stretch leaves a reference it does not write as it found it. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h

end Run

open Run

/-! ## The proof data family and the thread state -/

namespace Run

/-- The third launch's exit contents read at the TensorCore's references. -/
abbrev V6 : (c : Dev nD) → (b : Ref sig .tc) → Buf (Elt F) ((c : Thread nD τ).loc b) := fun c b => W6 m c b

/-- Every launch's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the buffers that outlive a launch, from the contents `W`; it ends with those
    buffers at the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every buffer that outlives a launch at the last boundary's contents, the
    generator register at some state. -/
abbrev Tₙ (c : Dev nD) : sProp 𝕄 := iprop(StableHlo.held (c : Thread nD τ) (Pipeline.ucRefs τ sig) (W6 m c) ∗ ∃ r, prngReg c r)

end Run
/-! ## The launches as segments -/

namespace Run

set_option backward.isDefEq.respectTransparency.types false in
/-- Launch 0 over the thread state: entered with every outliving buffer at `W1`, left with them at `W2`. Its arrays
    are split out of those buffers at entry and put back at the exit contents; the generator register goes into the
    plain invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every outliving buffer at `W3`, left with them at `W4`. Its arrays
    are split out of those buffers at entry and put back at the exit contents; the generator register goes into the
    plain invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every outliving buffer at `W5`, left with them at `W6` (what the
    run ends with). This launch carries an invariant of its own from point to point: it is entered from the plain
    invariant and gives the plain invariant back after the last point, so the generator register and the launch's
    own buffers pass through it as through the first two launches. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun c t => owed_eq2 (V5 m) c t
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun w => q_eq2 (V5 m) c w) (V5 m c) fun w => A_eq2 (V5 m) c w
    rw [Pipeline.unscopedBufs_held] at hsplit
    have hO : (pdats m 2 c).owed 0 = 0 := owed_eq2 (V5 m) c 0
    have hrec : (pdats m 2 c).recorded 0 = Set.univ := recorded_eq2 (V5 m) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%W, HO⟩; iexists W; isplitr
      · ipureintro; exact fun g _ => Or.inl (hrec ▸ Set.mem_univ g)
      iexact HO
    isplitl [Hp]; · iexact Hp
    iexact Hrest
  hin c := by
    have h : iprop((∃ r, prngReg c r) ∗ Pipeline.prefHeld (pcfgs (F := F) 2).pre c (fun _ => fullShare) (adm 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h.trans (hin2 (V5 m) c)
  hout c := by
    rw [Pipeline.ownSems0_none]
    have h : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (hout2 (V5 m) c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q_eq2 (V5 m) c w)
      (V5 m c) (V6 m c) ((pdats m 2 c).arrAt · cfg2.N) (hF2 m c) (hrest2 m c)
    rw [Pipeline.unscopedBufs_held] at hjoin
    have hO : (pdats m 2 c).owed (Fin.last (Pipeline.pin (pcfgs (F := F)) adm 2).N) = 0 := owed_eq2 (V5 m) c _
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [hO]
    icases HO with ⟨%W, -, HO⟩; iexists W; iexact HO

end Run
/-! ## The program as segments -/

namespace Run

/-- The program's six items in order: a host segment per stretch from its boundary's contents, a segment per launch. -/
abbrev items : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

/-- The program is the run of these segments. -/
theorem main_run (c : Dev nD) : main (F := F) c = Pipeline.Seg.run (items m) := (main_chain c).trans (by chain_rfl)

end Run

/-! ## What the run leaves -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. Every weakly fair execution from memory `m` with zero counters terminates without a fault, and in its
    final state every buffer that outlives a launch holds the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- The result buffer ends at the third launch's output array. -/
theorem W6_main_v41 (c : Dev nD) : W6 m c (Proc.devRef .tc main_v41) = (dat2 (V5 m) c).arrAt 6 cfg2.N :=
  W6_arr m c 6

/-- No item writes an argument: each ends as launched. A launch that reads the argument through an input window
    leaves that array as entered; every other launch does not have it among its arrays; no host stretch writes it. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_in m c 0 rfl
    _ = W0 m c (Proc.devRef .tc main_arg0) := W1_of m c main_arg0 (by decide)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_in m c 1 rfl
    _ = W0 m c (Proc.devRef .tc main_arg3) := W1_of m c main_arg3 (by decide)
    _ = m ((c : Thread nD τ).loc main_arg3) := rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := W5_of m c main_arg5 (by decide)
    _ = W3 m c (Proc.devRef .tc main_arg5) := W4_in m c 3 rfl
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl
theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_in m c 4 rfl
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of_ne m c main_arg7 (by decide)
    _ = W0 m c (Proc.devRef .tc main_arg7) := W1_of m c main_arg7 (by decide)
    _ = m ((c : Thread nD τ).loc main_arg7) := rfl
theorem W6_main_arg8 (c : Dev nD) : W6 m c (Proc.devRef .tc main_arg8) = m ((c : Thread nD τ).loc main_arg8) :=
  calc W6 m c (Proc.devRef .tc main_arg8)
    _ = W5 m c (Proc.devRef .tc main_arg8) := W6_of_ne m c main_arg8 (by decide)
    _ = W4 m c (Proc.devRef .tc main_arg8) := W5_of m c main_arg8 (by decide)
    _ = W3 m c (Proc.devRef .tc main_arg8) := W4_of_ne m c main_arg8 (by decide)
    _ = W2 m c (Proc.devRef .tc main_arg8) := W3_of m c main_arg8 (by decide)
    _ = W1 m c (Proc.devRef .tc main_arg8) := W2_of_ne m c main_arg8 (by decide)
    _ = W0 m c (Proc.devRef .tc main_arg8) := W1_of m c main_arg8 (by decide)
    _ = m ((c : Thread nD τ).loc main_arg8) := rfl

/-- THE FRAME, at any instance: every execution terminates without a fault and leaves each argument as launched. Each
    argument is a buffer that outlives the launches, so the run leaves it at the last boundary's contents, and those
    are the launch contents because no item writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c)⟩)
    (run_all m ρ)

end Cert.Kernel.Hand

end
-- ==== Proof.KI.Reg0.lean ====
/-
  The first launch (rows of x times W1, each row scaled by its node's scale), one grid point at a time.

  The launch walks 20 blocks of 5000 rows. At a point the body reads the block of x, the whole 64 × 64 weight
  matrix and the block of the scale column, and overwrites the output block with  (x_blk · W1) ⊙ scale_blk .
  Nothing is carried from one point to the next, so the proof data name, for every point, each input window's
  buffer as its block of the array the launch found, and the output window's buffer as that one product.
-/
import proofs.«410454_j88278757802580_2_alg».proof.Proof.Gen.KernelIdeal.Launch
import proofs.«410454_j88278757802580_2_alg».proof.Proof.Gen.KernelIdeal.Skeleton
import proofs.«410454_j88278757802580_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the launch finds them on each core: the parameter every statement below is made at
variable (V : (c : Dev nD) → (b : Ref sig .tc) → Buf (Elt F) ((c : Thread nD τ).loc b))

/-- Window `w`'s block at point `t`, cut out of its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 5000 × 64 block, as one rectangle. -/
abbrev r0_out : Rect S5000x64 := Rect.unit (s := S5000x64) ![0, 0] S5000x64.size inb_S5000x64_S5000x64_0_0
abbrev r0_w : Rect S64x64 := Rect.unit (s := S64x64) ![0, 0] S64x64.size inb_S64x64_S64x64_0_0
abbrev r0_col : Rect S5000x1 := Rect.unit (s := S5000x1) ![0, 0] S5000x1.size inb_S5000x1_S5000x1_0_0

/-- What the body leaves in the output window's buffer: its one whole-block store of the scaled product. -/
def out0_3 (x0 : Vec F S5000x64 .f32) (x1 : Vec F S64x64 .f32) (x2 : Vec F S5000x1 .f32) : Vec F S5000x64 .f32 :=
  View.canon [⟨r0_out, k0_pay1 (View.ld x0 r0_out) (View.ld x1 r0_w) (View.ld x2 r0_col)⟩]

/-- The one store is the whole block, so it covers it. -/
theorem cover0_3 (p0 : Vec F S5000x64 .f32) (y : S5000x64.Idx) :
    ∃ pc ∈ ([⟨r0_out, p0⟩] : List (View.Piece (Elt F) S5000x64 .f32)), y ∈ pc.1.set :=
  View.cover_of_tiled [⟨r0_out, p0⟩] S5000x64.size (by rfl) y

set_option maxHeartbeats 1000000 in
/-- The body on whole staging buffers, the three inputs at known contents and the output at anything, runs to the
    end with the inputs as they were and the output at the scaled product of the inputs. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S5000x1 .f32) (harg3 : arg3.IsWhole) (arg4 : Memref sig .tc .vmem S5000x64 .f32) (harg4 : arg4.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_scale_kernel i arg1 harg1 arg2 harg2 arg3 harg3 arg4 harg4) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first launch on core `c`: the arrays as found; after the body each input's buffer at its
    block and the output's at the scaled product of the point's blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- The buffer of the x window holds the point's block of x: the window moves at every point, and a moved window's
    buffer holds the block the transfer brought. -/
private theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The buffer of the weight window holds the whole weight matrix at every point although it is brought in at the
    first point only: the body leaves it as found, and the window's block index is the same at all points. -/
private theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The buffer of the scale window holds the point's block of the scale column. -/
private theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- What the body is handed at point `t`: the invariant, the core's debt, and each window's current buffer, whole,
    at what the pipeline left in it, -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back: the same invariant and debt, and each buffer at what the proof data say the body leaves. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at a point. The three input buffers hold their blocks, so the body's triple applies with those blocks as
    the known contents; the invariant and the debt are not read and come out as they went in (they do not depend on
    the point). -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body at every point meets the pipeline's obligation for these proof data. -/
theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.KI.Reg1.lean ====
/-
  The second launch, one grid point at a time: the first layer's epilogue fused with the second layer's product.

  At a point the body reads the block of the raw aggregate, the block of the scale column, the bias row and the whole
  64 × 64 weight matrix, forms  h = max(scale ⊙ agg + bias, 0) , and overwrites the output block with
  (h · W2) ⊙ scale_blk . Nothing is carried between points.
-/
import proofs.«410454_j88278757802580_2_alg».proof.Proof.Gen.KernelIdeal.Launch
import proofs.«410454_j88278757802580_2_alg».proof.Proof.Gen.KernelIdeal.Skeleton
import proofs.«410454_j88278757802580_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_out : Rect S5000x64 := Rect.unit (s := S5000x64) ![0, 0] S5000x64.size inb_S5000x64_S5000x64_0_0
abbrev r1_col : Rect S5000x1 := Rect.unit (s := S5000x1) ![0, 0] S5000x1.size inb_S5000x1_S5000x1_0_0
abbrev r1_row : Rect S1x64 := Rect.unit (s := S1x64) ![0, 0] S1x64.size inb_S1x64_S1x64_0_0
abbrev r1_w : Rect S64x64 := Rect.unit (s := S64x64) ![0, 0] S64x64.size inb_S64x64_S64x64_0_0

/-- What the body leaves in the output window's buffer, from the aggregate block `x0`, the scale column block `x1`,
    the bias row `x2` and the weight matrix `x3`: its one whole-block store (the scale column is read twice). -/
def out1_4 (x0 : Vec F S5000x64 .f32) (x1 : Vec F S5000x1 .f32) (x2 : Vec F S1x64 .f32) (x3 : Vec F S64x64 .f32) : Vec F S5000x64 .f32 :=
  View.canon [⟨r1_out, k1_pay1 (View.ld x1 r1_col) (View.ld x0 r1_out) (View.ld x2 r1_row) (View.ld x3 r1_w) (View.ld x1 r1_col)⟩]

theorem cover1_4 (p0 : Vec F S5000x64 .f32) (y : S5000x64.Idx) :
    ∃ pc ∈ ([⟨r1_out, p0⟩] : List (View.Piece (Elt F) S5000x64 .f32)), y ∈ pc.1.set :=
  View.cover_of_tiled [⟨r1_out, p0⟩] S5000x64.size (by rfl) y

set_option maxHeartbeats 1000000 in
/-- The body on whole staging buffers, the four inputs at known contents and the output at anything, runs to the
    end with the inputs as they were and the output at `out1_4` of them. -/
theorem sound_kernel1 (c : Dev nD) (E : Set ℕ) (i : grid1.Coords)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S5000x64 .f32) (harg5 : arg5.IsWhole)
    (x0 : Vec F S5000x64 .f32) (x1 : Vec F S5000x1 .f32) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__layer2_fused_kernel i arg1 harg1 arg2 harg2 arg3 harg3 arg4 harg4 arg5 harg5) K := by
  simp only [cc1__layer2_fused_kernel_eq_skeleton]; unfold cc1__layer2_fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the second launch on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- The buffer of the aggregate window holds the point's block of the aggregate: the window moves at every point, and
    a moved window's buffer holds the block the transfer brought. -/
private theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The buffer of the scale window holds the point's block of the scale column. -/
private theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The buffer of the bias window holds the bias row at every point although it is brought in at the first point
    only: the body leaves it as found, and the window's block index is the same at all points. -/
private theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The same of the weight window: the whole weight matrix, brought in once and left as found. -/
private theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- What the body is handed at point `t`: the invariant, the core's debt, and each window's current buffer, whole,
    at what the pipeline left in it, -/
private def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back: the same invariant and debt, and each buffer at what the proof data say the body leaves. -/
private def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at a point. The four input buffers hold their blocks, so the body's triple applies with those blocks as
    the known contents; the invariant and the debt are not read and come out as they went in (they do not depend on
    the point). -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body at every point meets the pipeline's obligation for these proof data. -/
theorem body_obligation1 (c : Dev nD) : BodyObligation (dat1 (F := F) V c) (defs₀ (F := F)) Variants.none () Set.univ := by
  intro t
  rw [bigSep_W1, bigSep_W1]
  exact sound_body1 V c t

end Cert.KernelIdeal.Hand

end
-- ==== Proof.KI.Reg2Runs.lean ====
/-
  The third launch's body, run once for each of its three control cases, and what each run leaves.

  The body has two conditionals on the grid coordinate: at the first point it clears the two 64 × 64 accumulators, at
  the last point it computes the head from them and stores the 64 × 2 output block. Over the 20 points that makes
  three cases: the first point (clear, then accumulate), the eighteen middle points (accumulate), the last point
  (accumulate, then the head). In every case the first accumulator receives  onehotᵀ · h  added to what it held and the
  second  onehotᵀ · ones  added to what it held, each by one store of the whole buffer; so what a buffer holds after
  the run is the value of the last store into it, with every load inside that value read back: a load of an input
  buffer reads the block, a load of an accumulator after a store into it reads what was stored.
-/
import proofs.«410454_j88278757802580_2_alg».proof.Proof.Gen.KernelIdeal.Launch
import proofs.«410454_j88278757802580_2_alg».proof.Proof.Gen.KernelIdeal.Skeleton
import proofs.«410454_j88278757802580_2_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body, over the grid -/

/-- The first conditional of the body (clear both accumulators), from the grid coordinate. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The second conditional of the body (compute the head and store the output), from the grid coordinate. -/
abbrev cond2_1 (i : grid2.Coords) : Prop := k2_cond2 i = 1#1
/-- It holds at the last point only. -/
theorem hcond2_1 : ∀ t : Fin cfg2.N, cond2_1 (grid2.coords t) ↔ t.val = 19 :=
  (by decide +kernel : ∀ t : Fin grid2.N, cond2_1 (grid2.coords t) ↔ t.val = 19)

/-- The output window is idle, and not written back, exactly where the second conditional fails. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-- The six input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl

/-- The offsets of every whole-buffer rectangle of the body are zero. -/
theorem hz2 : (![0, 0] : Fin 2 → Nat) = fun _ => 0 := funext fun a => by fin_cases a <;> rfl

/-! ## The body run once per control case

Each run is stated on arbitrary whole memrefs: the six inputs at given contents and handed back as they were; the
output block handed back untouched where the head is not computed, and with the head's store written where it is; the two
accumulators at anything at the first point (they are cleared there) and at given contents later, and left with
the stores of the point written. The lists of stores are found by running the body. -/

set_option maxHeartbeats 1000000 in
/-- The first point: both accumulators cleared, then this point's products added. -/
noncomputable def kernelRun2_A (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : cond2_0 i) (hc1 : ¬cond2_1 i)
    (x0 : Vec F S5000x64 .f32) (x1 : Vec F S5000x1 .f32) (x2 : Vec F S1x64 .f32) (x3 : Vec F S5000x1 .i32) (x4 : Vec F S64x2 .f32) (x5 : Vec F S1x2 .f32) :
    Σ' (LS0 : List (View.Piece (Elt F) S64x64 .f32)), { LS1 : List (View.Piece (Elt F) S64x64 .f32) //
      ∀ (xi6 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__pool_fc_kernel i arg1 harg1 arg2 harg2 arg3 harg3 arg4 harg4 arg5 harg5 arg6 harg6 arg7 harg7 arg8 harg8 arg9 harg9) K } := by
  refine ⟨?_, ?_, fun xi6 E K => ?run⟩
  case run =>
    simp only [cc2__pool_fc_kernel_eq_skeleton]; unfold cc2__pool_fc_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 1000000 in
/-- A middle point: this point's products added to what the point before left. -/
noncomputable def kernelRun2_B (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : ¬cond2_0 i) (hc1 : ¬cond2_1 i)
    (x0 : Vec F S5000x64 .f32) (x1 : Vec F S5000x1 .f32) (x2 : Vec F S1x64 .f32) (x3 : Vec F S5000x1 .i32) (x4 : Vec F S64x2 .f32) (x5 : Vec F S1x2 .f32) (xs0 xs1 : Vec F S64x64 .f32) :
    Σ' (LS0 : List (View.Piece (Elt F) S64x64 .f32)), { LS1 : List (View.Piece (Elt F) S64x64 .f32) //
      ∀ (xi6 : Vec F S64x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__pool_fc_kernel i arg1 harg1 arg2 harg2 arg3 harg3 arg4 harg4 arg5 harg5 arg6 harg6 arg7 harg7 arg8 harg8 arg9 harg9) K } := by
  refine ⟨?_, ?_, fun xi6 E K => ?run⟩
  case run =>
    simp only [cc2__pool_fc_kernel_eq_skeleton]; unfold cc2__pool_fc_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

set_option maxHeartbeats 1000000 in
/-- The last point: this point's products added, then the head computed from the two accumulators and stored. -/
noncomputable def kernelRun2_C (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : ¬cond2_0 i) (hc1 : cond2_1 i)
    (x0 : Vec F S5000x64 .f32) (x1 : Vec F S5000x1 .f32) (x2 : Vec F S1x64 .f32) (x3 : Vec F S5000x1 .i32) (x4 : Vec F S64x2 .f32) (x5 : Vec F S1x2 .f32) (xs0 xs1 : Vec F S64x64 .f32) :
    Σ' (L6 : List (View.Piece (Elt F) S64x2 .f32)) (LS0 : List (View.Piece (Elt F) S64x64 .f32)), { LS1 : List (View.Piece (Elt F) S64x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc2__pool_fc_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__pool_fc_kernel_eq_skeleton]; unfold cc2__pool_fc_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

/-! ## What each run leaves

The stores found by a run, read back through any view of the buffer: the last store into a buffer is of the whole
buffer, so the buffer holds that store's value; the value's own loads are of whole buffers and read their contents,
a load of an accumulator after a store into it in the same run reads what was stored. -/

/-- A buffer whose last store is of the whole buffer (a rectangle of the buffer's own sizes at zero offsets) holds
    that store's value, whatever was stored before and whatever it held: the store covers every index, and the last
    store into an index is what the index holds. -/
theorem read_writes_whole_last {S : Shape} {e : EltTy} {κ : Kind} {sp : Space} (v : View sig κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- The first point leaves in the first accumulator the point's sums over the cleared buffer. -/
theorem left2_A_0 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : cond2_0 i) (hc1 : ¬cond2_1 i) (x0 : Vec F S5000x64 .f32) (x1 : Vec F S5000x1 .f32) (x2 : Vec F S1x64 .f32) (x3 : Vec F S5000x1 .i32) (x4 : Vec F S64x2 .f32) (x5 : Vec F S1x2 .f32)
    (v : View sig .tc .vmem S64x64 .f32) (f : v.ty.Contents (Elt F)) :
    v.read (Elt F) (v.writes (Elt F) f (kernelRun2_A c i arg1 harg1 arg2 harg2 arg3 harg3 arg4 harg4 arg5 harg5 arg6 harg6 arg7 harg7 arg8 harg8 arg9 harg9 hc0 hc1 x0 x1 x2 x3 x4 x5).1) = k2_pay7 x1 x0 x2 x3 (k2_pay3 (F := F)) := by
  unfold kernelRun2_A
  dsimp only
  sl_unfold_words
  refine (read_writes_whole_last (S := S64x64) v f hz2 _ _ _).trans ?_
  simp only [View.readAt_eq_ld, harg1.read_unread, harg2.read_unread, harg3.read_unread, harg4.read_unread, harg5.read_unread, harg6.read_unread, harg8.read_unread, harg9.read_unread,
    View.readCov_unit_zero (S := S64x64) _ hz2,
    View.ld_unit_zero (S := S5000x64) hz2, View.ld_unit_zero (S := S5000x1) hz2, View.ld_unit_zero (S := S1x64) hz2, View.ld_unit_zero (S := S64x2) hz2, View.ld_unit_zero (S := S1x2) hz2, View.ld_unit_zero (S := S64x64) hz2]

/-- The first point leaves in the second accumulator the point's counts over the cleared buffer. -/
theorem left2_A_1 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : cond2_0 i) (hc1 : ¬cond2_1 i) (x0 : Vec F S5000x64 .f32) (x1 : Vec F S5000x1 .f32) (x2 : Vec F S1x64 .f32) (x3 : Vec F S5000x1 .i32) (x4 : Vec F S64x2 .f32) (x5 : Vec F S1x2 .f32)
    (v : View sig .tc .vmem S64x64 .f32) (f : v.ty.Contents (Elt F)) :
    v.read (Elt F) (v.writes (Elt F) f (kernelRun2_A c i arg1 harg1 arg2 harg2 arg3 harg3 arg4 harg4 arg5 harg5 arg6 harg6 arg7 harg7 arg8 harg8 arg9 harg9 hc0 hc1 x0 x1 x2 x3 x4 x5).2.1) = k2_pay1 (k2_pay6 (F := F)) (k2_pay4 (F := F)) (k2_pay8 x3) (constant S64x64 .f32 0x00000000#32) := by
  unfold kernelRun2_A
  dsimp only
  sl_unfold_words
  refine (read_writes_whole_last (S := S64x64) v f hz2 _ _ _).trans ?_
  simp only [View.readAt_eq_ld, harg1.read_unread, harg2.read_unread, harg3.read_unread, harg4.read_unread, harg5.read_unread, harg6.read_unread, harg8.read_unread, harg9.read_unread,
    View.readCov_unit_zero (S := S64x64) _ hz2,
    View.ld_unit_zero (S := S5000x64) hz2, View.ld_unit_zero (S := S5000x1) hz2, View.ld_unit_zero (S := S1x64) hz2, View.ld_unit_zero (S := S64x2) hz2, View.ld_unit_zero (S := S1x2) hz2, View.ld_unit_zero (S := S64x64) hz2]

/-- A middle point leaves in the first accumulator the point's sums over what it held. -/
theorem left2_B_0 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : ¬cond2_0 i) (hc1 : ¬cond2_1 i) (x0 : Vec F S5000x64 .f32) (x1 : Vec F S5000x1 .f32) (x2 : Vec F S1x64 .f32) (x3 : Vec F S5000x1 .i32) (x4 : Vec F S64x2 .f32) (x5 : Vec F S1x2 .f32) (xs0 xs1 : Vec F S64x64 .f32)
    (v : View sig .tc .vmem S64x64 .f32) (f : v.ty.Contents (Elt F)) :
    v.read (Elt F) (v.writes (Elt F) f (kernelRun2_B c i arg1 harg1 arg2 harg2 arg3 harg3 arg4 harg4 arg5 harg5 arg6 harg6 arg7 harg7 arg8 harg8 arg9 harg9 hc0 hc1 x0 x1 x2 x3 x4 x5 xs0 xs1).1) = k2_pay7 x1 x0 x2 x3 xs0 := by
  unfold kernelRun2_B
  dsimp only
  sl_unfold_words
  refine (read_writes_whole_last (S := S64x64) v f hz2 _ _ _).trans ?_
  simp only [View.readAt_eq_ld, harg1.read_unread, harg2.read_unread, harg3.read_unread, harg4.read_unread, harg5.read_unread, harg6.read_unread, harg8.read_unread, harg9.read_unread,
    View.readCov_unit_zero (S := S64x64) _ hz2,
    View.ld_unit_zero (S := S5000x64) hz2, View.ld_unit_zero (S := S5000x1) hz2, View.ld_unit_zero (S := S1x64) hz2, View.ld_unit_zero (S := S64x2) hz2, View.ld_unit_zero (S := S1x2) hz2, View.ld_unit_zero (S := S64x64) hz2]

/-- A middle point leaves in the second accumulator the point's counts over what it held. -/
theorem left2_B_1 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : ¬cond2_0 i) (hc1 : ¬cond2_1 i) (x0 : Vec F S5000x64 .f32) (x1 : Vec F S5000x1 .f32) (x2 : Vec F S1x64 .f32) (x3 : Vec F S5000x1 .i32) (x4 : Vec F S64x2 .f32) (x5 : Vec F S1x2 .f32) (xs0 xs1 : Vec F S64x64 .f32)
    (v : View sig .tc .vmem S64x64 .f32) (f : v.ty.Contents (Elt F)) :
    v.read (Elt F) (v.writes (Elt F) f (kernelRun2_B c i arg1 harg1 arg2 harg2 arg3 harg3 arg4 harg4 arg5 harg5 arg6 harg6 arg7 harg7 arg8 harg8 arg9 harg9 hc0 hc1 x0 x1 x2 x3 x4 x5 xs0 xs1).2.1) = k2_pay1 (k2_pay6 (F := F)) xs1 (k2_pay8 x3) (constant S64x64 .f32 0x00000000#32) := by
  unfold kernelRun2_B
  dsimp only
  sl_unfold_words
  refine (read_writes_whole_last (S := S64x64) v f hz2 _ _ _).trans ?_
  simp only [View.readAt_eq_ld, harg1.read_unread, harg2.read_unread, harg3.read_unread, harg4.read_unread, harg5.read_unread, harg6.read_unread, harg8.read_unread, harg9.read_unread,
    View.readCov_unit_zero (S := S64x64) _ hz2,
    View.ld_unit_zero (S := S5000x64) hz2, View.ld_unit_zero (S := S5000x1) hz2, View.ld_unit_zero (S := S1x64) hz2, View.ld_unit_zero (S := S64x2) hz2, View.ld_unit_zero (S := S1x2) hz2, View.ld_unit_zero (S := S64x64) hz2]

/-- The last point leaves in the output block the head of the two accumulators as the point itself has just left them. -/
theorem left2_C_6 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : ¬cond2_0 i) (hc1 : cond2_1 i) (x0 : Vec F S5000x64 .f32) (x1 : Vec F S5000x1 .f32) (x2 : Vec F S1x64 .f32) (x3 : Vec F S5000x1 .i32) (x4 : Vec F S64x2 .f32) (x5 : Vec F S1x2 .f32) (xs0 xs1 : Vec F S64x64 .f32)
    (v : View sig .tc .vmem S64x2 .f32) (f : v.ty.Contents (Elt F)) :
    v.read (Elt F) (v.writes (Elt F) f (kernelRun2_C c i arg1 harg1 arg2 harg2 arg3 harg3 arg4 harg4 arg5 harg5 arg6 harg6 arg7 harg7 arg8 harg8 arg9 harg9 hc0 hc1 x0 x1 x2 x3 x4 x5 xs0 xs1).1) = k2_pay2 (k2_pay7 x1 x0 x2 x3 xs0) (k2_pay1 (k2_pay6 (F := F)) xs1 (k2_pay8 x3) (constant S64x64 .f32 0x00000000#32)) x4 x5 := by
  unfold kernelRun2_C
  dsimp only
  sl_unfold_words
  refine (read_writes_whole_last (S := S64x2) v f hz2 _ _ _).trans ?_
  simp only [View.readAt_eq_ld, harg1.read_unread, harg2.read_unread, harg3.read_unread, harg4.read_unread, harg5.read_unread, harg6.read_unread, harg8.read_unread, harg9.read_unread,
    View.readCov_unit_zero (S := S64x64) _ hz2,
    View.ld_unit_zero (S := S5000x64) hz2, View.ld_unit_zero (S := S5000x1) hz2, View.ld_unit_zero (S := S1x64) hz2, View.ld_unit_zero (S := S64x2) hz2, View.ld_unit_zero (S := S1x2) hz2, View.ld_unit_zero (S := S64x64) hz2]

/-- The last point leaves in the first accumulator the point's sums over what it held. -/
theorem left2_C_0 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : ¬cond2_0 i) (hc1 : cond2_1 i) (x0 : Vec F S5000x64 .f32) (x1 : Vec F S5000x1 .f32) (x2 : Vec F S1x64 .f32) (x3 : Vec F S5000x1 .i32) (x4 : Vec F S64x2 .f32) (x5 : Vec F S1x2 .f32) (xs0 xs1 : Vec F S64x64 .f32)
    (v : View sig .tc .vmem S64x64 .f32) (f : v.ty.Contents (Elt F)) :
    v.read (Elt F) (v.writes (Elt F) f (kernelRun2_C c i arg1 harg1 arg2 harg2 arg3 harg3 arg4 harg4 arg5 harg5 arg6 harg6 arg7 harg7 arg8 harg8 arg9 harg9 hc0 hc1 x0 x1 x2 x3 x4 x5 xs0 xs1).2.1) = k2_pay7 x1 x0 x2 x3 xs0 := by
  unfold kernelRun2_C
  dsimp only
  sl_unfold_words
  refine (read_writes_whole_last (S := S64x64) v f hz2 _ _ _).trans ?_
  simp only [View.readAt_eq_ld, harg1.read_unread, harg2.read_unread, harg3.read_unread, harg4.read_unread, harg5.read_unread, harg6.read_unread, harg8.read_unread, harg9.read_unread,
    View.readCov_unit_zero (S := S64x64) _ hz2,
    View.ld_unit_zero (S := S5000x64) hz2, View.ld_unit_zero (S := S5000x1) hz2, View.ld_unit_zero (S := S1x64) hz2, View.ld_unit_zero (S := S64x2) hz2, View.ld_unit_zero (S := S1x2) hz2, View.ld_unit_zero (S := S64x64) hz2]

/-- The last point leaves in the second accumulator the point's counts over what it held. -/
theorem left2_C_1 (c : Dev nD) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x1 .i32) (harg4 : arg4.IsWhole) (arg5 : Memref sig .tc .vmem S64x2 .f32) (harg5 : arg5.IsWhole) (arg6 : Memref sig .tc .vmem S1x2 .f32) (harg6 : arg6.IsWhole) (arg7 : Memref sig .tc .vmem S64x2 .f32) (harg7 : arg7.IsWhole) (arg8 : Memref sig .tc .vmem S64x64 .f32) (harg8 : arg8.IsWhole) (arg9 : Memref sig .tc .vmem S64x64 .f32) (harg9 : arg9.IsWhole) (hc0 : ¬cond2_0 i) (hc1 : cond2_1 i) (x0 : Vec F S5000x64 .f32) (x1 : Vec F S5000x1 .f32) (x2 : Vec F S1x64 .f32) (x3 : Vec F S5000x1 .i32) (x4 : Vec F S64x2 .f32) (x5 : Vec F S1x2 .f32) (xs0 xs1 : Vec F S64x64 .f32)
    (v : View sig .tc .vmem S64x64 .f32) (f : v.ty.Contents (Elt F)) :
    v.read (Elt F) (v.writes (Elt F) f (kernelRun2_C c i arg1 harg1 arg2 harg2 arg3 harg3 arg4 harg4 arg5 harg5 arg6 harg6 arg7 harg7 arg8 harg8 arg9 harg9 hc0 hc1 x0 x1 x2 x3 x4 x5 xs0 xs1).2.2.1) = k2_pay1 (k2_pay6 (F := F)) xs1 (k2_pay8 x3) (constant S64x64 .f32 0x00000000#32) := by
  unfold kernelRun2_C
  dsimp only
  sl_unfold_words
  refine (read_writes_whole_last (S := S64x64) v f hz2 _ _ _).trans ?_
  simp only [View.readAt_eq_ld, harg1.read_unread, harg2.read_unread, harg3.read_unread, harg4.read_unread, harg5.read_unread, harg6.read_unread, harg8.read_unread, harg9.read_unread,
    View.readCov_unit_zero (S := S64x64) _ hz2,
    View.ld_unit_zero (S := S5000x64) hz2, View.ld_unit_zero (S := S5000x1) hz2, View.ld_unit_zero (S := S1x64) hz2, View.ld_unit_zero (S := S64x2) hz2, View.ld_unit_zero (S := S1x2) hz2, View.ld_unit_zero (S := S64x64) hz2]

end Cert.KernelIdeal.Hand

end
-- ==== Proof.KI.Reg2.lean ====
/-
  The third launch, one grid point at a time: the second layer's epilogue, the per-graph sums and counts carried in
  two 64 × 64 accumulators over the 20 points, and at the last point the mean, the two logits and their log-softmax.

  Point 0 first clears both accumulators. Every point forms  h = max(scale ⊙ agg + bias, 0)  on its 5000 rows and
  the one-hot matrix of the rows' graph numbers, and adds  onehotᵀ · h  to the first accumulator and
  onehotᵀ · ones  to the second. Point 19 then divides the first by the second (a count below one read as one),
  multiplies by the 64 × 2 weights, adds the bias, and writes the log-softmax to the 64 × 2 output block, which is
  written back only there. The accumulators are the launch's own two buffers: the invariant carried from point to
  point says what they hold.
-/
import proofs.«410454_j88278757802580_2_alg».proof.Proof.Gen.KernelIdeal.Launch
import proofs.«410454_j88278757802580_2_alg».proof.Proof.Gen.KernelIdeal.Skeleton
import proofs.«410454_j88278757802580_2_alg».proof.Proof.Gen.KernelIdeal.Points
import proofs.«410454_j88278757802580_2_alg».proof.Proof.KI.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two accumulators after point `n`: the sums and the counts. Point 0 starts both from the cleared buffers;
    a later point adds its block's products to what the point before left. -/
def acc2 (c : Dev nD) : (n : ℕ) → n < cfg2.N → Vec F S64x64 .f32 × Vec F S64x64 .f32
  | 0, h =>
    (k2_pay7 (iblk2 V c 1 ⟨0, h⟩) (iblk2 V c 0 ⟨0, h⟩) (iblk2 V c 2 ⟨0, h⟩) (iblk2 V c 3 ⟨0, h⟩) (k2_pay3 (F := F)),
     k2_pay1 (k2_pay6 (F := F)) (k2_pay4 (F := F)) (k2_pay8 (iblk2 V c 3 ⟨0, h⟩)) (constant S64x64 .f32 0x00000000#32))
  | n + 1, h =>
    (k2_pay7 (iblk2 V c 1 ⟨n + 1, h⟩) (iblk2 V c 0 ⟨n + 1, h⟩) (iblk2 V c 2 ⟨n + 1, h⟩) (iblk2 V c 3 ⟨n + 1, h⟩)
        (acc2 c n (Nat.lt_of_succ_lt h)).1,
     k2_pay1 (k2_pay6 (F := F)) (acc2 c n (Nat.lt_of_succ_lt h)).2 (k2_pay8 (iblk2 V c 3 ⟨n + 1, h⟩))
        (constant S64x64 .f32 0x00000000#32))

/-- The last point, as a point of the grid. -/
abbrev tLast2 : Fin cfg2.N := ⟨19, by decide⟩

/-- What the last point writes to the output block: the head of the network on the two full accumulators. -/
def outLast2 (c : Dev nD) : Vec F S64x2 .f32 :=
  k2_pay2 (acc2 V c 19 (by decide)).1 (acc2 V c 19 (by decide)).2 (iblk2 V c 4 tLast2) (iblk2 V c 5 tLast2)

/-! ## The accumulators, point by point -/

/-- At the first point the accumulators hold the point's products over the cleared buffers. -/
theorem acc2_first (c : Dev nD) (t : Fin cfg2.N) (h : t.val = 0) :
    acc2 V c t.val t.isLt
      = (k2_pay7 (iblk2 V c 1 t) (iblk2 V c 0 t) (iblk2 V c 2 t) (iblk2 V c 3 t) (k2_pay3 (F := F)),
       k2_pay1 (k2_pay6 (F := F)) (k2_pay4 (F := F)) (k2_pay8 (iblk2 V c 3 t)) (constant S64x64 .f32 0x00000000#32)) := by
  obtain ⟨n, hn⟩ := t
  cases n with
  | zero => rfl
  | succ n => exact absurd h (Nat.succ_ne_zero n)

/-- At a later point they hold the point's products over what the point before left. -/
theorem acc2_later (c : Dev nD) (t : Fin cfg2.N) (h : t.val ≠ 0) :
    acc2 V c t.val t.isLt
      = (k2_pay7 (iblk2 V c 1 t) (iblk2 V c 0 t) (iblk2 V c 2 t) (iblk2 V c 3 t) (acc2 V c (t.val - 1) (Nat.lt_of_le_of_lt (Nat.sub_le _ _) t.isLt)).1,
       k2_pay1 (k2_pay6 (F := F)) (acc2 V c (t.val - 1) (Nat.lt_of_le_of_lt (Nat.sub_le _ _) t.isLt)).2 (k2_pay8 (iblk2 V c 3 t)) (constant S64x64 .f32 0x00000000#32)) := by
  obtain ⟨n, hn⟩ := t
  cases n with
  | zero => exact absurd rfl h
  | succ n => rfl

/-! ## The memrefs the body is called with -/

/-- Each window's current staging memref at point `t`, and that it is a whole buffer. -/
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5000x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x2 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x2 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64x2 .f32 := win2_6.stage (cfg2.slots t 6)
abbrev hs2_6 (t : Fin cfg2.N) : (ms2_6 t).IsWhole := hstage2_6 ((cfg2.slots t 6).cast nbuf2_6)
/-- The two accumulators: whole buffers of the launch's own, passed beside the windows. -/
abbrev scM2_0 : Memref sig .tc .vmem S64x64 .f32 := Memref.whole cc2_scratch0
abbrev scM2_1 : Memref sig .tc .vmem S64x64 .f32 := Memref.whole cc2_scratch1

/-! ## The invariant carried from point to point -/

/-- The core's scoped buffers that are neither a staging buffer of this launch nor one of the two accumulators
    (the staging buffers of the two launches before), each at anything: carried unopened. -/
abbrev others2 (c : Dev nD) : sProp 𝕄 :=
  Pipeline.scopedRestBut (Ix := Unit) (Name := ℕ) (U := UR sig nD τ) (Lvl := ℕ) (Val := Elt F) spec2 c [cc2_scratch0, cc2_scratch1]

/-- The plain invariant of the launch with the two accumulators taken out of the scoped rest, as memrefs owned at
    some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ others2 c) ∗ (∃ r, prngReg c r)) := by
  unfold Pipeline.ΦA
  rw [Pipeline.scopedRest_split_of_list spec2 c [cc2_scratch0, cc2_scratch1] (by decide) (by decide)]
  simp only [scM2_0, scM2_1, owns_whole, bigSepL_cons_cons, bigSepL_singleton]; try rfl

/-- The invariant before position `n`: before the first point the plain one (the accumulators at anything);
    afterwards the accumulators at what the points so far have left in them, the other scoped buffers at anything and
    the generator register at some state. -/
def Phi2 (c : Dev nD) : (n : ℕ) → n ≤ cfg2.N → sProp 𝕄
  | 0, _ => Pipeline.ΦA spec2 c
  | n + 1, hn => iprop(iprop(iprop(owns (c : Thread nD τ) scM2_0 fullShare (acc2 V c n hn).1 ∗ owns (c : Thread nD τ) scM2_1 fullShare (acc2 V c n hn).2) ∗ others2 c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(iprop(owns (c : Thread nD τ) scM2_0 fullShare (acc2 V c n hn).1 ∗ owns (c : Thread nD τ) scM2_1 fullShare (acc2 V c n hn).2) ∗ others2 c) ∗ (∃ r, prngReg c r)) := rfl

theorem Phi2_pos (c : Dev nD) (n : ℕ) (h : n ≤ cfg2.N) (hz : n ≠ 0) :
    Phi2 V c n h = iprop(iprop(iprop(owns (c : Thread nD τ) scM2_0 fullShare (acc2 V c (n - 1) (by omega)).1 ∗ owns (c : Thread nD τ) scM2_1 fullShare (acc2 V c (n - 1) (by omega)).2) ∗ others2 c) ∗ (∃ r, prngReg c r)) := by
  cases n with
  | zero => exact absurd rfl hz
  | succ n => rfl

/-! ## The proof data -/

/-- The proof data of the third launch on core `c`: the arrays as the launch finds them; after the body at a point
    each input's buffer still at its block, and the output's at the head of the accumulators as they stand after
    that point (which the pipeline reads at the last point only); the carried invariant; nothing owed; full shares. -/
def dat2 (V : (c : Dev nD) → (b : Ref sig .tc) → Buf (Elt F) ((c : Thread nD τ).loc b)) (c : Dev nD) :
    Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay2 (acc2 V c t.val t.isLt).1 (acc2 V c t.val t.isLt).2 (iblk2 V c 4 t) (iblk2 V c 5 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- Every window holds its buffer at the full share, and the body owes nothing at the pipeline's cells. -/
theorem q_eq2 (c : Dev nD) (w : Fin cfg2.W) : (dat2 V c).q w = fullShare := by
  dsimp only [dat2]
theorem owed_eq2 (c : Dev nD) (t) : (dat2 V c).owed t = 0 := by
  dsimp only [dat2]

/-- The body takes on no new units: the bound on recorded pairs stays everything. -/
theorem recorded_eq2 (c : Dev nD) (t : Fin (cfg2.N + 1)) : (dat2 V c).recorded t = Set.univ := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = k2_pay2 (acc2 V c t.val t.isLt).1 (acc2 V c t.val t.isLt).2 (iblk2 V c 4 t) (iblk2 V c 5 t) := by dsimp only [dat2]

/-- After the last point the output window's buffer holds the head's result. -/
theorem after2_6_last (c : Dev nD) : (dat2 V c).after 6 tLast2 = outLast2 V c := by
  rw [after2_6]; rfl

/-- The invariant at a point's start, restated at the point's number. -/
theorem Phi2_castSucc (c : Dev nD) (t : Fin cfg2.N) :
    (dat2 V c).Φ t.castSucc = Phi2 V c t.val (Nat.le_of_lt t.isLt) := by
  dsimp only [dat2]; simp only [Fin.coe_castSucc]

/-- The aggregate window moves at every point: its buffer holds the point's block of the aggregate. -/
private theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The scale window moves at every point: its buffer holds the point's block of the scale column. -/
private theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- The bias row is brought in at the first point only; the body leaves it as found and the window's block index never moves, so the buffer holds the row at every point. -/
private theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- The graph-number window moves at every point: its buffer holds the point's block of graph numbers. -/
private theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- The 64 × 2 weights are brought in once and left as found: the buffer holds them at every point. -/
private theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-- The 1 × 2 bias is brought in once and left as found: the buffer holds it at every point. -/
private theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

/-- An input window is never idle: the body leaves its buffer at the block it found. -/
private theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
private theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
private theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
private theorem leaves2_3 (c : Dev nD) (t : Fin cfg2.N) :
    (dat2 V c).leavesExact 3 t = owns (c : Thread nD τ) (ms2_3 t) fullShare (iblk2 V c 3 t) := by
  unfold Dat.leavesExact; rw [liveAt2_3 t, after2_3]
private theorem leaves2_4 (c : Dev nD) (t : Fin cfg2.N) :
    (dat2 V c).leavesExact 4 t = owns (c : Thread nD τ) (ms2_4 t) fullShare (iblk2 V c 4 t) := by
  unfold Dat.leavesExact; rw [liveAt2_4 t, after2_4]
private theorem leaves2_5 (c : Dev nD) (t : Fin cfg2.N) :
    (dat2 V c).leavesExact 5 t = owns (c : Thread nD τ) (ms2_5 t) fullShare (iblk2 V c 5 t) := by
  unfold Dat.leavesExact; rw [liveAt2_5 t, after2_5]

/-! ## The body obligation -/

/-- What the body is handed at point `t`: the invariant, the core's debt, and each window's current buffer, whole,
    at what the pipeline left in it, -/
private def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it hands back. -/
private def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point. The inputs' buffers hold their blocks. At the first point the invariant hands the body
    the two accumulators at anything, the body clears them and adds the point's products; at a later point it hands
    them at what the point before left, and the body adds to that. Either way the invariant takes them back at this
    point's contents. The output block is handed back untouched except at the last point, where the body stores the
    head of the accumulators as the point has just left them. The core owes nothing throughout. -/
private theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2, leaves2_3, leaves2_4, leaves2_5]
  have hN : t.val < 20 := lt_of_lt_of_eq t.isLt (show cfg2.N = 20 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 6 t (idleAt2_6 t hc1) (noFlush2_6 t hc1)]
    rw [acc2_first V c t h0]; dsimp only
    rw [Phi2_castSucc V c t, Phi2_zero V c _ _ h0, PhiA2_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro
            exact left2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) scM2_0.view es0
          · unfold owns; iexists _; isplitr
            swap; · iexact HS1
            ipureintro
            exact left2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) scM2_1.view es1
        · iexact Hr
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h1 : t.val = 19
    · have hc0 : ¬cond2_0 (grid2.coords t) := fun h => h0 ((hcond2_0 t).mp h)
      have hc1 : cond2_1 (grid2.coords t) := (hcond2_1 t).mpr h1
      rw [show (dat2 V c).leavesExact 6 t = owns (c : Thread nD τ) (ms2_6 t) fullShare ((dat2 V c).after 6 t) from by
        unfold Dat.leavesExact; rw [liveAt2_6 t hc1], after2_6]
      rw [acc2_later V c t h0]; dsimp only
      rw [Phi2_castSucc V c t, Phi2_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)).1 (acc2 V c (t.val - 1) (Nat.lt_of_le_of_lt (Nat.sub_le _ _) t.isLt)).2).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro
              exact left2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)).1 (acc2 V c (t.val - 1) (Nat.lt_of_le_of_lt (Nat.sub_le _ _) t.isLt)).2 scM2_0.view es0
            · unfold owns; iexists _; isplitr
              swap; · iexact HS1
              ipureintro
              exact left2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)).1 (acc2 V c (t.val - 1) (Nat.lt_of_le_of_lt (Nat.sub_le _ _) t.isLt)).2 scM2_1.view es1
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      exact left2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)).1 (acc2 V c (t.val - 1) (Nat.lt_of_le_of_lt (Nat.sub_le _ _) t.isLt)).2 (ms2_6 t).view e6
    · have hc0 : ¬cond2_0 (grid2.coords t) := fun h => h0 ((hcond2_0 t).mp h)
      have hc1 : ¬cond2_1 (grid2.coords t) := fun h => h1 ((hcond2_1 t).mp h)
      rw [Dat.leavesExact_idle (dat2 V c) 6 t (idleAt2_6 t hc1) (noFlush2_6 t hc1)]
      rw [acc2_later V c t h0]; dsimp only
      rw [Phi2_castSucc V c t, Phi2_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)).1 (acc2 V c (t.val - 1) (Nat.lt_of_le_of_lt (Nat.sub_le _ _) t.isLt)).2).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro
              exact left2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)).1 (acc2 V c (t.val - 1) (Nat.lt_of_le_of_lt (Nat.sub_le _ _) t.isLt)).2 scM2_0.view es0
            · unfold owns; iexists _; isplitr
              swap; · iexact HS1
              ipureintro
              exact left2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)).1 (acc2 V c (t.val - 1) (Nat.lt_of_le_of_lt (Nat.sub_le _ _) t.isLt)).2 scM2_1.view es1
          · iexact Hr
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body at every point meets the pipeline's obligation for these proof data. -/
theorem body_obligation2 (c : Dev nD) : BodyObligation (dat2 (F := F) V c) (defs₀ (F := F)) Variants.none () Set.univ := fun t => by
  rw [bigSep_W2, bigSep_W2]
  exact sound_body2 V c t

/-- Before the first point the carried invariant is the plain one: the launch's own buffers at anything. -/
theorem hin2 (c : Dev nD) : Pipeline.ΦA spec2 c ⊢ (dat2 V c).Φ 0 := by
  rw [show (dat2 V c).Φ 0 = Phi2 V c 0 (Nat.zero_le _) from rfl, Phi2_zero V c 0 _ rfl]

/-- After the last point the carried invariant gives the plain one back: what the accumulators hold is forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 20 := N_2; omega), PhiA2_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

end Cert.KernelIdeal.Hand

end
-- ==== Proof.KI.Run.lean ====
/-
  The whole program run: three host stretches and three launches, from the launch memory to the return.

  Between two items every buffer that outlives a launch holds known contents. They are named here as a fold from
  the launch memory: a host stretch applies its operations; a launch leaves its input arrays as it found them and
  its output array at what its write-backs add up to; every other buffer is untouched. The run theorem says that
  every execution ends with each such buffer at the last of these contents. From it the frame is read off (no
  item writes an argument) and the result buffer is the third launch's output array.
-/
import proofs.«410454_j88278757802580_2_alg».proof.Proof.Gen.KernelIdeal.Launch
import proofs.«410454_j88278757802580_2_alg».proof.Proof.Gen.KernelIdeal.Skeleton
import proofs.«410454_j88278757802580_2_alg».proof.Proof.Gen.KernelIdeal.Points
import proofs.«410454_j88278757802580_2_alg».proof.Proof.Gen.KernelIdeal.Regions
import proofs.«410454_j88278757802580_2_alg».proof.Proof.KI.Reg0
import proofs.«410454_j88278757802580_2_alg».proof.Proof.KI.Reg1
import proofs.«410454_j88278757802580_2_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => m (c, b)
/-- After the first host stretch (the degree count and the scale column): the first launch's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first launch: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (gather along the edges, sum into the landing nodes): the second launch's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second launch. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the third host stretch: the third launch's entry. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the third launch: the contents every execution ends with. -/
def W6 (c : Dev nD) : Valuation τ sig (Elt F) :=
  Pipeline.withArrays spec2 c (W5 m c) fun w => (dat2 (V5 m) c).arrAt w cfg2.N

/-! ## Reading the boundary contents

A launch's contents at one of its own arrays are what the pipeline leaves there; at any other buffer they are the
contents the launch was entered with. -/

namespace Run

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (V5 m) c).arrAt w cfg2.N = W6 m c (Proc.devRef .tc (Pipeline.arrRef spec2 w)) :=
  (W6_arr m c w).symm
theorem hrest2 (c : Dev nD) : ∀ b, b ∉ Finset.univ.image (Pipeline.arrRef spec2) → W6 m c (Proc.devRef .tc b) = V5 m c b :=
  fun b hb => W6_of_ne m c b fun w e => hb (Finset.mem_image.mpr ⟨w, Finset.mem_univ _, e⟩)

/-- An input array of a launch leaves it as it entered. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hin _).trans (A_eq1 (V3 m) c w))
theorem W6_in (c : Dev nD) (w : Fin cfg2.W) (hin : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hin _).trans (A_eq2 (V5 m) c w))

/-- A host stretch leaves a reference it does not write as it found it. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h

end Run

open Run

/-! ## The proof data family and the thread state -/

namespace Run

/-- The third launch's exit contents read at the TensorCore's references. -/
abbrev V6 : (c : Dev nD) → (b : Ref sig .tc) → Buf (Elt F) ((c : Thread nD τ).loc b) := fun c b => W6 m c b

/-- Every launch's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the buffers that outlive a launch, from the contents `W`; it ends with those
    buffers at the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the dues: every buffer that outlives a launch at the last boundary's contents, the
    generator register at some state. -/
abbrev Tₙ (c : Dev nD) : sProp 𝕄 := iprop(StableHlo.held (c : Thread nD τ) (Pipeline.ucRefs τ sig) (W6 m c) ∗ ∃ r, prngReg c r)

end Run
/-! ## The launches as segments -/

namespace Run

set_option backward.isDefEq.respectTransparency.types false in
/-- Launch 0 over the thread state: entered with every outliving buffer at `W1`, left with them at `W2`. Its arrays
    are split out of those buffers at entry and put back at the exit contents; the generator register goes into the
    plain invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every outliving buffer at `W3`, left with them at `W4`. Its arrays
    are split out of those buffers at entry and put back at the exit contents; the generator register goes into the
    plain invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every outliving buffer at `W5`, left with them at `W6` (what the
    run ends with). This launch carries an invariant of its own from point to point: it is entered from the plain
    invariant and gives the plain invariant back after the last point, so the generator register and the launch's
    own buffers pass through it as through the first two launches. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun c t => owed_eq2 (V5 m) c t
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun w => q_eq2 (V5 m) c w) (V5 m c) fun w => A_eq2 (V5 m) c w
    rw [Pipeline.unscopedBufs_held] at hsplit
    have hO : (pdats m 2 c).owed 0 = 0 := owed_eq2 (V5 m) c 0
    have hrec : (pdats m 2 c).recorded 0 = Set.univ := recorded_eq2 (V5 m) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%W, HO⟩; iexists W; isplitr
      · ipureintro; exact fun g _ => Or.inl (hrec ▸ Set.mem_univ g)
      iexact HO
    isplitl [Hp]; · iexact Hp
    iexact Hrest
  hin c := by
    have h : iprop((∃ r, prngReg c r) ∗ Pipeline.prefHeld (pcfgs (F := F) 2).pre c (fun _ => fullShare) (adm 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h.trans (hin2 (V5 m) c)
  hout c := by
    rw [Pipeline.ownSems0_none]
    have h : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (hout2 (V5 m) c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q_eq2 (V5 m) c w)
      (V5 m c) (V6 m c) ((pdats m 2 c).arrAt · cfg2.N) (hF2 m c) (hrest2 m c)
    rw [Pipeline.unscopedBufs_held] at hjoin
    have hO : (pdats m 2 c).owed (Fin.last (Pipeline.pin (pcfgs (F := F)) adm 2).N) = 0 := owed_eq2 (V5 m) c _
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [hO]
    icases HO with ⟨%W, -, HO⟩; iexists W; iexact HO

end Run
/-! ## The program as segments -/

namespace Run

/-- The program's six items in order: a host segment per stretch from its boundary's contents, a segment per launch. -/
abbrev items : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

/-- The program is the run of these segments. -/
theorem main_run (c : Dev nD) : main (F := F) c = Pipeline.Seg.run (items m) := (main_chain c).trans (by chain_rfl)

end Run

/-! ## What the run leaves -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. Every weakly fair execution from memory `m` with zero counters terminates without a fault, and in its
    final state every buffer that outlives a launch holds the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- The result buffer ends at the third launch's output array. -/
theorem W6_main_v41 (c : Dev nD) : W6 m c (Proc.devRef .tc main_v41) = (dat2 (V5 m) c).arrAt 6 cfg2.N :=
  W6_arr m c 6

/-- No item writes an argument: each ends as launched. A launch that reads the argument through an input window
    leaves that array as entered; every other launch does not have it among its arrays; no host stretch writes it. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_in m c 0 rfl
    _ = W0 m c (Proc.devRef .tc main_arg0) := W1_of m c main_arg0 (by decide)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_in m c 1 rfl
    _ = W0 m c (Proc.devRef .tc main_arg3) := W1_of m c main_arg3 (by decide)
    _ = m ((c : Thread nD τ).loc main_arg3) := rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := W5_of m c main_arg5 (by decide)
    _ = W3 m c (Proc.devRef .tc main_arg5) := W4_in m c 3 rfl
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl
theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_in m c 4 rfl
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of_ne m c main_arg7 (by decide)
    _ = W0 m c (Proc.devRef .tc main_arg7) := W1_of m c main_arg7 (by decide)
    _ = m ((c : Thread nD τ).loc main_arg7) := rfl
theorem W6_main_arg8 (c : Dev nD) : W6 m c (Proc.devRef .tc main_arg8) = m ((c : Thread nD τ).loc main_arg8) :=
  calc W6 m c (Proc.devRef .tc main_arg8)
    _ = W5 m c (Proc.devRef .tc main_arg8) := W6_of_ne m c main_arg8 (by decide)
    _ = W4 m c (Proc.devRef .tc main_arg8) := W5_of m c main_arg8 (by decide)
    _ = W3 m c (Proc.devRef .tc main_arg8) := W4_of_ne m c main_arg8 (by decide)
    _ = W2 m c (Proc.devRef .tc main_arg8) := W3_of m c main_arg8 (by decide)
    _ = W1 m c (Proc.devRef .tc main_arg8) := W2_of_ne m c main_arg8 (by decide)
    _ = W0 m c (Proc.devRef .tc main_arg8) := W1_of m c main_arg8 (by decide)
    _ = m ((c : Thread nD τ).loc main_arg8) := rfl

/-- THE FRAME, at any instance: every execution terminates without a fault and leaves each argument as launched. Each
    argument is a buffer that outlives the launches, so the run leaves it at the last boundary's contents, and those
    are the launch contents because no item writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c)⟩)
    (run_all m ρ)

end Cert.KernelIdeal.Hand

end
-- ==== Proof.LibKeepdimsColumn.lean ====
/-
  A vector kept as one column, read at an index: an array of shape [a] viewed as [a, 1] holds at (i, u) the entry i of
  the vector (the unit coordinate carries nothing), and an [a, 1] column broadcast to [a, b] holds at (p, c) the
  column's entry p, whatever the column c. These are the two layout steps of a row reduction that keeps its axis
  (a sum over the lanes stored as a column and spread back over the lanes).
-/
import Idealize.ShloMosaic.Lib.ValueIdx
import Idealize.ShloMosaic.Lib.Pipeline.Value

noncomputable section

namespace Cert.Lib.KeepdimsColumn

open Idealize.ShloMosaic Idealize.ShloMosaic.ValueIdx

/-- An `[a]` array cast to `[a, 1]` reads, at `(i, u)`, the operand at `i`, whatever the unit coordinate `u`:
    both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`: the row axis is
    kept (also when `a = 1`, where `p = 0`), the unit column axis is spread. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepdimsColumn

end
-- ==== Proof.KI.Value01.lean ====
/-
  The first two launches' output arrays as whole-array functions of what the launches find.

  Each launch writes 20 disjoint blocks of 5000 rows that together cover its 100000 × 64 output array, and a block's
  rows depend only on the same rows of the inputs (and on the whole weight matrix and bias row). So the array after
  the launch holds, at (n, j):
    launch 0:  (Σ_k x(n,k) · W1(k,j)) · scale(n)
    launch 1:  (Σ_k max(scale(n) · agg(n,k) + bias(k), 0) · W2(k,j)) · scale(n)
  where a change of float format is the identity on the extended reals and a product into a zero accumulator is the
  plain sum.
-/
import proofs.«410454_j88278757802580_2_alg».proof.Proof.Gen.KernelIdeal.Launch
import proofs.«410454_j88278757802580_2_alg».proof.Proof.Gen.KernelIdeal.Skeleton
import proofs.«410454_j88278757802580_2_alg».proof.Proof.Gen.KernelIdeal.Points
import proofs.«410454_j88278757802580_2_alg».proof.Proof.KI.Reg0
import proofs.«410454_j88278757802580_2_alg».proof.Proof.KI.Reg1
import proofs.«410454_j88278757802580_2_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! The arrays the two launches find and leave, each named at its literal type (arithmetic on an entry needs the
    entry's type to be the extended reals on the nose). -/

/-- The node features x. -/
abbrev e0_x (c : Dev nD) : S100000x64.Idx → EReal := V c main_arg0
/-- The first weight matrix. -/
abbrev e0_w (c : Dev nD) : S64x64.Idx → EReal := V c main_arg3
/-- The scale column, as either launch finds it. -/
abbrev e_scale (c : Dev nD) : S100000x1.Idx → EReal := V c main_v14
/-- The first launch's output array after the launch. -/
abbrev y1 (c : Dev nD) : S100000x64.Idx → EReal := (dat0 (F := Ideal) V c).arrAt 3 cfg0.N
/-- The raw aggregate the second launch finds. -/
abbrev e1_agg (c : Dev nD) : S100000x64.Idx → EReal := V c main_v25
/-- The first bias as a row. -/
abbrev e1_b (c : Dev nD) : S1x64.Idx → EReal := V c main_v26
/-- The second weight matrix. -/
abbrev e1_w (c : Dev nD) : S64x64.Idx → EReal := V c main_arg5
/-- The second launch's output array after the launch. -/
abbrev y2 (c : Dev nD) : S100000x64.Idx → EReal := (dat1 (F := Ideal) V c).arrAt 4 cfg1.N

/-! ## The block product read at an entry

The body multiplies a 5000 × 64 block by a 64 × 64 matrix, contracting the block's columns against the matrix's rows.
At output entry (p, q) and contraction coordinate k the left operand is read at (p, k) and the right at (k, q): four
coordinate facts, one per operand axis. -/

private theorem mm_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
private theorem mm_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
private theorem mm_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
private theorem mm_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into a zero accumulator, at entry (p, q): the plain sum over the 64 contraction coordinates. -/
private theorem mm_apply {φ₁ φ₂ : FTy} (l : FVec Ideal S5000x64 φ₁) (r : FVec Ideal S64x64 φ₂) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact mm_lhs_0 _ _
    | ⟨1, _⟩ => exact (mm_lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (mm_rhs_0 _ _).trans hk
    | ⟨1, _⟩ => exact mm_rhs_1 _ _)
  rw [el, er]

/-- The first body's stored value at entry (p, q) of the block: the row p of the x block against column q of the weight
    matrix, times the row's scale. -/
private theorem pay0_apply (x0 : Vec Ideal S5000x64 .f32) (x1 : Vec Ideal S64x64 .f32) (x2 : Vec Ideal S5000x1 .f32) (p : Fin 5000) (q : Fin 64) :
    k0_pay1 x0 x1 x2 (ix2 p q) = (∑ k : Fin 64, x0 (ix2 p k) * x1 (ix2 k q)) * x2 (ix2 p (0 : Fin 1)) := by
  unfold k0_pay1
  rw [mulf_apply, mm_apply, Cert.Lib.KeepdimsColumn.broadcastTo_a1_ab_apply, shapeCast_self]
  simp only [truncf_apply]

/-- The second body's stored value at entry (p, q) of the block: the row p of  max(scale ⊙ agg + bias, 0)  against
    column q of the weight matrix, times the row's scale (the scale column is read twice, `s` and `s'`). -/
private theorem pay1_apply (s : Vec Ideal S5000x1 .f32) (g : Vec Ideal S5000x64 .f32) (b : Vec Ideal S1x64 .f32) (w : Vec Ideal S64x64 .f32)
    (s' : Vec Ideal S5000x1 .f32) (p : Fin 5000) (q : Fin 64) :
    k1_pay1 s g b w s' (ix2 p q)
      = (∑ k : Fin 64, max (s (ix2 p (0 : Fin 1)) * g (ix2 p k) + b (ix2 (0 : Fin 1) k)) 0 * w (ix2 k q)) * s' (ix2 p (0 : Fin 1)) := by
  unfold k1_pay1
  rw [mulf_apply, mm_apply, Cert.Lib.KeepdimsColumn.broadcastTo_a1_ab_apply]
  simp only [shapeCast_self]
  refine congrArg (· * s' (ix2 p (0 : Fin 1))) (Finset.sum_congr rfl fun k _ => ?_)
  rw [truncf_apply, truncf_apply, maximumf_apply, addf_apply, mulf_apply, broadcast_apply,
    Cert.Lib.KeepdimsColumn.broadcastTo_a1_ab_apply, broadcastTo_1b_ab_apply]
  show max _ (Ideal.ofBits .f32 0x00000000#32) * _ = _
  rw [Ideal.ofBits_zero_f32]

/-! ## From blocks to the first launch's output array

Point `t` of the grid handles rows `5000 t … 5000 t + 4999`: the x, scale and output windows sit at block `t` along the
rows, the weight window always at its one block. So entry (p, ·) of a row window's block at `t` is entry
(5000 t + p, ·) of its array, and what point `t` writes back is the rows `5000 t …` of one function of the whole arrays. -/

/-- A zero offset on both axes. -/
private theorem off2_zero : (![0, 0] : Fin 2 → Nat) = fun _ => 0 := funext fun a => by fin_cases a <;> rfl

/-- The first launch's output as one function of the whole arrays: row n of x against column j of the weight matrix,
    times the scale of row n. -/
private def rowProd0 (c : Dev nD) : S100000x64.Idx → EReal := fun i =>
  (∑ k : Fin 64, e0_x V c (ix2 (i 0 : Fin 100000) k) * e0_w V c (ix2 k (i 1 : Fin 64))) * e_scale V c (ix2 (i 0 : Fin 100000) (0 : Fin 1))

/-- The three input blocks at point `t`, each at its literal type. -/
private abbrev xblk0 (c : Dev nD) (t : Fin cfg0.N) : Vec Ideal S5000x64 .f32 := iblk0 V c 0 t
private abbrev wblk0 (c : Dev nD) (t : Fin cfg0.N) : Vec Ideal S64x64 .f32 := iblk0 V c 1 t
private abbrev sblk0 (c : Dev nD) (t : Fin cfg0.N) : Vec Ideal S5000x1 .f32 := iblk0 V c 2 t

/-- The block indices of the four windows at every point of the grid. -/
private theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (p, k) of the x block at point `t` is entry (5000 t + p, k) of x. -/
private theorem xblk0_apply (c : Dev nD) (t : Fin cfg0.N) (p : Fin 5000) (k : Fin 64) (n : Fin 100000) (hn : n.val = 5000 * t.val + p.val) :
    xblk0 V c t (ix2 p k) = e0_x V c (ix2 n k) := by
  obtain ⟨e0, e1, -⟩ := blockIndex0 t
  unfold xblk0 iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = n.val; omega
  | ⟨1, _⟩ => show win0_0.index t (1 : Fin 2) * 64 + 1 * k.val = k.val; omega

/-- The weight block at every point is the weight matrix. -/
private theorem wblk0_apply (c : Dev nD) (t : Fin cfg0.N) (k : Fin 64) (q : Fin 64) :
    wblk0 V c t (ix2 k q) = e0_w V c (ix2 k q) := by
  obtain ⟨-, -, e2, e3, -⟩ := blockIndex0 t
  unfold wblk0 iblk0
  rw [View.read_apply]
  show V c main_arg3 _ = V c main_arg3 _
  refine congrArg (V c main_arg3) (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- Entry (p, 0) of the scale block at point `t` is entry (5000 t + p, 0) of the scale column. -/
private theorem sblk0_apply (c : Dev nD) (t : Fin cfg0.N) (p : Fin 5000) (n : Fin 100000) (hn : n.val = 5000 * t.val + p.val) :
    sblk0 V c t (ix2 p (0 : Fin 1)) = e_scale V c (ix2 n (0 : Fin 1)) := by
  obtain ⟨-, -, -, -, e4, e5, -⟩ := blockIndex0 t
  unfold sblk0 iblk0
  rw [View.read_apply]
  show V c main_v14 _ = V c main_v14 _
  refine congrArg (V c main_v14) (funext fun a => Fin.ext ?_)
  match a with
  | ⟨0, _⟩ => show win0_2.index t (0 : Fin 2) * 5000 + 1 * p.val = n.val; omega
  | ⟨1, _⟩ => show win0_2.index t (1 : Fin 2) * 1 + 1 * 0 = 0; omega

/-- Any function of the output array's index, read through the output window's block at point `t`, at (p, q): the
    function at (5000 t + p, q). -/
private theorem yblk0_apply (t : Fin cfg0.N) (G : S100000x64.Idx → EReal) (p : Fin 5000) (q : Fin 64) (n : Fin 100000)
    (hn : n.val = 5000 * t.val + p.val) :
    ((cfg0.win 3).blk t).view.read (Elt Ideal) G (ix2 p q) = G (ix2 n q) := by
  obtain ⟨-, -, -, -, -, -, e6, e7⟩ := blockIndex0 t
  rw [View.read_apply]
  refine congrArg G (funext fun a => Fin.ext ?_)
  match a with
  | ⟨0, _⟩ => show win0_3.index t (0 : Fin 2) * 5000 + 1 * p.val = n.val; omega
  | ⟨1, _⟩ => show win0_3.index t (1 : Fin 2) * 64 + 1 * q.val = q.val; omega

/-- What point `t` writes back is the rows `5000 t …` of `rowProd0`. -/
private theorem flushed0_eq (c : Dev nD) (t : Fin cfg0.N) :
    (dat0 (F := Ideal) V c).flushed 3 t = ((cfg0.win 3).blk t).view.read (Elt Ideal) (rowProd0 V c) := by
  show (cfg0.win 3).cut (grid0.coords t) ((dat0 V c).after 3 t) = _
  rw [after0_3]
  unfold out0_3
  rw [View.canon_unit_zero off2_zero]
  simp only [View.ld_unit_zero (S := S5000x64) off2_zero, View.ld_unit_zero (S := S64x64) off2_zero, View.ld_unit_zero (S := S5000x1) off2_zero]
  funext y
  obtain ⟨p, q, rfl⟩ : ∃ (p : Fin 5000) (q : Fin 64), y = ix2 p q := ⟨y 0, y 1, eq_ix2 y⟩
  have hN : cfg0.N = 20 := N_0
  have hn : 5000 * t.val + p.val < 100000 := by have := t.isLt; have := p.isLt; omega
  show k0_pay1 (xblk0 V c t) (wblk0 V c t) (sblk0 V c t) (ix2 p q) = _
  refine (pay0_apply (xblk0 V c t) (wblk0 V c t) (sblk0 V c t) p q).trans ?_
  have hs : (∑ k : Fin 64, xblk0 V c t (ix2 p k) * wblk0 V c t (ix2 k q))
      = ∑ k : Fin 64, e0_x V c (ix2 (⟨_, hn⟩ : Fin 100000) k) * e0_w V c (ix2 k q) :=
    Finset.sum_congr rfl fun k _ => by rw [xblk0_apply V c t p k ⟨_, hn⟩ rfl, wblk0_apply V c t k q]
  rw [hs, sblk0_apply V c t p ⟨_, hn⟩ rfl, yblk0_apply t (rowProd0 V c) p q ⟨_, hn⟩ rfl]
  rfl

/-- An index of the output array lies in point `t`'s block iff each coordinate lies in the block's range on its axis. -/
private theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v15).slice (win0_3.rect t)).set ↔ _
  rw [View.set_slice_whole, Rect.mem_set_unit]
  exact Iff.rfl

/-- Every row is some point's: row r lies in the block of point r / 5000, and every point writes back. -/
private theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, -, -, e6, e7⟩ := blockIndex0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    rw [e7]; omega

/-- So the first launch's output array after the launch is `rowProd0` of the arrays the launch found. -/
private theorem y1_eq (c : Dev nD) : y1 V c = rowProd0 V c :=
  (dat0 (F := Ideal) V c).arrAt_eq_of_cover 3 (rowProd0 V c) (fun t _ => flushed0_eq V c t) cover0

/-- The first launch's output array after the launch, at row `n` and column `j`. -/
theorem out0_value (c : Dev nD) (n : Fin 100000) (j : Fin 64) :
    y1 V c (ix2 n j) = (∑ k : Fin 64, e0_x V c (ix2 n k) * e0_w V c (ix2 k j)) * e_scale V c (ix2 n (0 : Fin 1)) :=
  congrFun (y1_eq V c) (ix2 n j)

/-! ## From blocks to the second launch's output array

The same walk: point `t` handles rows `5000 t … 5000 t + 4999` of the aggregate, the scale column and the output; the bias
row and the weight matrix are each one block, the same at every point. -/

/-- The second launch's output as one function of the whole arrays: row n of  max(scale ⊙ agg + bias, 0)  against
    column j of the weight matrix, times the scale of row n. -/
private def rowProd1 (c : Dev nD) : S100000x64.Idx → EReal := fun i =>
  (∑ k : Fin 64, max (e_scale V c (ix2 (i 0 : Fin 100000) (0 : Fin 1)) * e1_agg V c (ix2 (i 0 : Fin 100000) k) + e1_b V c (ix2 (0 : Fin 1) k)) 0
      * e1_w V c (ix2 k (i 1 : Fin 64)))
    * e_scale V c (ix2 (i 0 : Fin 100000) (0 : Fin 1))

/-- The four input blocks at point `t`, each at its literal type. -/
private abbrev gblk1 (c : Dev nD) (t : Fin cfg1.N) : Vec Ideal S5000x64 .f32 := iblk1 V c 0 t
private abbrev sblk1 (c : Dev nD) (t : Fin cfg1.N) : Vec Ideal S5000x1 .f32 := iblk1 V c 1 t
private abbrev bblk1 (c : Dev nD) (t : Fin cfg1.N) : Vec Ideal S1x64 .f32 := iblk1 V c 2 t
private abbrev wblk1 (c : Dev nD) (t : Fin cfg1.N) : Vec Ideal S64x64 .f32 := iblk1 V c 3 t

/-- The block indices of the five windows at every point of the grid. -/
private theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, k) of the aggregate block at point `t` is entry (5000 t + p, k) of the aggregate. -/
private theorem gblk1_apply (c : Dev nD) (t : Fin cfg1.N) (p : Fin 5000) (k : Fin 64) (n : Fin 100000) (hn : n.val = 5000 * t.val + p.val) :
    gblk1 V c t (ix2 p k) = e1_agg V c (ix2 n k) := by
  obtain ⟨e0, e1, -⟩ := blockIndex1 t
  unfold gblk1 iblk1
  rw [View.read_apply]
  show V c main_v25 _ = V c main_v25 _
  refine congrArg (V c main_v25) (funext fun a => Fin.ext ?_)
  match a with
  | ⟨0, _⟩ => show win1_0.index t (0 : Fin 2) * 5000 + 1 * p.val = n.val; omega
  | ⟨1, _⟩ => show win1_0.index t (1 : Fin 2) * 64 + 1 * k.val = k.val; omega

/-- Entry (p, 0) of the scale block at point `t` is entry (5000 t + p, 0) of the scale column. -/
private theorem sblk1_apply (c : Dev nD) (t : Fin cfg1.N) (p : Fin 5000) (n : Fin 100000) (hn : n.val = 5000 * t.val + p.val) :
    sblk1 V c t (ix2 p (0 : Fin 1)) = e_scale V c (ix2 n (0 : Fin 1)) := by
  obtain ⟨-, -, e2, e3, -⟩ := blockIndex1 t
  unfold sblk1 iblk1
  rw [View.read_apply]
  show V c main_v14 _ = V c main_v14 _
  refine congrArg (V c main_v14) (funext fun a => Fin.ext ?_)
  match a with
  | ⟨0, _⟩ => show win1_1.index t (0 : Fin 2) * 5000 + 1 * p.val = n.val; omega
  | ⟨1, _⟩ => show win1_1.index t (1 : Fin 2) * 1 + 1 * 0 = 0; omega

/-- The bias block at every point is the bias row. -/
private theorem bblk1_apply (c : Dev nD) (t : Fin cfg1.N) (k : Fin 64) :
    bblk1 V c t (ix2 (0 : Fin 1) k) = e1_b V c (ix2 (0 : Fin 1) k) := by
  obtain ⟨-, -, -, -, e4, e5, -⟩ := blockIndex1 t
  unfold bblk1 iblk1
  rw [View.read_apply]
  show V c main_v26 _ = V c main_v26 _
  refine congrArg (V c main_v26) (funext fun a => Fin.ext ?_)
  match a with
  | ⟨0, _⟩ => show win1_2.index t (0 : Fin 2) * 1 + 1 * 0 = 0; omega
  | ⟨1, _⟩ => show win1_2.index t (1 : Fin 2) * 64 + 1 * k.val = k.val; omega

/-- The weight block at every point is the weight matrix. -/
private theorem wblk1_apply (c : Dev nD) (t : Fin cfg1.N) (k : Fin 64) (q : Fin 64) :
    wblk1 V c t (ix2 k q) = e1_w V c (ix2 k q) := by
  obtain ⟨-, -, -, -, -, -, e6, e7, -⟩ := blockIndex1 t
  unfold wblk1 iblk1
  rw [View.read_apply]
  show V c main_arg5 _ = V c main_arg5 _
  refine congrArg (V c main_arg5) (funext fun a => Fin.ext ?_)
  match a with
  | ⟨0, _⟩ => show win1_3.index t (0 : Fin 2) * 64 + 1 * k.val = k.val; omega
  | ⟨1, _⟩ => show win1_3.index t (1 : Fin 2) * 64 + 1 * q.val = q.val; omega

/-- Any function of the output array's index, read through the output window's block at point `t`, at (p, q): the
    function at (5000 t + p, q). -/
private theorem yblk1_apply (t : Fin cfg1.N) (G : S100000x64.Idx → EReal) (p : Fin 5000) (q : Fin 64) (n : Fin 100000)
    (hn : n.val = 5000 * t.val + p.val) :
    ((cfg1.win 4).blk t).view.read (Elt Ideal) G (ix2 p q) = G (ix2 n q) := by
  obtain ⟨-, -, -, -, -, -, -, -, e8, e9⟩ := blockIndex1 t
  rw [View.read_apply]
  refine congrArg G (funext fun a => Fin.ext ?_)
  match a with
  | ⟨0, _⟩ => show win1_4.index t (0 : Fin 2) * 5000 + 1 * p.val = n.val; omega
  | ⟨1, _⟩ => show win1_4.index t (1 : Fin 2) * 64 + 1 * q.val = q.val; omega

/-- What point `t` writes back is the rows `5000 t …` of `rowProd1`. -/
private theorem flushed1_eq (c : Dev nD) (t : Fin cfg1.N) :
    (dat1 (F := Ideal) V c).flushed 4 t = ((cfg1.win 4).blk t).view.read (Elt Ideal) (rowProd1 V c) := by
  show (cfg1.win 4).cut (grid1.coords t) ((dat1 V c).after 4 t) = _
  rw [after1_4]
  unfold out1_4
  rw [View.canon_unit_zero off2_zero]
  simp only [View.ld_unit_zero (S := S5000x64) off2_zero, View.ld_unit_zero (S := S64x64) off2_zero,
    View.ld_unit_zero (S := S5000x1) off2_zero, View.ld_unit_zero (S := S1x64) off2_zero]
  funext y
  obtain ⟨p, q, rfl⟩ : ∃ (p : Fin 5000) (q : Fin 64), y = ix2 p q := ⟨y 0, y 1, eq_ix2 y⟩
  have hN : cfg1.N = 20 := N_1
  have hn : 5000 * t.val + p.val < 100000 := by have := t.isLt; have := p.isLt; omega
  show k1_pay1 (sblk1 V c t) (gblk1 V c t) (bblk1 V c t) (wblk1 V c t) (sblk1 V c t) (ix2 p q) = _
  refine (pay1_apply (sblk1 V c t) (gblk1 V c t) (bblk1 V c t) (wblk1 V c t) (sblk1 V c t) p q).trans ?_
  have hs : (∑ k : Fin 64, max (sblk1 V c t (ix2 p (0 : Fin 1)) * gblk1 V c t (ix2 p k) + bblk1 V c t (ix2 (0 : Fin 1) k)) 0 * wblk1 V c t (ix2 k q))
      = ∑ k : Fin 64, max (e_scale V c (ix2 (⟨_, hn⟩ : Fin 100000) (0 : Fin 1)) * e1_agg V c (ix2 (⟨_, hn⟩ : Fin 100000) k) + e1_b V c (ix2 (0 : Fin 1) k)) 0
          * e1_w V c (ix2 k q) :=
    Finset.sum_congr rfl fun k _ => by
      rw [sblk1_apply V c t p ⟨_, hn⟩ rfl, gblk1_apply V c t p k ⟨_, hn⟩ rfl, bblk1_apply V c t k, wblk1_apply V c t k q]
  rw [hs, sblk1_apply V c t p ⟨_, hn⟩ rfl, yblk1_apply t (rowProd1 V c) p q ⟨_, hn⟩ rfl]
  rfl

/-- An index of the output array lies in point `t`'s block iff each coordinate lies in the block's range on its axis. -/
private theorem mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v27).slice (win1_4.rect t)).set ↔ _
  rw [View.set_slice_whole, Rect.mem_set_unit]
  exact Iff.rfl

/-- Every row is some point's: row r lies in the block of point r / 5000, and every point writes back. -/
private theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, -, -, -, -, e8, e9⟩ := blockIndex1 ⟨(i 0).val / 5000, ht⟩
  refine ⟨⟨(i 0).val / 5000, ht⟩, flush1_4 _, ?_⟩
  rw [mem_blk1]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win1_4.index ⟨(i 0).val / 5000, ht⟩ (1 : Fin 2) * 64 ≤ (i 1).val ∧ (i 1).val < win1_4.index ⟨(i 0).val / 5000, ht⟩ (1 : Fin 2) * 64 + 64
    rw [e9]; omega

/-- So the second launch's output array after the launch is `rowProd1` of the arrays the launch found. -/
private theorem y2_eq (c : Dev nD) : y2 V c = rowProd1 V c :=
  (dat1 (F := Ideal) V c).arrAt_eq_of_cover 4 (rowProd1 V c) (fun t _ => flushed1_eq V c t) cover1

/-- The second launch's output array after the launch, at row `n` and column `j`. -/
theorem out1_value (c : Dev nD) (n : Fin 100000) (j : Fin 64) :
    y2 V c (ix2 n j)
      = (∑ k : Fin 64, max (e_scale V c (ix2 n (0 : Fin 1)) * e1_agg V c (ix2 n k) + e1_b V c (ix2 (0 : Fin 1) k)) 0 * e1_w V c (ix2 k j))
          * e_scale V c (ix2 n (0 : Fin 1)) :=
  congrFun (y2_eq V c) (ix2 n j)

end Cert.KernelIdeal.Hand

end
-- ==== Proof.Spec.lean ====
/-
  What both programs compute, as scalar functions of coordinates on the extended reals.

  A graph of 100000 nodes with 64 features; 1700000 directed edges (the given ones and one loop per node).
  The index data enter abstractly: `R n` is the set of edges that land on node `n`, `s e` the node edge `e`
  leaves from, `d e` the node at which the per-edge form looks up the landing node's scale, `B g` the nodes of
  graph `g` (64 graphs), and `oh n g` the one-hot mark of "node `n` belongs to graph `g`" as 1 or 0.

  One propagation layer is  out(n, j) = max(0, b j + Σ_{e ∈ R n} (T·W)(s e, j) · c(s e) · c(n))  with
  c(n) = 1/√max(deg n, 1), deg n the number of edges landing on `n`. The two programs differ in where the factor
  c(n) stands: `layerNode` scales the feature rows before the sum and the sum after it, `layerEdge` scales every
  edge's row by c(s e) · c(d e). After two layers the rows are averaged per graph (`poolOneHot` sums one-hot
  products over all nodes, `poolMembers` sums over the members), a 64 × 2 affine map gives two logits per graph,
  and `logSoftmax` subtracts the row maximum and then the logarithm of the summed exponentials.
-/
import Idealize.ShloMosaic.PureOps.Ideal

noncomputable section

namespace Cert.Spec

open Idealize.ShloMosaic

/-- A table of one row of 64 features per node. -/
abbrev Tab : Type := Fin 100000 → Fin 64 → EReal

section Layer

variable (R : Fin 100000 → Finset (Fin 1700000)) (s d : Fin 1700000 → Fin 100000)

/-- The number of edges landing on node `n`, counted from zero by ones. -/
def deg (n : Fin 100000) : EReal := 0 + ∑ _e ∈ R n, (1 : EReal)

/-- The node's scale 1/√max(deg, 1). -/
def scale (n : Fin 100000) : EReal := Ideal.rsqrt (max (deg R n) 1)

/-- The product of a feature table with a 64 × 64 weight matrix. -/
def mm (T : Tab) (W : Fin 64 → Fin 64 → EReal) : Tab := fun n j => ∑ k : Fin 64, T n k * W k j

/-- A layer with the landing node's scale applied to the whole sum: rows scaled by their own node's scale are
    summed over the landing edges, the sum is scaled by the landing node's scale, the bias added, negatives cut. -/
def layerNode (T : Tab) (W : Fin 64 → Fin 64 → EReal) (b : Fin 64 → EReal) : Tab := fun n j =>
  max (scale R n * (0 + ∑ e ∈ R n, mm T W (s e) j * scale R (s e)) + b j) 0

/-- The same layer with both scales applied edge by edge. -/
def layerEdge (T : Tab) (W : Fin 64 → Fin 64 → EReal) (b : Fin 64 → EReal) : Tab := fun n j =>
  max ((0 + ∑ e ∈ R n, mm T W (s e) j * (scale R (s e) * scale R (d e))) + b j) 0

end Layer

section Pool

/-- Per graph and feature, the sum over ALL nodes of the one-hot mark times the node's feature. -/
def poolOneHot (oh : Fin 100000 → Fin 64 → EReal) (h : Tab) (g : Fin 64) (j : Fin 64) : EReal :=
  0 + ∑ n : Fin 100000, oh n g * h n j

/-- Per graph, the sum of the one-hot marks against ones: the graph's node count, the same in every column. -/
def countOneHot (oh : Fin 100000 → Fin 64 → EReal) (g : Fin 64) (_j : Fin 64) : EReal :=
  0 + ∑ n : Fin 100000, oh n g * 1

/-- Per graph and feature, the sum of the members' features. -/
def poolMembers (B : Fin 64 → Finset (Fin 100000)) (h : Tab) (g : Fin 64) (j : Fin 64) : EReal :=
  0 + ∑ n ∈ B g, h n j

/-- Per graph, the number of members counted by ones. -/
def countMembers (B : Fin 64 → Finset (Fin 100000)) (g : Fin 64) : EReal :=
  0 + ∑ _n ∈ B g, (1 : EReal)

end Pool

section Head

variable (S C : Fin 64 → Fin 64 → EReal) (Wfc : Fin 64 → Fin 2 → EReal) (bfc : Fin 2 → EReal)

/-- The per-graph mean feature: the sum over the count, a count below one read as one. -/
def mean (g j : Fin 64) : EReal := Ideal.div (S g j) (max (C g j) 1)

/-- Two logits per graph. -/
def logit (g : Fin 64) (q : Fin 2) : EReal := (∑ j : Fin 64, mean S C g j * Wfc j q) + bfc q

/-- The larger of a graph's two logits. -/
def rowMax (g : Fin 64) : EReal := max (logit S C Wfc bfc g 0) (logit S C Wfc bfc g 1)

/-- A logit less its row's maximum. -/
def shifted (g : Fin 64) (q : Fin 2) : EReal := logit S C Wfc bfc g q - rowMax S C Wfc bfc g

/-- The summed exponentials of a row's shifted logits. -/
def sumExp (g : Fin 64) : EReal :=
  Ideal.exp (shifted S C Wfc bfc g 0) + Ideal.exp (shifted S C Wfc bfc g 1)

/-- The log-softmax of the logits, row by row. -/
def logSoftmax (g : Fin 64) (q : Fin 2) : EReal :=
  shifted S C Wfc bfc g q - Ideal.log (sumExp S C Wfc bfc g)

end Head

end Cert.Spec

end
-- ==== Proof.KI.Entry2.lean ====
/-
  The arrays the third launch finds, named at their literal types, and what its body makes of them row by row:
  the second layer's output  h(n, j) = max(scale(n) · agg(n, j) + bias(j), 0)  and the one-hot mark of node n's
  graph word against the graph number g.
-/
import proofs.«410454_j88278757802580_2_alg».proof.Proof.Gen.KernelIdeal.Launch
import proofs.«410454_j88278757802580_2_alg».proof.Proof.Gen.KernelIdeal.Skeleton
import proofs.«410454_j88278757802580_2_alg».proof.Proof.Gen.KernelIdeal.Points
import proofs.«410454_j88278757802580_2_alg».proof.Proof.KI.Reg2
import proofs.«410454_j88278757802580_2_alg».proof.Proof.Spec
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The raw second aggregate. -/
abbrev e2_agg (c : Dev nD) : S100000x64.Idx → EReal := V c main_v37
/-- The scale column. -/
abbrev e2_scale (c : Dev nD) : S100000x1.Idx → EReal := V c main_v14
/-- The second bias as a row. -/
abbrev e2_b (c : Dev nD) : S1x64.Idx → EReal := V c main_v38
/-- The nodes' graph words as a column. -/
abbrev e2_bt (c : Dev nD) : S100000x1.Idx → BitVec 32 := V c main_v39
/-- The head's 64 × 2 weights. -/
abbrev e2_wfc (c : Dev nD) : S64x2.Idx → EReal := V c main_arg7
/-- The head's bias as a row. -/
abbrev e2_bfc (c : Dev nD) : S1x2.Idx → EReal := V c main_v40
/-- The third launch's output array after the launch. -/
abbrev y3 (c : Dev nD) : S64x2.Idx → EReal := (dat2 (F := Ideal) V c).arrAt 6 cfg2.N

/-- The second layer's output, row by row. -/
def h2V (c : Dev nD) : Cert.Spec.Tab := fun n j =>
  max (e2_scale V c (ix2 n (0 : Fin 1)) * e2_agg V c (ix2 n j) + e2_b V c (ix2 (0 : Fin 1) j)) 0

/-- The one-hot mark of node `n` against graph `g`. -/
def ohV (c : Dev nD) : Fin 100000 → Fin 64 → EReal := fun n g =>
  if e2_bt V c (ix2 n (0 : Fin 1)) = BitVec.ofNat 32 g.val then 1 else 0

end Cert.KernelIdeal.Hand

end
-- ==== Proof.KI.Acc2.lean ====
/-
  The two accumulators after the last of the 20 points.

  Point t adds to the first accumulator the product  onehot_tᵀ · h_t  of its 5000 rows (a sum over the block's rows
  k of mark(5000 t + k, g) · h(5000 t + k, j) into a zero accumulator) and to the second the same against ones, and
  point 0 starts from cleared buffers. Adding the 20 block sums one after the other onto zero, and reading the
  pair (t, k) as the node 5000 t + k, gives the one sum over all 100000 nodes. (Addition of extended reals is
  commutative and associative, so regrouping a finite sum is free.)
-/
import proofs.«410454_j88278757802580_2_alg».proof.Proof.Gen.KernelIdeal.Launch
import proofs.«410454_j88278757802580_2_alg».proof.Proof.Gen.KernelIdeal.Skeleton
import proofs.«410454_j88278757802580_2_alg».proof.Proof.Gen.KernelIdeal.Points
import proofs.«410454_j88278757802580_2_alg».proof.Proof.KI.Entry2
import proofs.«410454_j88278757802580_2_alg».proof.Proof.LibKeepdimsColumn
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

open Cert.Lib.KeepdimsColumn

/-- The pattern of 1.0 in f32 is the extended real one. -/
private theorem one_f32 : Ideal.ofBits .f32 0x3F800000#32 = 1 :=
  Idealize.ShloMosaic.IdealRules.sign_bit.ideal_onePat .f32

/-- The pattern of 1.0 in bf16 is the extended real one. -/
private theorem one_bf16 : Ideal.ofBits .bf16 0x3F80#16 = 1 :=
  Idealize.ShloMosaic.IdealRules.sign_bit.ideal_onePat .bf16

/-- A one-bit equality test selects the first value exactly when the two words agree. -/
private theorem select_cmpi_eq {α : Type} (x y : BitVec 32) (a b : α) :
    Scalar.select (IntOp.cmpi .eq x y) a b = if x = y then a else b := by
  show (if BitVec.ofBool (x == y) = 1#1 then a else b) = _
  by_cases h : x = y
  · rw [if_pos h, (beq_iff_eq.mpr h : (x == y) = true)]; rfl
  · rw [if_neg h, (beq_eq_false_iff_ne.mpr h : (x == y) = false)]; rfl

/-- The lane counter at (row k, lane g) is the word of g. -/
private theorem iota_lane_apply (h : S5000x64.Iotas .tc 32 [1]) (k : Fin 5000) (g : Fin 64) :
    iota .tc S5000x64 32 [1] h (ix2 k g) = BitVec.ofNat 32 g.val := by
  unfold iota
  show BitVec.ofNat 32 (0 * 64 + g.val) = _
  rw [Nat.zero_mul, Nat.zero_add]

/-- The one-hot block at (row k, lane g): one where the row's graph word is the word of g, zero elsewhere. -/
private theorem k2_pay5_apply (w : (⟨2, ![5000, 1]⟩ : Shape).Idx → BitVec 32) (k : Fin 5000) (g : Fin 64) :
    k2_pay5 (F := Ideal) w (ix2 k g) = if w (ix2 k (0 : Fin 1)) = BitVec.ofNat 32 g.val then (1 : EReal) else 0 := by
  unfold k2_pay5
  show Scalar.select (IntOp.cmpi .eq
      (broadcastTo S5000x64 (shapeCast S5000x1 w shapeCasts_S5000x1_S5000x1) broadcasts_S5000x1_S5000x64 (ix2 k g))
      (iota Kind.tc S5000x64 32 [1] iota_S5000x64_d1_w32 (ix2 k g)))
      (Ideal.ofBits .f32 0x3F800000#32) (Ideal.ofBits .f32 0x00000000#32) = _
  rw [select_cmpi_eq, one_f32, Ideal.ofBits_zero_f32, shapeCast_self, broadcastTo_a1_ab_apply, iota_lane_apply]

/-- The second layer's output on a block at (row k, feature j): the scaled aggregate plus the bias, cut at zero. -/
private theorem h_block_apply (s : (⟨2, ![5000, 1]⟩ : Shape).Idx → EReal) (a : (⟨2, ![5000, 64]⟩ : Shape).Idx → EReal)
    (b : (⟨2, ![1, 64]⟩ : Shape).Idx → EReal) (k : Fin 5000) (j : Fin 64) :
    truncf (F := Ideal) .bf16
      (maximumf
        (addf (mulf (broadcastTo S5000x64 (shapeCast S5000x1 s shapeCasts_S5000x1_S5000x1) broadcasts_S5000x1_S5000x64)
                    (shapeCast S5000x64 a shapeCasts_S5000x64_S5000x64))
              (broadcastTo S5000x64 (shapeCast S1x64 b shapeCasts_S1x64_S1x64) broadcasts_S1x64_S5000x64))
        (broadcast S5000x64 (Scalar.ofBits .f32 0x00000000#32)))
      bitsLt_bf16_f32 (ix2 k j)
    = max (s (ix2 k (0 : Fin 1)) * a (ix2 k j) + b (ix2 (0 : Fin 1) j)) 0 := by
  rw [truncf_apply, maximumf_apply, addf_apply, mulf_apply, broadcast_apply, shapeCast_self, shapeCast_self, shapeCast_self,
    broadcastTo_a1_ab_apply, broadcastTo_1b_ab_apply]
  show max _ (Ideal.ofBits .f32 0x00000000#32) = _
  rw [Ideal.ofBits_zero_f32]

/-! The matmul [64, 5000] × [5000, 64] read at (g, j): its contraction runs over the 5000 rows. -/

private theorem lhs_dot2_0 (i : S64x64.Idx) (q : dot_S64x5000_S5000x64_S64x64_1_0_0_1_n_n.contr.Idx) :
    (dot_S64x5000_S5000x64_S64x64_1_0_0_1_n_n.lhsIdx i q 0).val = (i 0).val := by
  unfold DotDims.lhsIdx
  rw [dif_neg (show ¬(0 : Fin S64x5000.rank) ∈ dot_S64x5000_S5000x64_S64x64_1_0_0_1_n_n.lhsBatch by decide), dif_pos (show (0 : Fin S64x5000.rank) ∈ dot_S64x5000_S5000x64_S64x64_1_0_0_1_n_n.lhsNonContracting by decide)]
  rfl
private theorem lhs_dot2_1 (i : S64x64.Idx) (q : dot_S64x5000_S5000x64_S64x64_1_0_0_1_n_n.contr.Idx) :
    (dot_S64x5000_S5000x64_S64x64_1_0_0_1_n_n.lhsIdx i q 1).val = (q ⟨0, by decide⟩).val :=
  dot_S64x5000_S5000x64_S64x64_1_0_0_1_n_n.lhsIdx_val_of_single rfl i q
private theorem rhs_dot2_0 (i : S64x64.Idx) (q : dot_S64x5000_S5000x64_S64x64_1_0_0_1_n_n.contr.Idx) :
    (dot_S64x5000_S5000x64_S64x64_1_0_0_1_n_n.rhsIdx i q 0).val = (q ⟨0, by decide⟩).val :=
  dot_S64x5000_S5000x64_S64x64_1_0_0_1_n_n.rhsIdx_val_of_single rfl i q
private theorem rhs_dot2_1 (i : S64x64.Idx) (q : dot_S64x5000_S5000x64_S64x64_1_0_0_1_n_n.contr.Idx) :
    (dot_S64x5000_S5000x64_S64x64_1_0_0_1_n_n.rhsIdx i q 1).val = (i 1).val := by
  unfold DotDims.rhsIdx
  rw [dif_neg (show ¬(1 : Fin S5000x64.rank) ∈ dot_S64x5000_S5000x64_S64x64_1_0_0_1_n_n.rhsBatch by decide), dif_pos (show (1 : Fin S5000x64.rank) ∈ dot_S64x5000_S5000x64_S64x64_1_0_0_1_n_n.rhsNonContracting by decide)]
  rfl

/-- The product into a zero accumulator at (g, j): the sum over the rows k of left(g, k) · right(k, j). -/
private theorem matmul2_apply {φ₁ φ₂ : FTy} (L : FVec Ideal S64x5000 φ₁) (R : FVec Ideal S5000x64 φ₂) (g j : Fin 64) :
    matmul dot_S64x5000_S5000x64_S64x64_1_0_0_1_n_n none L R (constant S64x64 .f32 0x00000000#32) (ix2 g j)
      = ∑ k : Fin 5000, L (ix2 g k) * R (ix2 k j) := by
  show FloatOps.matmul dot_S64x5000_S5000x64_S64x64_1_0_0_1_n_n none L R (constant S64x64 .f32 0x00000000#32) (ix2 g j) = _
  rw [Ideal.matmul_constant_zero_apply, ← Equiv.sum_comp (ValueIdx.contrEquiv1 dot_S64x5000_S5000x64_S64x64_1_0_0_1_n_n 5000 rfl rfl).symm]
  refine Finset.sum_congr rfl fun k _ => ?_
  have hk := ValueIdx.contrEquiv1_symm_val dot_S64x5000_S5000x64_S64x64_1_0_0_1_n_n 5000 rfl rfl k
  have el : dot_S64x5000_S5000x64_S64x64_1_0_0_1_n_n.lhsIdx (ix2 g j) ((ValueIdx.contrEquiv1 dot_S64x5000_S5000x64_S64x64_1_0_0_1_n_n 5000 rfl rfl).symm k) = ix2 g k := funext fun a => Fin.ext (by
    match a with
    | ⟨0, _⟩ => exact lhs_dot2_0 _ _
    | ⟨1, _⟩ => exact (lhs_dot2_1 _ _).trans hk)
  have er : dot_S64x5000_S5000x64_S64x64_1_0_0_1_n_n.rhsIdx (ix2 g j) ((ValueIdx.contrEquiv1 dot_S64x5000_S5000x64_S64x64_1_0_0_1_n_n 5000 rfl rfl).symm k) = ix2 k j := funext fun a => Fin.ext (by
    match a with
    | ⟨0, _⟩ => exact (rhs_dot2_0 _ _).trans hk
    | ⟨1, _⟩ => exact rhs_dot2_1 _ _)
  rw [el, er]

/-- The sums' payload at (g, j): what was there plus, over the block's rows, mark(k, g) · h(k, j). -/
private theorem k2_pay7_apply (s : (⟨2, ![5000, 1]⟩ : Shape).Idx → EReal) (a : (⟨2, ![5000, 64]⟩ : Shape).Idx → EReal)
    (b : (⟨2, ![1, 64]⟩ : Shape).Idx → EReal) (w : (⟨2, ![5000, 1]⟩ : Shape).Idx → BitVec 32)
    (prev : (⟨2, ![64, 64]⟩ : Shape).Idx → EReal) (g j : Fin 64) :
    k2_pay7 (F := Ideal) s a b w prev (ix2 g j)
      = prev (ix2 g j) + ∑ k : Fin 5000, (if w (ix2 k (0 : Fin 1)) = BitVec.ofNat 32 g.val then (1 : EReal) else 0)
          * max (s (ix2 k (0 : Fin 1)) * a (ix2 k j) + b (ix2 (0 : Fin 1) j)) 0 := by
  unfold k2_pay7
  rw [shapeCast_self, addf_apply, matmul2_apply]
  refine congrArg (prev (ix2 g j) + ·) (Finset.sum_congr rfl fun k _ => ?_)
  rw [transpose_ix2_apply, k2_pay5_apply, h_block_apply]

/-- The counts' payload at (g, j): what was there plus, over the block's rows, mark(k, g) · 1. -/
private theorem k2_pay1_apply (w : (⟨2, ![5000, 1]⟩ : Shape).Idx → BitVec 32) (prev : (⟨2, ![64, 64]⟩ : Shape).Idx → EReal) (g j : Fin 64) :
    k2_pay1 (F := Ideal) (k2_pay6 (F := Ideal)) prev (k2_pay8 (F := Ideal) w) (constant S64x64 .f32 0x00000000#32) (ix2 g j)
      = prev (ix2 g j) + ∑ k : Fin 5000, (if w (ix2 k (0 : Fin 1)) = BitVec.ofNat 32 g.val then (1 : EReal) else 0) * 1 := by
  unfold k2_pay1 k2_pay8 k2_pay6
  rw [shapeCast_self, addf_apply, matmul2_apply]
  refine congrArg (prev (ix2 g j) + ·) (Finset.sum_congr rfl fun k _ => ?_)
  rw [transpose_ix2_apply, k2_pay5_apply, broadcast_apply]
  show _ * Ideal.ofBits .bf16 0x3F80#16 = _
  rw [one_bf16]

/-! ## The blocks at their places

Point t of the grid handles rows 5000 t … 5000 t + 4999: the aggregate, scale and graph-word windows sit at block t
along the rows, the bias row always at its one block. -/

/-- The four input blocks at point t, each at its literal type. -/
private abbrev aggblk2 (c : Dev nD) (t : Fin cfg2.N) : Vec Ideal S5000x64 .f32 := iblk2 V c 0 t
private abbrev sclblk2 (c : Dev nD) (t : Fin cfg2.N) : Vec Ideal S5000x1 .f32 := iblk2 V c 1 t
private abbrev biasblk2 (c : Dev nD) (t : Fin cfg2.N) : Vec Ideal S1x64 .f32 := iblk2 V c 2 t
private abbrev wordblk2 (c : Dev nD) (t : Fin cfg2.N) : Vec Ideal S5000x1 .i32 := iblk2 V c 3 t

/-- The block indices of the four windows at every point of the grid. -/
private theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (k, j) of the aggregate block at point t is entry (5000 t + k, j) of the aggregate. -/
private theorem aggblk2_apply (c : Dev nD) (t : Fin cfg2.N) (k : Fin 5000) (j : Fin 64) (n : Fin 100000) (hn : n.val = 5000 * t.val + k.val) :
    aggblk2 V c t (ix2 k j) = e2_agg V c (ix2 n j) := by
  obtain ⟨e0, e1, -⟩ := blockIndex2 t
  unfold aggblk2 iblk2
  rw [View.read_apply]
  show V c main_v37 _ = V c main_v37 _
  refine congrArg (V c main_v37) (funext fun a => Fin.ext ?_)
  match a with
  | ⟨0, _⟩ => show win2_0.index t (0 : Fin 2) * 5000 + 1 * k.val = n.val; omega
  | ⟨1, _⟩ => show win2_0.index t (1 : Fin 2) * 64 + 1 * j.val = j.val; omega

/-- Entry (k, 0) of the scale block at point t is entry (5000 t + k, 0) of the scale column. -/
private theorem sclblk2_apply (c : Dev nD) (t : Fin cfg2.N) (k : Fin 5000) (n : Fin 100000) (hn : n.val = 5000 * t.val + k.val) :
    sclblk2 V c t (ix2 k (0 : Fin 1)) = e2_scale V c (ix2 n (0 : Fin 1)) := by
  obtain ⟨-, -, e2, e3, -⟩ := blockIndex2 t
  unfold sclblk2 iblk2
  rw [View.read_apply]
  show V c main_v14 _ = V c main_v14 _
  refine congrArg (V c main_v14) (funext fun a => Fin.ext ?_)
  match a with
  | ⟨0, _⟩ => show win2_1.index t (0 : Fin 2) * 5000 + 1 * k.val = n.val; omega
  | ⟨1, _⟩ => show win2_1.index t (1 : Fin 2) * 1 + 1 * 0 = 0; omega

/-- The bias block at every point is the bias row. -/
private theorem biasblk2_apply (c : Dev nD) (t : Fin cfg2.N) (j : Fin 64) :
    biasblk2 V c t (ix2 (0 : Fin 1) j) = e2_b V c (ix2 (0 : Fin 1) j) := by
  obtain ⟨-, -, -, -, e4, e5, -⟩ := blockIndex2 t
  unfold biasblk2 iblk2
  rw [View.read_apply]
  show V c main_v38 _ = V c main_v38 _
  refine congrArg (V c main_v38) (funext fun a => Fin.ext ?_)
  match a with
  | ⟨0, _⟩ => show win2_2.index t (0 : Fin 2) * 1 + 1 * 0 = 0; omega
  | ⟨1, _⟩ => show win2_2.index t (1 : Fin 2) * 64 + 1 * j.val = j.val; omega

/-- Entry (k, 0) of the graph-word block at point t is entry (5000 t + k, 0) of the graph-word column. -/
private theorem wordblk2_apply (c : Dev nD) (t : Fin cfg2.N) (k : Fin 5000) (n : Fin 100000) (hn : n.val = 5000 * t.val + k.val) :
    wordblk2 V c t (ix2 k (0 : Fin 1)) = e2_bt V c (ix2 n (0 : Fin 1)) := by
  obtain ⟨-, -, -, -, -, -, e6, e7⟩ := blockIndex2 t
  unfold wordblk2 iblk2
  rw [View.read_apply]
  show V c main_v39 _ = V c main_v39 _
  refine congrArg (V c main_v39) (funext fun a => Fin.ext ?_)
  match a with
  | ⟨0, _⟩ => show win2_3.index t (0 : Fin 2) * 5000 + 1 * k.val = n.val; omega
  | ⟨1, _⟩ => show win2_3.index t (1 : Fin 2) * 1 + 1 * 0 = 0; omega

/-! ## Adding the twenty block sums -/

/-- The node that row k of point t's blocks is. -/
private def rowOf (t : Fin 20) (k : Fin 5000) : Fin 100000 :=
  ⟨5000 * t.val + k.val, by have := t.isLt; have := k.isLt; omega⟩

/-- Point t's addend to the sums at (g, j): over its rows, mark · feature (nothing beyond the grid). -/
private def sumAt (c : Dev nD) (g j : Fin 64) (t : ℕ) : EReal :=
  if h : t < 20 then ∑ k : Fin 5000, ohV V c (rowOf ⟨t, h⟩ k) g * h2V V c (rowOf ⟨t, h⟩ k) j else 0

/-- Point t's addend to the counts at g: over its rows, mark · 1. -/
private def cntAt (c : Dev nD) (g : Fin 64) (t : ℕ) : EReal :=
  if h : t < 20 then ∑ k : Fin 5000, ohV V c (rowOf ⟨t, h⟩ k) g * 1 else 0

/-- The cleared sums buffer holds zero everywhere. -/
private theorem pay3_apply (i : S64x64.Idx) : k2_pay3 (F := Ideal) i = 0 := by
  unfold k2_pay3
  rw [shapeCast_self, broadcast_apply]
  exact Ideal.ofBits_zero_f32

/-- The cleared counts buffer holds zero everywhere. -/
private theorem pay4_apply (i : S64x64.Idx) : k2_pay4 (F := Ideal) i = 0 := by
  unfold k2_pay4
  rw [shapeCast_self, broadcast_apply]
  exact Ideal.ofBits_zero_f32

/-- The sums' payload on point t's blocks adds point t's addend to what was there. -/
private theorem pay7_at (c : Dev nD) (t : Fin cfg2.N) (prev : Vec Ideal S64x64 .f32) (g j : Fin 64) :
    k2_pay7 (F := Ideal) (iblk2 V c 1 t) (iblk2 V c 0 t) (iblk2 V c 2 t) (iblk2 V c 3 t) prev (ix2 g j)
      = prev (ix2 g j) + sumAt V c g j t.val := by
  have hN : cfg2.N = 20 := N_2
  have ht : t.val < 20 := by have := t.isLt; omega
  refine (k2_pay7_apply (sclblk2 V c t) (aggblk2 V c t) (biasblk2 V c t) (wordblk2 V c t) prev g j).trans ?_
  unfold sumAt
  rw [dif_pos ht]
  refine congrArg (prev (ix2 g j) + ·) (Finset.sum_congr rfl fun k _ => ?_)
  rw [wordblk2_apply V c t k (rowOf ⟨t.val, ht⟩ k) rfl, sclblk2_apply V c t k (rowOf ⟨t.val, ht⟩ k) rfl,
    aggblk2_apply V c t k j (rowOf ⟨t.val, ht⟩ k) rfl, biasblk2_apply V c t j]
  rfl

/-- The counts' payload on point t's graph words adds point t's addend to what was there. -/
private theorem pay1_at (c : Dev nD) (t : Fin cfg2.N) (prev : Vec Ideal S64x64 .f32) (g j : Fin 64) :
    k2_pay1 (F := Ideal) (k2_pay6 (F := Ideal)) prev (k2_pay8 (iblk2 V c 3 t)) (constant S64x64 .f32 0x00000000#32) (ix2 g j)
      = prev (ix2 g j) + cntAt V c g t.val := by
  have hN : cfg2.N = 20 := N_2
  have ht : t.val < 20 := by have := t.isLt; omega
  refine (k2_pay1_apply (wordblk2 V c t) prev g j).trans ?_
  unfold cntAt
  rw [dif_pos ht]
  refine congrArg (prev (ix2 g j) + ·) (Finset.sum_congr rfl fun k _ => ?_)
  rw [wordblk2_apply V c t k (rowOf ⟨t.val, ht⟩ k) rfl]
  rfl

/-- The sums after point n: zero plus the addends of points 0 … n, in the grid's order. -/
private theorem acc2_fst_upto (c : Dev nD) (g j : Fin 64) : ∀ (n : ℕ) (hn : n < cfg2.N),
    (acc2 (F := Ideal) V c n hn).1 (ix2 g j) = 0 + ∑ t ∈ Finset.range (n + 1), sumAt V c g j t
  | 0, hn => by
    rw [Finset.sum_range_one, acc2]
    refine (pay7_at V c ⟨0, hn⟩ _ g j).trans ?_
    rw [pay3_apply]
  | n + 1, hn => by
    rw [Finset.sum_range_succ, ← add_assoc, ← acc2_fst_upto c g j n (Nat.lt_of_succ_lt hn), acc2]
    exact pay7_at V c ⟨n + 1, hn⟩ _ g j

/-- The counts after point n: zero plus the addends of points 0 … n, in the grid's order. -/
private theorem acc2_snd_upto (c : Dev nD) (g j : Fin 64) : ∀ (n : ℕ) (hn : n < cfg2.N),
    (acc2 (F := Ideal) V c n hn).2 (ix2 g j) = 0 + ∑ t ∈ Finset.range (n + 1), cntAt V c g t
  | 0, hn => by
    rw [Finset.sum_range_one, acc2]
    refine (pay1_at V c ⟨0, hn⟩ _ g j).trans ?_
    rw [pay4_apply]
  | n + 1, hn => by
    rw [Finset.sum_range_succ, ← add_assoc, ← acc2_snd_upto c g j n (Nat.lt_of_succ_lt hn), acc2]
    exact pay1_at V c ⟨n + 1, hn⟩ _ g j

/-- Reading the pair (point t, row k) as the node 5000 t + k turns the double sum into the sum over all nodes. -/
private theorem sum_blocks (f : Fin 100000 → EReal) :
    ∑ t : Fin 20, ∑ k : Fin 5000, f (rowOf t k) = ∑ n : Fin 100000, f n := by
  rw [← Fintype.sum_prod_type']
  refine Fintype.sum_equiv (finProdFinEquiv (m := 20) (n := 5000)) _ _ fun x => congrArg f (Fin.ext ?_)
  show 5000 * x.1.val + x.2.val = x.2.val + 5000 * x.1.val
  omega

/-- The sums after the last point: per graph and feature, the one-hot sum over all nodes of the second layer's output. -/
theorem acc2_sum (c : Dev nD) (g j : Fin 64) :
    (acc2 (F := Ideal) V c 19 (by decide)).1 (ix2 g j) = Cert.Spec.poolOneHot (ohV V c) (h2V V c) g j := by
  rw [acc2_fst_upto V c g j 19 (by decide)]
  unfold Cert.Spec.poolOneHot
  show (0 : EReal) + ∑ t ∈ Finset.range 20, sumAt V c g j t = _
  rw [← sum_blocks (fun n => ohV V c n g * h2V V c n j), ← Fin.sum_univ_eq_sum_range]
  refine congrArg ((0 : EReal) + ·) (Finset.sum_congr rfl fun t _ => ?_)
  unfold sumAt
  rw [dif_pos t.isLt]

/-- The counts after the last point: per graph, the one-hot sum against ones, the same in every column. -/
theorem acc2_cnt (c : Dev nD) (g j : Fin 64) :
    (acc2 (F := Ideal) V c 19 (by decide)).2 (ix2 g j) = Cert.Spec.countOneHot (ohV V c) g j := by
  rw [acc2_snd_upto V c g j 19 (by decide)]
  unfold Cert.Spec.countOneHot
  show (0 : EReal) + ∑ t ∈ Finset.range 20, cntAt V c g t = _
  rw [← sum_blocks (fun n => ohV V c n g * 1), ← Fin.sum_univ_eq_sum_range]
  refine congrArg ((0 : EReal) + ·) (Finset.sum_congr rfl fun t _ => ?_)
  unfold cntAt
  rw [dif_pos t.isLt]

end Cert.KernelIdeal.Hand

end
-- ==== Proof.KI.Head2.lean ====
/-
  The head of the network read at an index: from the two full accumulators S (sums) and C (counts), the 64 × 2
  weights and the bias row, the last point's payload is the log-softmax of the two logits of each graph —
  mean = S / max(C, 1), logit = mean · W + bias, then the row maximum (a fold from -∞ over the two columns)
  subtracted, the exponentials summed from 0, and the logarithm of the sum subtracted.
-/
import proofs.«410454_j88278757802580_2_alg».proof.Proof.Gen.KernelIdeal.Skeleton
import proofs.«410454_j88278757802580_2_alg».proof.Proof.Spec
import proofs.«410454_j88278757802580_2_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ### The two scalar constants -/

/-- The pattern of 1.0 is the number one. -/
private theorem ofBits_one_f32 : Ideal.ofBits .f32 0x3F800000#32 = 1 := by
  simp [Ideal.ofBits, Ideal.ieee, -EReal.coe_mul]; norm_num

/-- The pattern of -∞ is the bottom of the extended reals. -/
private theorem ofBits_ninf_f32 : Ideal.ofBits .f32 0xFF800000#32 = ⊥ := by
  simp [Ideal.ofBits, Ideal.ieee]

/-! ### The 64 × 64 by 64 × 2 product at (g, q) -/

/-- The left operand is read at the output's row. -/
private theorem lhs_head_0 (i : S64x2.Idx) (k : dot_S64x64_S64x2_S64x2_1_0_0_1_n_n.contr.Idx) :
    (dot_S64x64_S64x2_S64x2_1_0_0_1_n_n.lhsIdx i k 0).val = (i 0).val := by
  unfold DotDims.lhsIdx
  rw [dif_neg (show ¬(0 : Fin S64x64.rank) ∈ dot_S64x64_S64x2_S64x2_1_0_0_1_n_n.lhsBatch by decide),
    dif_pos (show (0 : Fin S64x64.rank) ∈ dot_S64x64_S64x2_S64x2_1_0_0_1_n_n.lhsNonContracting by decide)]
  rfl

/-- … and at the contraction coordinate as its column. -/
private theorem lhs_head_1 (i : S64x2.Idx) (k : dot_S64x64_S64x2_S64x2_1_0_0_1_n_n.contr.Idx) :
    (dot_S64x64_S64x2_S64x2_1_0_0_1_n_n.lhsIdx i k 1).val = (k ⟨0, by decide⟩).val :=
  dot_S64x64_S64x2_S64x2_1_0_0_1_n_n.lhsIdx_val_of_single rfl i k

/-- The right operand is read at the contraction coordinate as its row, -/
private theorem rhs_head_0 (i : S64x2.Idx) (k : dot_S64x64_S64x2_S64x2_1_0_0_1_n_n.contr.Idx) :
    (dot_S64x64_S64x2_S64x2_1_0_0_1_n_n.rhsIdx i k 0).val = (k ⟨0, by decide⟩).val :=
  dot_S64x64_S64x2_S64x2_1_0_0_1_n_n.rhsIdx_val_of_single rfl i k

/-- … and at the output's column. -/
private theorem rhs_head_1 (i : S64x2.Idx) (k : dot_S64x64_S64x2_S64x2_1_0_0_1_n_n.contr.Idx) :
    (dot_S64x64_S64x2_S64x2_1_0_0_1_n_n.rhsIdx i k 1).val = (i 1).val := by
  unfold DotDims.rhsIdx
  rw [dif_neg (show ¬(1 : Fin S64x2.rank) ∈ dot_S64x64_S64x2_S64x2_1_0_0_1_n_n.rhsBatch by decide),
    dif_pos (show (1 : Fin S64x2.rank) ∈ dot_S64x64_S64x2_S64x2_1_0_0_1_n_n.rhsNonContracting by decide)]
  rfl

/-- The product into a zero accumulator, at (g, q): the sum over k of left (g, k) times right (k, q). -/
private theorem matmul_at (a : FVec Ideal S64x64 .bf16) (b : FVec Ideal S64x2 .bf16) (g : Fin 64) (q : Fin 2) :
    matmul dot_S64x64_S64x2_S64x2_1_0_0_1_n_n none a b (constant (F := Ideal) S64x2 .f32 0x00000000#32) (ix2 g q)
      = ∑ k : Fin 64, a (ix2 g k) * b (ix2 k q) := by
  simp only [matmul]
  rw [Ideal.matmul_constant_zero_apply,
    ← Equiv.sum_comp (contrEquiv1 dot_S64x64_S64x2_S64x2_1_0_0_1_n_n 64 rfl rfl).symm]
  refine Finset.sum_congr rfl fun k _ => ?_
  have hk := contrEquiv1_symm_val dot_S64x64_S64x2_S64x2_1_0_0_1_n_n 64 rfl rfl k
  have el : dot_S64x64_S64x2_S64x2_1_0_0_1_n_n.lhsIdx (ix2 g q)
      ((contrEquiv1 dot_S64x64_S64x2_S64x2_1_0_0_1_n_n 64 rfl rfl).symm k) = ix2 g k :=
    funext fun ax => Fin.ext (by
      match ax with
      | ⟨0, _⟩ => exact lhs_head_0 _ _
      | ⟨1, _⟩ => exact (lhs_head_1 _ _).trans hk)
  have er : dot_S64x64_S64x2_S64x2_1_0_0_1_n_n.rhsIdx (ix2 g q)
      ((contrEquiv1 dot_S64x64_S64x2_S64x2_1_0_0_1_n_n 64 rfl rfl).symm k) = ix2 k q :=
    funext fun ax => Fin.ext (by
      match ax with
      | ⟨0, _⟩ => exact (rhs_head_0 _ _).trans hk
      | ⟨1, _⟩ => exact rhs_head_1 _ _)
  rw [el, er]

/-! ### The two reductions over the pair of columns -/

/-- The reduced index g with the column k put back is (g, k). -/
private theorem lift_col (h : S64x2.Reduces [1] S64) (g : Fin 64) (k : Fin 2) : h.lift (ix1 g) k = ix2 g k := by
  funext ax
  refine Fin.ext ?_
  match ax with
  | ⟨0, _⟩ => rfl
  | ⟨1, _⟩ => rfl

/-- The sum over the two columns, from zero. -/
private theorem sum_at (v : FVec Ideal S64x2 .f32) (h : S64x2.Reduces [1] S64) (hφ : FKind.Formats .f32)
    (hacc : (0x00000000#32 : BitVec 32) = 0x00000000#32) (g : Fin 64) :
    multiReduction (F := Ideal) .add [1] S64 v 0x00000000#32 h hφ hacc (ix1 g) = v (ix2 g 0) + v (ix2 g 1) := by
  refine (Ideal.multiReduction_add_single v 0x00000000#32 h hφ hacc (ix1 g)).trans ?_
  show ∑ k : Fin 2, v (h.lift (ix1 g) k) = _
  rw [Fin.sum_univ_two, lift_col, lift_col]

/-- The maximum over the two columns, folded from -∞. -/
private theorem max_at (v : FVec Ideal S64x2 .f32) (h : S64x2.Reduces [1] S64) (hφ : FKind.Formats .f32)
    (hacc : (0xFF800000#32 : BitVec 32) = 0xFF800000#32) (g : Fin 64) :
    multiReduction (F := Ideal) .maximumf [1] S64 v 0xFF800000#32 h hφ hacc (ix1 g) = max (v (ix2 g 0)) (v (ix2 g 1)) := by
  refine (Ideal.multiReduction_maximumf_single v 0xFF800000#32 h hφ hacc (ix1 g)).trans ?_
  show (Finset.univ : Finset (Fin 2)).fold max (Ideal.ofBits .f32 0xFF800000#32)
      (fun k : Fin 2 => v (h.lift (ix1 g) k)) = _
  have hf : (fun k : Fin 2 => v (h.lift (ix1 g) k)) = fun k : Fin 2 => v (ix2 g k) :=
    funext fun k => by rw [lift_col]
  have huniv : (Finset.univ : Finset (Fin 2)) = insert 0 {1} := by decide
  rw [hf, huniv, Finset.fold_insert (by decide), Finset.fold_singleton, ofBits_ninf_f32, max_bot_right]

/-! ### The kept-axis forms: a reduced row stored as a column and spread back over the two columns -/

/-- The row maximum, kept as a column and spread over the columns, at (g, q). -/
private theorem keep_max (v : FVec Ideal S64x2 .f32) (h : S64x2.Reduces [1] S64) (hφ : FKind.Formats .f32)
    (hacc : (0xFF800000#32 : BitVec 32) = 0xFF800000#32)
    (hc : S64.ShapeCasts S64x1) (hb : S64x1.Broadcasts S64x2) (g : Fin 64) (q : Fin 2) :
    broadcastTo S64x2 (shapeCast S64x1 (multiReduction (F := Ideal) .maximumf [1] S64 v 0xFF800000#32 h hφ hacc) hc) hb (ix2 g q)
      = max (v (ix2 g 0)) (v (ix2 g 1)) := by
  rw [Cert.Lib.KeepdimsColumn.broadcastTo_a1_ab_apply, Cert.Lib.KeepdimsColumn.shapeCast_a_a1_apply, max_at]

/-- The logarithm of the row sum, kept as a column and spread over the columns, at (g, q). -/
private theorem keep_logsum (v : FVec Ideal S64x2 .f32) (h : S64x2.Reduces [1] S64) (hφ : FKind.Formats .f32)
    (hacc : (0x00000000#32 : BitVec 32) = 0x00000000#32)
    (hc : S64.ShapeCasts S64x1) (hb : S64x1.Broadcasts S64x2) (g : Fin 64) (q : Fin 2) :
    broadcastTo S64x2 (log (shapeCast S64x1 (multiReduction (F := Ideal) .add [1] S64 v 0x00000000#32 h hφ hacc) hc)) hb (ix2 g q)
      = Ideal.log (v (ix2 g 0) + v (ix2 g 1)) := by
  rw [Cert.Lib.KeepdimsColumn.broadcastTo_a1_ab_apply]
  show Ideal.log (shapeCast S64x1 (multiReduction (F := Ideal) .add [1] S64 v 0x00000000#32 h hφ hacc) hc (ix2 g (0 : Fin 1))) = _
  rw [Cert.Lib.KeepdimsColumn.shapeCast_a_a1_apply, sum_at]

/-- The bias row spread over the 64 rows, at (g, q). -/
private theorem bias_at (bfc : S1x2.Idx → EReal) (hc : S1x2.ShapeCasts S1x2) (hb : S1x2.Broadcasts S64x2) (g : Fin 64) (q : Fin 2) :
    broadcastTo S64x2 (shapeCast S1x2 bfc hc) hb (ix2 g q) = bfc (ix2 (0 : Fin 1) q) := by
  rw [broadcastTo_1b_ab_apply, shapeCast_self]

/-! ### The pointwise exponential, and the logits -/

/-- The exponential of a vector at an index. -/
private theorem exp_at {s : Shape} {φ : FTy} (a : FVec Ideal s φ) (i : s.Idx) : exp a i = Ideal.exp (a i) := rfl

/-- The kernel's logits at (g, r): the mean features S / max(C, 1) against the weights, plus the bias. -/
private theorem logit_at (S C : S64x64.Idx → EReal) (wfc : S64x2.Idx → EReal) (bfc : S1x2.Idx → EReal)
    (hlt : FTy.bits .bf16 < FTy.bits .f32) (hc : S1x2.ShapeCasts S1x2) (hb : S1x2.Broadcasts S64x2)
    (g : Fin 64) (r : Fin 2) :
    addf
        (matmul dot_S64x64_S64x2_S64x2_1_0_0_1_n_n none
          (truncf .bf16 (divf S (maximumf C (broadcast S64x64 (FloatOps.ofBits (F := Ideal) .f32 0x3F800000#32)))) hlt)
          (truncf .bf16 wfc hlt) (constant (F := Ideal) S64x2 .f32 0x00000000#32))
        (broadcastTo S64x2 (shapeCast S1x2 bfc hc) hb) (ix2 g r)
      = Cert.Spec.logit (fun a b => S (ix2 a b)) (fun a b => C (ix2 a b)) (fun k r => wfc (ix2 k r))
          (fun r => bfc (ix2 (0 : Fin 1) r)) g r := by
  rw [addf_apply, matmul_at, bias_at]
  unfold Cert.Spec.logit Cert.Spec.mean
  refine congrArg (· + bfc (ix2 (0 : Fin 1) r)) (Finset.sum_congr rfl fun k _ => ?_)
  rw [truncf_apply, truncf_apply, divf_apply, maximumf_apply, broadcast_apply, Ideal.ofBits_def, ofBits_one_f32]

/-- THE HEAD AT (graph, class). -/
theorem k2_pay2_apply (S C : S64x64.Idx → EReal) (wfc : S64x2.Idx → EReal) (bfc : S1x2.Idx → EReal) (g : Fin 64) (q : Fin 2) :
    k2_pay2 (F := Ideal) S C wfc bfc (ix2 g q)
      = Cert.Spec.logSoftmax (fun a b => S (ix2 a b)) (fun a b => C (ix2 a b)) (fun k r => wfc (ix2 k r))
          (fun r => bfc (ix2 (0 : Fin 1) r)) g q := by
  unfold k2_pay2
  -- the two outer differences; the kept row maximum; the logarithm of the kept row sum
  rw [subf_apply, subf_apply, keep_max, keep_logsum]
  -- inside the sum: the exponentials of the shifted logits at the two columns
  rw [exp_at, exp_at, subf_apply, subf_apply, keep_max, keep_max]
  -- the logits at (g, q), (g, 0), (g, 1); what is left is the log-softmax written out
  rw [logit_at, logit_at, logit_at]
  rfl

end Cert.KernelIdeal.Hand

end
-- ==== Proof.KI.Value2.lean ====
/-
  The third launch's output array after the launch.

  The 64 × 2 output block is written back only at the last point, and that one block is the whole array. What the
  last point stores is the head of the network on the two full accumulators, which are the one-hot sums and counts
  over all nodes; so the array ends at the log-softmax of the pooled means' logits.
-/
import proofs.«410454_j88278757802580_2_alg».proof.Proof.Gen.KernelIdeal.Launch
import proofs.«410454_j88278757802580_2_alg».proof.Proof.Gen.KernelIdeal.Skeleton
import proofs.«410454_j88278757802580_2_alg».proof.Proof.Gen.KernelIdeal.Points
import proofs.«410454_j88278757802580_2_alg».proof.Proof.KI.Entry2
import proofs.«410454_j88278757802580_2_alg».proof.Proof.KI.Acc2
import proofs.«410454_j88278757802580_2_alg».proof.Proof.KI.Head2
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## The last point's three whole-array blocks

The head's weights, its bias row and the output are each one block, the whole array, at every point of the grid. -/

/-- The head's weight and bias blocks at point t, each at its literal type. -/
private abbrev wfcblk2 (c : Dev nD) (t : Fin cfg2.N) : Vec Ideal S64x2 .f32 := iblk2 V c 4 t
private abbrev bfcblk2 (c : Dev nD) (t : Fin cfg2.N) : Vec Ideal S1x2 .f32 := iblk2 V c 5 t

/-- The block indices of the three windows at every point of the grid. -/
private theorem blockIndexHead2 : ∀ t : Fin cfg2.N,
    win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- The weight block at every point is the weight matrix. -/
private theorem wfcblk2_apply (c : Dev nD) (t : Fin cfg2.N) (k : Fin 64) (r : Fin 2) :
    wfcblk2 V c t (ix2 k r) = e2_wfc V c (ix2 k r) := by
  obtain ⟨e0, e1, -⟩ := blockIndexHead2 t
  unfold wfcblk2 iblk2
  rw [View.read_apply]
  show V c main_arg7 _ = V c main_arg7 _
  refine congrArg (V c main_arg7) (funext fun a => Fin.ext ?_)
  match a with
  | ⟨0, _⟩ => show win2_4.index t (0 : Fin 2) * 64 + 1 * k.val = k.val; omega
  | ⟨1, _⟩ => show win2_4.index t (1 : Fin 2) * 2 + 1 * r.val = r.val; omega

/-- The bias block at every point is the bias row. -/
private theorem bfcblk2_apply (c : Dev nD) (t : Fin cfg2.N) (r : Fin 2) :
    bfcblk2 V c t (ix2 (0 : Fin 1) r) = e2_bfc V c (ix2 (0 : Fin 1) r) := by
  obtain ⟨-, -, e2, e3, -⟩ := blockIndexHead2 t
  unfold bfcblk2 iblk2
  rw [View.read_apply]
  show V c main_v40 _ = V c main_v40 _
  refine congrArg (V c main_v40) (funext fun a => Fin.ext ?_)
  match a with
  | ⟨0, _⟩ => show win2_5.index t (0 : Fin 2) * 1 + 1 * 0 = 0; omega
  | ⟨1, _⟩ => show win2_5.index t (1 : Fin 2) * 2 + 1 * r.val = r.val; omega

/-- Any function of the output array's index, read through the output window's block at point t, is the function
    itself: the block is the whole array. -/
private theorem yblk2_apply (t : Fin cfg2.N) (G : S64x2.Idx → EReal) (g : Fin 64) (q : Fin 2) :
    ((cfg2.win 6).blk t).view.read (Elt Ideal) G (ix2 g q) = G (ix2 g q) := by
  obtain ⟨-, -, -, -, e4, e5⟩ := blockIndexHead2 t
  rw [View.read_apply]
  refine congrArg G (funext fun a => Fin.ext ?_)
  match a with
  | ⟨0, _⟩ => show win2_6.index t (0 : Fin 2) * 64 + 1 * g.val = g.val; omega
  | ⟨1, _⟩ => show win2_6.index t (1 : Fin 2) * 2 + 1 * q.val = q.val; omega

/-- The one write-back, at the last point, writes what the last point stored. -/
private theorem flushed2_eq (c : Dev nD) (t : Fin cfg2.N) (hf : (cfg2.win 6).flush t = true) :
    (dat2 (F := Ideal) V c).flushed 6 t = ((cfg2.win 6).blk t).view.read (Elt Ideal) (outLast2 (F := Ideal) V c) := by
  have hN : cfg2.N = 20 := N_2
  have h1 : t.val = 19 := by have := (flush2_6 t).mp hf; have := t.isLt; omega
  obtain rfl : t = tLast2 := Fin.ext h1
  show (cfg2.win 6).cut (grid2.coords tLast2) ((dat2 V c).after 6 tLast2) = _
  rw [after2_6_last]
  funext y
  obtain ⟨g, q, rfl⟩ : ∃ (g : Fin 64) (q : Fin 2), y = ix2 g q := ⟨y 0, y 1, eq_ix2 y⟩
  show outLast2 (F := Ideal) V c (ix2 g q) = _
  rw [yblk2_apply tLast2 (outLast2 (F := Ideal) V c) g q]

/-- An index of the output array lies in point t's block iff each coordinate lies in the block's range on its axis. -/
private theorem mem_blk2 (t : Fin cfg2.N) (i : S64x2.Idx) :
    i ∈ ((cfg2.win 6).blk t).view.set ↔ ∀ a : Fin 2, win2_6.index t a * S64x2.size a ≤ (i a).val ∧ (i a).val < win2_6.index t a * S64x2.size a + S64x2.size a := by
  show i ∈ ((View.whole main_v41).slice (win2_6.rect t)).set ↔ _
  rw [View.set_slice_whole, Rect.mem_set_unit]
  exact Iff.rfl

/-- Every entry of the output array lies in the last point's block, and the last point writes back. -/
private theorem cover2 (i : S64x2.Idx) : ∃ t : Fin cfg2.N, (cfg2.win 6).flush t = true ∧ i ∈ ((cfg2.win 6).blk t).view.set := by
  have hi0 : (i 0).val < 64 := (i 0).isLt
  have hi1 : (i 1).val < 2 := (i 1).isLt
  obtain ⟨-, -, -, -, e4, e5⟩ := blockIndexHead2 tLast2
  refine ⟨tLast2, (flush2_6 tLast2).mpr rfl, ?_⟩
  rw [mem_blk2]
  intro a
  match a with
  | ⟨0, _⟩ =>
    show win2_6.index tLast2 (0 : Fin 2) * 64 ≤ (i 0).val ∧ (i 0).val < win2_6.index tLast2 (0 : Fin 2) * 64 + 64
    rw [e4]; omega
  | ⟨1, _⟩ =>
    show win2_6.index tLast2 (1 : Fin 2) * 2 ≤ (i 1).val ∧ (i 1).val < win2_6.index tLast2 (1 : Fin 2) * 2 + 2
    rw [e5]; omega

/-- The output array after the launch holds what the last point stored. -/
theorem y3_eq_outLast (c : Dev nD) : y3 V c = outLast2 (F := Ideal) V c :=
  (dat2 (F := Ideal) V c).arrAt_eq_of_cover 6 (outLast2 (F := Ideal) V c) (fun t hf => flushed2_eq V c t hf) cover2

/-- THE THIRD LAUNCH'S VALUE at (graph, class). -/
theorem out2_value (c : Dev nD) (g : Fin 64) (q : Fin 2) :
    y3 V c (ix2 g q)
      = Cert.Spec.logSoftmax (Cert.Spec.poolOneHot (ohV V c) (h2V V c)) (Cert.Spec.countOneHot (ohV V c))
          (fun k r => e2_wfc V c (ix2 k r)) (fun r => e2_bfc V c (ix2 (0 : Fin 1) r)) g q := by
  rw [y3_eq_outLast]
  unfold outLast2
  refine (k2_pay2_apply (acc2 (F := Ideal) V c 19 (by decide)).1 (acc2 (F := Ideal) V c 19 (by decide)).2
    (wfcblk2 V c tLast2) (bfcblk2 V c tLast2) g q).trans ?_
  have hS : (fun a b => (acc2 (F := Ideal) V c 19 (by decide)).1 (ix2 a b)) = Cert.Spec.poolOneHot (ohV V c) (h2V V c) :=
    funext fun a => funext fun b => acc2_sum V c a b
  have hC : (fun a b => (acc2 (F := Ideal) V c 19 (by decide)).2 (ix2 a b)) = Cert.Spec.countOneHot (ohV V c) :=
    funext fun a => funext fun b => acc2_cnt V c a b
  have hW : (fun k r => wfcblk2 V c tLast2 (ix2 k r)) = fun k r => e2_wfc V c (ix2 k r) :=
    funext fun k => funext fun r => wfcblk2_apply V c tLast2 k r
  have hB : (fun r => bfcblk2 V c tLast2 (ix2 (0 : Fin 1) r)) = fun r => e2_bfc V c (ix2 (0 : Fin 1) r) :=
    funext fun r => bfcblk2_apply V c tLast2 r
  rw [hS, hC, hW, hB]

end Cert.KernelIdeal.Hand

end
-- ==== Proof.RefRead.lean ====
/-
  The reference program's run and its stages read at an index, brought into scope for the modules that state
  what the reference computes.
-/
import proofs.«410454_j88278757802580_2_alg».proof.Proof.Gen.ReferenceIdeal.Run
import proofs.«410454_j88278757802580_2_alg».proof.Proof.Gen.ReferenceIdeal.Read
-- ==== Proof.LibGatherRows.lean ====
/-
  A row gather (`x[idx]` along one axis of a rank-2 table) read at an index, in both layouts.

  Table `[N, C]`, start indices `[E, 1]`, result `[E, C]`: result element `(e, k)` is the table's
  `(r, k)`, where `r` is the index word `idx[e, 0]` read as a signed integer and clamped into
  `[0, N - 1]` (a negative number reads as row 0, one past the end as the last row).
  The transposed layout (table `[C, N]`, result `[C, E]`) gathers along axis 1 the same way.
  Beside them: the index wrap `i < 0 ? i + N : i` of a signed 32-bit word in `[-N, N)` lands in `[0, N)`.
-/
import Idealize.ShloMosaic.PureOps
import Idealize.ShloMosaic.Lib.ValueIdx

noncomputable section

namespace Idealize.ShloMosaic.RowGather

open Idealize.ShloMosaic Idealize.ShloMosaic.ValueIdx

variable {α : Type}

/-- Gather of whole rows: table `[N, C]`, indices `[E, 1]`, result `[E, C]`. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of whole columns: table `[C, N]`, indices `[E, 1]`, result `[C, E]`. -/
abbrev colDims (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- The row an index word names: read signed, clamped into `[0, N - 1]`. -/
def clampRow (N : Nat) (hN : 0 < N) {w : Nat} (i : BitVec w) : Fin N :=
  ⟨min i.toInt.toNat (N - 1), by omega⟩

/-- THE ROW GATHER READ AT `(e, k)`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 (clampRow N hN (idx (ix2 e (0 : Fin 1)))) k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e k) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show (1 : Fin 2) ∉ (rowDims N C E wf).startIndexMap from (by decide : (1 : Fin 2) ∉ [(0 : Fin 2)]))]
    simp only [Nat.add_zero, Nat.zero_add]
    unfold GatherDims.offCoord
    rw [dif_pos ((GatherDims.mem_sKept _ _).mpr ⟨(by decide : (1 : Fin 2) ∉ [(0 : Fin 2)]), List.not_mem_nil⟩)]
    rfl

/-- THE COLUMN GATHER READ AT `(k, e)`. -/
theorem gather_cols_apply {C N E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (e : Fin E) (k : Fin C) :
    Host.gather (colDims C N E wf) x idx (ix2 k e)
      = x (ix2 k (clampRow N hN (idx (ix2 e (0 : Fin 1))))) := by
  unfold Host.gather
  congr 1
  funext a
  refine Fin.ext ?_
  match a with
  | ⟨0, _⟩ =>
    show (colDims C N E wf).start (ix2 k e) idx 0 + (colDims C N E wf).batchCoord (ix2 k e) 0
      + (colDims C N E wf).offCoord (ix2 k e) 0 = _
    rw [GatherDims.batchCoord_eq_zero _ _ _ List.not_mem_nil]
    unfold GatherDims.start
    rw [dif_neg (show (0 : Fin 2) ∉ (colDims C N E wf).startIndexMap from (by decide : (0 : Fin 2) ∉ [(1 : Fin 2)]))]
    simp only [Nat.add_zero, Nat.zero_add]
    unfold GatherDims.offCoord
    rw [dif_pos ((GatherDims.mem_sKept _ _).mpr ⟨(by decide : (0 : Fin 2) ∉ [(1 : Fin 2)]), List.not_mem_nil⟩)]
    rfl
  | ⟨1, _⟩ =>
    show (colDims C N E wf).start (ix2 k e) idx 1 + (colDims C N E wf).batchCoord (ix2 k e) 1
      + (colDims C N E wf).offCoord (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims C N E wf).startIndexMap from List.mem_singleton.mpr rfl)]
    have hsi : (colDims C N E wf).siIdx (ix2 k e) ⟨List.idxOf (1 : Fin 2) (colDims C N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The wrapped index `i < 0 ? i + 100000 : i` as the programs spell it. -/
def wrap (i : BitVec 32) : BitVec 32 :=
  Scalar.select (IntOp.cmpi .slt i 0#32) (IntOp.addi i 100000#32) i

/-- The three constants read as signed integers. -/
private theorem toInt_zero32 : (0#32 : BitVec 32).toInt = 0 := by decide
private theorem toInt_n32 : (100000#32 : BitVec 32).toInt = 100000 := by decide
private theorem toInt_m32 : (99999#32 : BitVec 32).toInt = 99999 := by decide

/-- On a negative word the wrap adds `100000`. -/
private theorem wrap_of_neg (i : BitVec 32) (h : i.toInt < 0) : wrap i = i + 100000#32 := by
  have hs : i.slt 0#32 = true := by
    rw [BitVec.slt_iff_toInt_lt, toInt_zero32]; exact h
  show (if BitVec.ofBool (i.slt 0#32) = 1 then i + 100000#32 else i) = _
  rw [hs]; rfl

/-- On a non-negative word the wrap is the identity. -/
private theorem wrap_of_nonneg (i : BitVec 32) (h : 0 ≤ i.toInt) : wrap i = i := by
  have hs : i.slt 0#32 = false := by
    rw [BitVec.slt_eq_decide, toInt_zero32]; exact decide_eq_false (by omega)
  show (if BitVec.ofBool (i.slt 0#32) = 1 then i + 100000#32 else i) = _
  rw [hs]; rfl

/-- The wrapped word, read signed, lies in `[0, 99999]`. -/
private theorem wrap_toInt_range (i : BitVec 32) (h1 : -100000 ≤ i.toInt) (h2 : i.toInt < 100000) :
    0 ≤ (wrap i).toInt ∧ (wrap i).toInt ≤ 99999 := by
  by_cases hneg : i.toInt < 0
  · rw [wrap_of_neg i hneg, BitVec.toInt_add, toInt_n32,
      Int.bmod_eq_of_le_mul_two (by omega) (by omega)]
    omega
  · rw [wrap_of_nonneg i (by omega)]; omega

/-- Both range tests hold of a word whose signed reading lies in `[0, 99999]`. -/
private theorem range_tests (v : BitVec 32) (h : 0 ≤ v.toInt ∧ v.toInt ≤ 99999) :
    IntOp.cmpi .sge v 0#32 = 1#1 ∧ IntOp.cmpi .sle v 99999#32 = 1#1 := by
  constructor
  · show BitVec.ofBool ((0#32 : BitVec 32).sle v) = 1#1
    have : (0#32 : BitVec 32).sle v = true := by
      rw [BitVec.sle_iff_toInt_le, toInt_zero32]; exact h.1
    rw [this]; rfl
  · show BitVec.ofBool (v.sle 99999#32) = 1#1
    have : v.sle 99999#32 = true := by
      rw [BitVec.sle_iff_toInt_le, toInt_m32]; exact h.2
    rw [this]; rfl

/-- A word in `[-100000, 100000)` wraps into `[0, 100000)`: both range tests of the wrapped word hold. -/
theorem wrap_inb (i : BitVec 32) (h1 : -100000 ≤ i.toInt) (h2 : i.toInt < 100000) :
    IntOp.cmpi .sge (wrap i) 0#32 = 1#1 ∧ IntOp.cmpi .sle (wrap i) 99999#32 = 1#1 := by
  exact range_tests (wrap i) (wrap_toInt_range i h1 h2)

/-- A word that is a row number `n < 100000` is its own wrap, and in range. -/
theorem wrap_of_row (i : BitVec 32) (n : Nat) (hn : n < 100000) (h : i.toInt = (n : Int)) :
    wrap i = i ∧ IntOp.cmpi .sge (wrap i) 0#32 = 1#1 ∧ IntOp.cmpi .sle (wrap i) 99999#32 = 1#1 := by
  have hw : wrap i = i := wrap_of_nonneg i (by omega)
  refine ⟨hw, ?_⟩
  rw [hw]
  exact range_tests i (by omega)

end Idealize.ShloMosaic.RowGather

end
-- ==== Proof.LibScatterRows.lean ====
/-
  The host's accumulating scatter (a segment sum) read at an index, at the ideal instance.

  Operand `[N, C]`, scatter indices `[E, 1]` (one row number per update row), updates `[E, C]`:
  update row `e` is added, column by column, onto operand row `idx[e, 0]` read as a SIGNED integer,
  and is dropped when that number is not a row of the operand. So element `(n, j)` of the result is
  the operand's plus the sum, over the update rows `e` whose index is `n`, of `upd[e, j]`.
  The flat form (operand `[N]`, updates `[E]`) is the same with no column.
-/
import Idealize.ShloMosaic.PureOps.Ideal
import Idealize.ShloMosaic.Lib.ValueIdx
import Idealize.ShloMosaic.Lib.ValueIdxRank1

noncomputable section

namespace Idealize.ShloMosaic.SegSum

open Idealize.ShloMosaic Idealize.ShloMosaic.ValueIdx

/-- The dimension numbers of a row scatter: operand `[N, C]`, indices `[E, 1]`, updates `[E, C]`;
    the updates' axis 1 is the window, the operand's axis 0 is the scattered one. -/
abbrev rowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a flat scatter: operand `[N]`, indices `[E, 1]`, updates `[E]`. -/
abbrev flatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The update rows that land on operand row `n`: those whose index word, read signed, is `n`. -/
def rowsOf {N E w : Nat} (idx : IVec ⟨2, ![E, 1]⟩ w) (n : Fin N) : Finset (Fin E) :=
  Finset.univ.filter fun e => (idx (ix2 e (0 : Fin 1))).toInt = (n.val : Int)

/-- An update index lands on operand index `i` exactly when, on every axis, its start plus its
    window coordinate is `i`'s coordinate (being inside the operand is then automatic). -/
private theorem resultIdx?_eq_some_iff {s si u : Shape} (d : ScatterDims s si u) {w : Nat}
    (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      intro a
      have hv := congrArg (fun f => (f a).val) (Option.some.inj h)
      simp only at hv
      have := hb a
      omega
    · cases h
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    simp only
    omega

section Rows
variable {N E C w : Nat}
  (wf : ScatterDims.WF ⟨2, ![N, C]⟩ ⟨2, ![E, 1]⟩ ⟨2, ![E, C]⟩ [1] [0] [0] 1)

/-- On the scattered axis the start is the update row's index word, read signed. -/
private theorem rows_start0 (e : Fin E) (j' : Fin C) (idx : IVec ⟨2, ![E, 1]⟩ w) :
    (rowsDims N E C wf).start (ix2 e j') idx 0 = (idx (ix2 e (0 : Fin 1))).toInt := by
  unfold ScatterDims.start
  rw [dif_pos (show (0 : Fin 2) ∈ (rowsDims N E C wf).scatterDimsToOperandDims from List.mem_singleton.mpr rfl)]
  congr 2
  funext b; refine Fin.ext ?_
  match b with
  | ⟨0, _⟩ => rfl
  | ⟨1, _⟩ => rfl

/-- The column axis is not a scattered one: its start is `0`. -/
private theorem rows_start1 (u : (⟨2, ![E, C]⟩ : Shape).Idx) (idx : IVec ⟨2, ![E, 1]⟩ w) :
    (rowsDims N E C wf).start u idx 1 = 0 := by
  unfold ScatterDims.start
  rw [dif_neg (show (1 : Fin 2) ∉ [(0 : Fin 2)] by decide)]

/-- The scattered axis is an inserted one: its window coordinate is `0`. -/
private theorem rows_window0 (u : (⟨2, ![E, C]⟩ : Shape).Idx) :
    (rowsDims N E C wf).window u 0 = 0 := by
  have h : (0 : Fin 2) ∉ (rowsDims N E C wf).sKept := by
    show (0 : Fin 2) ∉ (List.finRange 2).filter (· ∉ [(0 : Fin 2)])
    decide
  unfold ScatterDims.window
  exact dif_neg h

/-- On the column axis the window coordinate is the update's column. -/
private theorem rows_window1 (e : Fin E) (j' : Fin C) :
    (rowsDims N E C wf).window (ix2 e j') 1 = j'.val := by
  have h : (1 : Fin 2) ∈ (rowsDims N E C wf).sKept := by
    show (1 : Fin 2) ∈ (List.finRange 2).filter (· ∉ [(0 : Fin 2)])
    decide
  unfold ScatterDims.window
  rw [dif_pos h]
  rfl

/-- Update element `(e, j')` lands on operand element `(n, j)` exactly when row `e`'s index word,
    read signed, is `n` and the columns agree. -/
private theorem rows_resultIdx_iff (e : Fin E) (j' : Fin C) (idx : IVec ⟨2, ![E, 1]⟩ w)
    (n : Fin N) (j : Fin C) :
    (rowsDims N E C wf).resultIdx? (ix2 e j') idx = some (ix2 n j) ↔
      (idx (ix2 e (0 : Fin 1))).toInt = (n.val : Int) ∧ j' = j := by
  rw [resultIdx?_eq_some_iff]
  constructor
  · intro h
    have h0 : (rowsDims N E C wf).start (ix2 e j') idx 0
        + ((rowsDims N E C wf).window (ix2 e j') 0 : Int) = (n.val : Int) := h 0
    have h1 : (rowsDims N E C wf).start (ix2 e j') idx 1
        + ((rowsDims N E C wf).window (ix2 e j') 1 : Int) = (j.val : Int) := h 1
    rw [rows_start0, rows_window0] at h0
    rw [rows_start1, rows_window1] at h1
    exact ⟨by omega, Fin.ext (by omega)⟩
  · rintro ⟨hn, rfl⟩ a
    match a with
    | ⟨0, _⟩ =>
      show (rowsDims N E C wf).start (ix2 e j') idx 0 + ((rowsDims N E C wf).window (ix2 e j') 0 : Int) = (n.val : Int)
      rw [rows_start0, rows_window0, hn]; simp
    | ⟨1, _⟩ =>
      show (rowsDims N E C wf).start (ix2 e j') idx 1 + ((rowsDims N E C wf).window (ix2 e j') 1 : Int) = (j'.val : Int)
      rw [rows_start1, rows_window1]; simp

end Rows

/-- THE ROW SCATTER READ AT `(n, j)`. -/
theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowsDims N E C wf) x idx upd (ix2 n j)
      = x (ix2 n j) + ∑ e ∈ rowsOf idx n, upd (ix2 e j) := by
  unfold Ideal.hostScatterAdd rowsOf
  congr 1
  rw [Finset.sum_filter, Finset.sum_filter, sum_idx2]
  refine Finset.sum_congr rfl fun e _ => ?_
  simp only [rows_resultIdx_iff]
  by_cases h : (idx (ix2 e (0 : Fin 1))).toInt = (n.val : Int)
  · simp [h]
  · simp [h]

section Flat
variable {N E w : Nat}
  (wf : ScatterDims.WF ⟨1, ![N]⟩ ⟨2, ![E, 1]⟩ ⟨1, ![E]⟩ [] [0] [0] 1)

/-- On the one (scattered) axis the start is the update's index word, read signed. -/
private theorem flat_start0 (e : Fin E) (idx : IVec ⟨2, ![E, 1]⟩ w) :
    (flatDims N E wf).start (ix1 e) idx 0 = (idx (ix2 e (0 : Fin 1))).toInt := by
  unfold ScatterDims.start
  rw [dif_pos (show (0 : Fin 1) ∈ (flatDims N E wf).scatterDimsToOperandDims from List.mem_singleton.mpr rfl)]
  congr 2
  funext b; refine Fin.ext ?_
  match b with
  | ⟨0, _⟩ => rfl
  | ⟨1, _⟩ => rfl

/-- The one axis is an inserted one: its window coordinate is `0`. -/
private theorem flat_window0 (u : (⟨1, ![E]⟩ : Shape).Idx) :
    (flatDims N E wf).window u 0 = 0 := by
  have h : (0 : Fin 1) ∉ (flatDims N E wf).sKept := by
    show (0 : Fin 1) ∉ (List.finRange 1).filter (· ∉ [(0 : Fin 1)])
    decide
  unfold ScatterDims.window
  exact dif_neg h

/-- Update element `e` lands on operand element `n` exactly when its index word, read signed, is `n`. -/
private theorem flat_resultIdx_iff (e : Fin E) (idx : IVec ⟨2, ![E, 1]⟩ w) (n : Fin N) :
    (flatDims N E wf).resultIdx? (ix1 e) idx = some (ix1 n) ↔
      (idx (ix2 e (0 : Fin 1))).toInt = (n.val : Int) := by
  rw [resultIdx?_eq_some_iff]
  constructor
  · intro h
    have h0 : (flatDims N E wf).start (ix1 e) idx 0
        + ((flatDims N E wf).window (ix1 e) 0 : Int) = (n.val : Int) := h 0
    rw [flat_start0, flat_window0] at h0
    omega
  · intro hn a
    match a with
    | ⟨0, _⟩ =>
      show (flatDims N E wf).start (ix1 e) idx 0 + ((flatDims N E wf).window (ix1 e) 0 : Int) = (n.val : Int)
      rw [flat_start0, flat_window0, hn]; simp

end Flat

/-- THE FLAT SCATTER READ AT `n`. -/
theorem hostScatterAdd_flat_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (flatDims N E wf) x idx upd (ix1 n)
      = x (ix1 n) + ∑ e ∈ rowsOf idx n, upd (ix1 e) := by
  unfold Ideal.hostScatterAdd rowsOf
  congr 1
  rw [Finset.sum_filter, Finset.sum_filter, ← Equiv.sum_comp (idxEquiv1 (n := E)).symm]
  refine Finset.sum_congr rfl fun e _ => ?_
  show (if (flatDims N E wf).resultIdx? (ix1 e) idx = some (ix1 n) then upd (ix1 e) else 0) = _
  simp only [flat_resultIdx_iff]

end Idealize.ShloMosaic.SegSum

end
-- ==== Proof.Inst.lean ====
/-
  The abstract index data of the specification, read off the programs' integer arrays.

  An edge column is a [1700000, 1] array of 32-bit words, one per edge. Read SIGNED, a word of the raw landing column
  says which node the edge lands on (a word that is no node number lands nowhere); a word of a wrapped column
  (negative words moved up by 100000) is clamped into [0, 99999] to give the row a lookup reads. A node's graph
  number is its word of the [100000] graph array, read signed; the one-hot mark compares the word itself with the
  graph's number as a word, which is the same test for the 64 graph numbers.
-/
import proofs.«410454_j88278757802580_2_alg».proof.Proof.Spec
import proofs.«410454_j88278757802580_2_alg».proof.Proof.LibGatherRows
import proofs.«410454_j88278757802580_2_alg».proof.Proof.LibScatterRows

noncomputable section

namespace Cert.Inst

open Idealize.ShloMosaic Idealize.ShloMosaic.ValueIdx

/-- One 32-bit word per edge, as a column. -/
abbrev EdgeCol : Type := IVec ⟨2, ![1700000, 1]⟩ 32
/-- One 32-bit word per node. -/
abbrev NodeWords : Type := IVec ⟨1, ![100000]⟩ 32

/-- The edges landing on node `n`: those whose raw landing word, read signed, is `n`. -/
def R (dstb : EdgeCol) (n : Fin 100000) : Finset (Fin 1700000) := SegSum.rowsOf dstb n

/-- The row a lookup by edge `e`'s word reads: the word read signed, clamped into [0, 99999]. -/
def row (idx : EdgeCol) (e : Fin 1700000) : Fin 100000 :=
  RowGather.clampRow 100000 (by decide) (idx (ix2 e (0 : Fin 1)))

/-- The members of graph `g`: the nodes whose graph word, read signed, is `g`. -/
def B (bt : NodeWords) (g : Fin 64) : Finset (Fin 100000) :=
  Finset.univ.filter fun n => (bt (ix1 n)).toInt = (g.val : Int)

/-- The one-hot mark of "node `n` is in graph `g`": the node's graph word against `g` as a word. -/
def oh (bt : NodeWords) (n : Fin 100000) (g : Fin 64) : EReal :=
  if bt (ix1 n) = BitVec.ofNat 32 g.val then 1 else 0

/-- The programs' float arrays as the specification's functions of coordinates. -/
def tab (x : (⟨2, ![100000, 64]⟩ : Shape).Idx → EReal) : Spec.Tab := fun n j => x (ix2 n j)
def mat (W : (⟨2, ![64, 64]⟩ : Shape).Idx → EReal) : Fin 64 → Fin 64 → EReal := fun k j => W (ix2 k j)
def vec (b : (⟨1, ![64]⟩ : Shape).Idx → EReal) : Fin 64 → EReal := fun j => b (ix1 j)
def mat2 (W : (⟨2, ![64, 2]⟩ : Shape).Idx → EReal) : Fin 64 → Fin 2 → EReal := fun k q => W (ix2 k q)
def vec2 (b : (⟨1, ![2]⟩ : Shape).Idx → EReal) : Fin 2 → EReal := fun q => b (ix1 q)

/-- An edge that lands on node `n` looks the landing scale up at `n`: its raw word is the number `n` < 100000, which
    the wrap leaves alone and the clamp leaves alone. -/
theorem row_of_landing (dstb dstw : EdgeCol)
    (hw : ∀ e : Fin 1700000, dstw (ix2 e (0 : Fin 1)) = RowGather.wrap (dstb (ix2 e (0 : Fin 1))))
    (n : Fin 100000) (e : Fin 1700000) (he : e ∈ R dstb n) : row dstw e = n := by
  -- membership in the landing set says the raw word, read signed, is the number n
  have hmem : (dstb (ix2 e (0 : Fin 1))).toInt = (n.val : Int) := by
    have h := he
    unfold R SegSum.rowsOf at h
    exact (Finset.mem_filter.mp h).2
  -- a word that is a node number is its own wrap
  have hwrap : RowGather.wrap (dstb (ix2 e (0 : Fin 1))) = dstb (ix2 e (0 : Fin 1)) :=
    (RowGather.wrap_of_row (dstb (ix2 e (0 : Fin 1))) n.val n.isLt hmem).1
  -- and the clamp of n < 100000 into [0, 99999] is n
  refine Fin.ext ?_
  show min (dstw (ix2 e (0 : Fin 1))).toInt.toNat (100000 - 1) = n.val
  rw [hw e, hwrap, hmem]
  have hn := n.isLt
  omega

/-- The number g < 64 as a 32-bit word reads, signed, as g: it is far below 2³¹. -/
private theorem toInt_ofNat_small (g : Fin 64) : (BitVec.ofNat 32 g.val).toInt = (g.val : Int) := by
  have hg := g.isLt
  rw [BitVec.toInt_ofNat', Int.bmod_eq_of_le_mul_two (by omega) (by omega)]

/-- A 32-bit word is the word of g < 64 exactly when its signed reading is g: the signed reading is one-to-one. -/
private theorem word_eq_iff (w : BitVec 32) (g : Fin 64) :
    w = BitVec.ofNat 32 g.val ↔ w.toInt = (g.val : Int) := by
  constructor
  · intro h
    rw [h, toInt_ofNat_small]
  · intro h
    exact BitVec.eq_of_toInt_eq (h.trans (toInt_ofNat_small g).symm)

/-- Comparing the graph word with `g` as a word is comparing its signed reading with the number `g` (< 64). -/
theorem oh_eq (bt : NodeWords) (n : Fin 100000) (g : Fin 64) :
    oh bt n g = if n ∈ B bt g then 1 else 0 := by
  unfold oh B
  by_cases h : bt (ix1 n) = BitVec.ofNat 32 g.val
  · have hin : n ∈ Finset.univ.filter (fun n => (bt (ix1 n)).toInt = (g.val : Int)) :=
      Finset.mem_filter.mpr ⟨Finset.mem_univ n, (word_eq_iff _ g).mp h⟩
    rw [if_pos h, if_pos hin]
  · have hnot : n ∉ Finset.univ.filter (fun n => (bt (ix1 n)).toInt = (g.val : Int)) :=
      fun hm => h ((word_eq_iff _ g).mpr (Finset.mem_filter.mp hm).2)
    rw [if_neg h, if_neg hnot]

end Cert.Inst

end
-- ==== Proof.Bridge.lean ====
/-
  The algebra that joins the two programs' forms of the same network.

  (1) A node's scale 1/√max(deg, 1) is a positive real: the degree is a count, so max(deg, 1) is a real ≥ 1.
  (2) Multiplying a sum of extended reals by a NON-NEGATIVE REAL distributes over the sum (on the extended reals
      distributivity fails only at infinite or negative-times-mixed-infinity factors), so the landing node's scale may
      stand outside the sum over its edges or inside every term: `layerNode = layerEdge` whenever every edge
      landing on `n` looks the landing scale up at `n`.
  (3) A sum over ALL nodes of (one-hot mark) × (feature) is the sum of the features over the members, because
      0 · x = 0 and 1 · x = x for every extended real x; the same for the counts.
-/
import proofs.«410454_j88278757802580_2_alg».proof.Proof.Spec
import Mathlib.Data.EReal.Operations
import Mathlib.Algebra.BigOperators.Group.Finset.Basic

noncomputable section

namespace Cert.Bridge

open Idealize.ShloMosaic Cert.Spec

/-- A sum of ones over a finite set is its number of elements, as a real. -/
private theorem sum_ones {ι : Type} (S : Finset ι) :
    (∑ _e ∈ S, (1 : EReal)) = (((S.card : ℕ) : ℝ) : EReal) := by
  classical
  induction S using Finset.induction_on with
  | empty => simp
  | insert a S ha ih =>
    rw [Finset.sum_insert ha, ih, Finset.card_insert_of_notMem ha, Nat.cast_succ, EReal.coe_add,
      EReal.coe_one, add_comm]

/-- The larger of two reals, taken on the extended reals, is the larger real. -/
private theorem coe_max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- A node's scale is a non-negative real. -/
theorem scale_real (R : Fin 100000 → Finset (Fin 1700000)) (n : Fin 100000) :
    ∃ r : ℝ, 0 ≤ r ∧ scale R n = ((r : ℝ) : EReal) := by
  -- the degree is a count, so max(deg, 1) is the real m = max(count, 1) ≥ 1
  have hm : (1 : ℝ) ≤ max (((R n).card : ℕ) : ℝ) 1 := le_max_right _ _
  have hpos : (0 : ℝ) < max (((R n).card : ℕ) : ℝ) 1 := lt_of_lt_of_le one_pos hm
  refine ⟨(Real.sqrt (max (((R n).card : ℕ) : ℝ) 1))⁻¹, inv_nonneg.mpr (Real.sqrt_nonneg _), ?_⟩
  unfold scale deg
  rw [zero_add, sum_ones, ← EReal.coe_one, coe_max_coe, Ideal.rsqrt_coe, if_neg (not_lt.mpr hpos.le),
    if_neg hpos.ne']

/-- A non-negative real factor distributes over a finite sum of extended reals. -/
theorem coe_mul_sum {ι : Type} (r : ℝ) (hr : 0 ≤ r) (S : Finset ι) (f : ι → EReal) :
    ((r : ℝ) : EReal) * ∑ e ∈ S, f e = ∑ e ∈ S, ((r : ℝ) : EReal) * f e := by
  classical
  induction S using Finset.induction_on with
  | empty => rw [Finset.sum_empty, Finset.sum_empty, mul_zero]
  | insert a S ha ih =>
    rw [Finset.sum_insert ha, Finset.sum_insert ha,
      EReal.left_distrib_of_nonneg_of_ne_top (EReal.coe_nonneg.mpr hr) (EReal.coe_ne_top r), ih]

/-- The two forms of a layer agree when every edge landing on a node looks the landing scale up at that node. -/
theorem layerNode_eq_layerEdge (R : Fin 100000 → Finset (Fin 1700000)) (s d : Fin 1700000 → Fin 100000)
    (hd : ∀ n, ∀ e ∈ R n, d e = n) (T : Tab) (W : Fin 64 → Fin 64 → EReal) (b : Fin 64 → EReal) :
    layerNode R s T W b = layerEdge R s d T W b := by
  funext n j
  obtain ⟨r, hr, hrn⟩ := scale_real R n
  -- the landing scale c(n) = r moves inside the sum over the landing edges, where d e = n
  have inner : scale R n * (0 + ∑ e ∈ R n, mm T W (s e) j * scale R (s e))
      = 0 + ∑ e ∈ R n, mm T W (s e) j * (scale R (s e) * scale R (d e)) := by
    rw [zero_add, zero_add, hrn, coe_mul_sum r hr]
    refine Finset.sum_congr rfl ?_
    intro e he
    rw [hd n e he, hrn, mul_comm, mul_assoc]
  unfold layerNode layerEdge
  rw [inner]

/-- One-hot sums over all nodes are sums over the members. -/
theorem poolOneHot_eq_poolMembers (oh : Fin 100000 → Fin 64 → EReal) (B : Fin 64 → Finset (Fin 100000))
    (hoh : ∀ n g, oh n g = if n ∈ B g then 1 else 0) (h : Tab) :
    poolOneHot oh h = poolMembers B h := by
  funext g j
  unfold poolOneHot poolMembers
  -- a non-member's term is 0 · x = 0, a member's is 1 · x = x
  have term : ∀ n : Fin 100000, oh n g * h n j = if n ∈ B g then h n j else 0 := by
    intro n
    rw [hoh n g]
    by_cases hn : n ∈ B g
    · rw [if_pos hn, if_pos hn, one_mul]
    · rw [if_neg hn, if_neg hn, zero_mul]
  rw [Finset.sum_congr rfl (fun n _ => term n), Finset.sum_ite_mem, Finset.univ_inter]

/-- One-hot counts are member counts, in every column. -/
theorem countOneHot_eq_countMembers (oh : Fin 100000 → Fin 64 → EReal) (B : Fin 64 → Finset (Fin 100000))
    (hoh : ∀ n g, oh n g = if n ∈ B g then 1 else 0) (g j : Fin 64) :
    countOneHot oh g j = countMembers B g := by
  unfold countOneHot countMembers
  -- a non-member contributes 0 · 1 = 0, a member 1 · 1 = 1
  have term : ∀ n : Fin 100000, oh n g * 1 = if n ∈ B g then (1 : EReal) else 0 := by
    intro n
    rw [hoh n g, mul_one]
  rw [Finset.sum_congr rfl (fun n _ => term n), Finset.sum_ite_mem, Finset.univ_inter]

end Cert.Bridge

end
-- ==== Proof.Net.lean ====
/-
  The two programs' whole networks over the same index columns, and their agreement.

  `kerOut` scales per node (before and after each sum over the landing edges) and pools by one-hot products over all
  nodes; `refOut` scales per edge and pools over each graph's members. They agree as soon as the wrapped landing
  column is the wrap of the raw landing column, word by word: then every edge landing on a node looks that node's
  scale up at the node itself, so the two layer forms agree (twice: the second layer's input is the first's output),
  and the one-hot sums are the member sums.
-/
import proofs.«410454_j88278757802580_2_alg».proof.Proof.Inst
import proofs.«410454_j88278757802580_2_alg».proof.Proof.Bridge

noncomputable section

namespace Cert.Net

open Idealize.ShloMosaic Idealize.ShloMosaic.ValueIdx Cert.Spec Cert.Inst

variable (x0 : (⟨2, ![100000, 64]⟩ : Shape).Idx → EReal) (dstb srcw dstw : EdgeCol) (bt : NodeWords)
  (W1 : (⟨2, ![64, 64]⟩ : Shape).Idx → EReal) (b1 : (⟨1, ![64]⟩ : Shape).Idx → EReal)
  (W2 : (⟨2, ![64, 64]⟩ : Shape).Idx → EReal) (b2 : (⟨1, ![64]⟩ : Shape).Idx → EReal)
  (Wfc : (⟨2, ![64, 2]⟩ : Shape).Idx → EReal) (bfc : (⟨1, ![2]⟩ : Shape).Idx → EReal)

/-- The first layer's output, scaled per node. -/
def kerH1 : Tab := layerNode (R dstb) (row srcw) (tab x0) (mat W1) (vec b1)
/-- The second layer's output, scaled per node. -/
def kerH2 : Tab := layerNode (R dstb) (row srcw) (kerH1 x0 dstb srcw W1 b1) (mat W2) (vec b2)
/-- The first layer's output, scaled per edge. -/
def refH1 : Tab := layerEdge (R dstb) (row srcw) (row dstw) (tab x0) (mat W1) (vec b1)
/-- The second layer's output, scaled per edge. -/
def refH2 : Tab := layerEdge (R dstb) (row srcw) (row dstw) (refH1 x0 dstb srcw dstw W1 b1) (mat W2) (vec b2)

/-- The per-node, one-hot form of the whole network. -/
def kerOut (g : Fin 64) (q : Fin 2) : EReal :=
  logSoftmax (poolOneHot (oh bt) (kerH2 x0 dstb srcw W1 b1 W2 b2)) (countOneHot (oh bt)) (mat2 Wfc) (vec2 bfc) g q

/-- The per-edge, member-sum form of the whole network. -/
def refOut (g : Fin 64) (q : Fin 2) : EReal :=
  logSoftmax (poolMembers (B bt) (refH2 x0 dstb srcw dstw W1 b1 W2 b2)) (fun g _ => countMembers (B bt) g) (mat2 Wfc) (vec2 bfc) g q

/-- The two forms of the network agree. -/
theorem kerOut_eq_refOut
    (hw : ∀ e : Fin 1700000, dstw (ix2 e (0 : Fin 1)) = RowGather.wrap (dstb (ix2 e (0 : Fin 1))))
    (g : Fin 64) (q : Fin 2) :
    kerOut x0 dstb srcw bt W1 b1 W2 b2 Wfc bfc g q = refOut x0 dstb srcw dstw bt W1 b1 W2 b2 Wfc bfc g q := by
  -- every edge landing on a node looks the landing scale up at that node
  have hd : ∀ n, ∀ e ∈ R dstb n, row dstw e = n :=
    fun n e he => Inst.row_of_landing dstb dstw hw n e he
  -- the first layers agree
  have h1 : kerH1 x0 dstb srcw W1 b1 = refH1 x0 dstb srcw dstw W1 b1 := by
    unfold kerH1 refH1
    exact Bridge.layerNode_eq_layerEdge (R dstb) (row srcw) (row dstw) hd (tab x0) (mat W1) (vec b1)
  -- so the second layers read the same input, and agree
  have h2 : kerH2 x0 dstb srcw W1 b1 W2 b2 = refH2 x0 dstb srcw dstw W1 b1 W2 b2 := by
    unfold kerH2 refH2
    rw [h1]
    exact Bridge.layerNode_eq_layerEdge (R dstb) (row srcw) (row dstw) hd
      (refH1 x0 dstb srcw dstw W1 b1) (mat W2) (vec b2)
  -- the one-hot sums over all nodes are the sums over each graph's members
  have hp : poolOneHot (oh bt) (kerH2 x0 dstb srcw W1 b1 W2 b2)
      = poolMembers (B bt) (refH2 x0 dstb srcw dstw W1 b1 W2 b2) := by
    rw [h2]
    exact Bridge.poolOneHot_eq_poolMembers (oh bt) (B bt) (Inst.oh_eq bt)
      (refH2 x0 dstb srcw dstw W1 b1 W2 b2)
  -- and the one-hot counts are the member counts, in every column
  have hc : countOneHot (oh bt) = fun g _ => countMembers (B bt) g := by
    funext g' j
    exact Bridge.countOneHot_eq_countMembers (oh bt) (B bt) (Inst.oh_eq bt) g' j
  unfold kerOut refOut
  rw [hp, hc]

end Cert.Net

end
-- ==== Proof.KI.Host.lean ====
/-
  What the three host stretches of the idealized kernel program leave in the buffers the three launches find, each
  read at an index.

  The first stretch builds, from the edge array, the source words and the landing words of the 1700000 edges (the
  given edges and one loop per node), counts every node's degree by adding ones along the landing column, and keeps
  1/√max(degree, 1) as a column: the scale. The second stretch wraps the source words, looks the first launch's rows
  up along them, and adds the rows found into the landing nodes, from zero; it also lays the first bias out as a row.
  The third stretch does the same with the second launch's rows, and lays out the second bias, the graph words (as a
  column) and the head's bias. The landing column, the wrapped source column and the scale are the same operations on
  the same edge array as the reference's stages 10, 20 and 14, so every statement here is over those stages.
  Every other buffer a launch finds was written by no operation since the launch memory, or since an earlier stretch.
-/
import proofs.«410454_j88278757802580_2_alg».proof.Proof.Gen.KernelIdeal.Launch
import proofs.«410454_j88278757802580_2_alg».proof.Proof.Gen.KernelIdeal.Skeleton
import proofs.«410454_j88278757802580_2_alg».proof.Proof.Gen.KernelIdeal.Points
import proofs.«410454_j88278757802580_2_alg».proof.Proof.Gen.KernelIdeal.Regions
import proofs.«410454_j88278757802580_2_alg».proof.Proof.KI.Run
import proofs.«410454_j88278757802580_2_alg».proof.Proof.RefRead
import proofs.«410454_j88278757802580_2_alg».proof.Proof.Net
import proofs.«410454_j88278757802580_2_alg».proof.Proof.LibGatherRows
import proofs.«410454_j88278757802580_2_alg».proof.Proof.LibScatterRows
import proofs.«410454_j88278757802580_2_alg».proof.Proof.LibKeepdimsColumn
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.ValueIdx
open Idealize.ShloMosaic.StableHlo
open Cert.KernelIdeal.Hand.Run

/-! ## The host operations read at an entry

Stated over variables of the literal array types; the buffers' contents are put in afterwards. -/

section PerPoint

/-- A splat of the zero word holds zero everywhere. -/
theorem zeros_apply {T : Shape} (h : S_.BroadcastsInDim T ![]) (i : T.Idx) :
    broadcastInDim T ![] h (constant (F := Ideal) S_ .f32 0x00000000#32) i = (0 : EReal) := by
  rw [broadcastInDim_scalar_apply]
  exact Ideal.ofBits_zero_f32

/-- The reference's flat scatter with addition at node `n`: the operand's entry plus the sum, over the update rows
    whose index word reads `n`, of the updates. -/
theorem ref_flat_scatter_apply (z : S100000.Idx → EReal) (idx : IVec S1700000x1 32) (u : S1700000.Idx → EReal)
    (n : Fin 100000) :
    Host.scatterAdd (F := Ideal) (φ := .f32) Cert.ReferenceIdeal.scatter_S100000_S1700000x1_S1700000_n_0_0_1 z idx u (ix1 n)
      = z (ix1 n) + ∑ e ∈ SegSum.rowsOf idx n, u (ix1 e) :=
  SegSum.hostScatterAdd_flat_apply Cert.ReferenceIdeal.scatter_S100000_S1700000x1_S1700000_n_0_0_1.wf z idx u n

/-- The row scatter with addition at (n, j): the operand's entry plus the sum, over the update rows whose index
    word reads `n`, of the updates' column `j`. -/
theorem rows_scatter_apply (z : S100000x64.Idx → EReal) (idx : IVec S1700000x1 32) (u : S1700000x64.Idx → EReal)
    (n : Fin 100000) (j : Fin 64) :
    Host.scatterAdd (F := Ideal) (φ := .f32) scatter_S100000x64_S1700000x1_S1700000x64_1_0_0_1 z idx u (ix2 n j)
      = z (ix2 n j) + ∑ e ∈ SegSum.rowsOf idx n, u (ix2 e j) :=
  SegSum.hostScatterAdd_rows_apply scatter_S100000x64_S1700000x1_S1700000x64_1_0_0_1.wf z idx u n j

/-- The row lookup at (e, k): the table's row named by edge `e`'s word (read signed, clamped), column `k`. -/
theorem rows_gather_apply (T : S100000x64.Idx → EReal) (idx : IVec S1700000x1 32) (e : Fin 1700000) (k : Fin 64) :
    Host.gather gather_S100000x64_S1700000x1_S1700000x64_1_0_n_n_0_1_164 T idx (ix2 e k)
      = T (ix2 (Cert.Inst.row idx e) k) :=
  RowGather.gather_rows_apply (by decide) gather_S100000x64_S1700000x1_S1700000x64_1_0_n_n_0_1_164.wf T idx e k

/-- The reference's degree stage at node `n`: from zero, one for every edge landing on `n`. -/
theorem deg_apply (x1 : S2x1600000.Idx → BitVec 32) (n : Fin 100000) :
    Cert.ReferenceIdeal.Read.val_main_v11 (F := Ideal) x1 (ix1 n)
      = Cert.Spec.deg (Cert.Inst.R (Cert.ReferenceIdeal.Read.val_main_v10 (F := Ideal) x1)) n := by
  have h9 : Cert.ReferenceIdeal.Read.val_main_v9 (F := Ideal) (ix1 n) = (0 : EReal) := by
    rw [Cert.ReferenceIdeal.Read.val_main_v9_apply, Cert.ReferenceIdeal.Read.val_main_cst_0_apply]
    exact Ideal.ofBits_zero_f32
  have h8 : ∀ e : Fin 1700000, Cert.ReferenceIdeal.Read.val_main_v8 (F := Ideal) (ix1 e) = (1 : EReal) := fun e => by
    rw [Cert.ReferenceIdeal.Read.val_main_v8_apply, Cert.ReferenceIdeal.Read.val_main_cst_apply]
    exact Ideal.ofBits_one_f32
  unfold Cert.ReferenceIdeal.Read.val_main_v11
  refine (ref_flat_scatter_apply _ _ _ n).trans ?_
  show _ = 0 + ∑ _e ∈ SegSum.rowsOf (Cert.ReferenceIdeal.Read.val_main_v10 (F := Ideal) x1) n, (1 : EReal)
  rw [h9]
  exact congrArg _ (Finset.sum_congr rfl fun e _ => h8 e)

/-- The reference's scale stage at node `n` is the specification's scale over the landing sets. -/
theorem scale_apply (x1 : S2x1600000.Idx → BitVec 32) (n : Fin 100000) :
    Cert.ReferenceIdeal.Read.val_main_v14 (F := Ideal) x1 (ix1 n)
      = Cert.Spec.scale (Cert.Inst.R (Cert.ReferenceIdeal.Read.val_main_v10 (F := Ideal) x1)) n := by
  have h12 : Cert.ReferenceIdeal.Read.val_main_v12 (F := Ideal) (ix1 n) = (1 : EReal) := by
    rw [Cert.ReferenceIdeal.Read.val_main_v12_apply, Cert.ReferenceIdeal.Read.val_main_cst_1_apply]
    exact Ideal.ofBits_one_f32
  rw [Cert.ReferenceIdeal.Read.val_main_v14_apply, Cert.ReferenceIdeal.Read.val_main_v13_apply, deg_apply, h12,
    Ideal.hostUnary_rsqrt_def, Ideal.maximumf_def]
  rfl

/-- Rows looked up along a source column and added into the landing nodes, from zero. -/
def aggOf (dcol scol : Cert.Inst.EdgeCol) (T : S100000x64.Idx → EReal) : S100000x64.Idx → EReal :=
  Host.scatterAdd (F := Ideal) (φ := .f32) scatter_S100000x64_S1700000x1_S1700000x64_1_0_0_1
    (broadcastInDim S100000x64 ![] bcast_S_S100000x64 (constant (F := Ideal) S_ .f32 0x00000000#32)) dcol
    (Host.gather gather_S100000x64_S1700000x1_S1700000x64_1_0_n_n_0_1_164 T scol)

/-- At (n, j): zero plus the sum, over the edges landing on `n`, of the table's row at the edge's source, column `j`. -/
theorem aggOf_apply (dcol scol : Cert.Inst.EdgeCol) (T : S100000x64.Idx → EReal) (n : Fin 100000) (j : Fin 64) :
    aggOf dcol scol T (ix2 n j) = 0 + ∑ e ∈ Cert.Inst.R dcol n, T (ix2 (Cert.Inst.row scol e) j) := by
  unfold aggOf
  refine (rows_scatter_apply _ _ _ n j).trans ?_
  rw [zeros_apply]
  exact congrArg _ (Finset.sum_congr rfl fun e _ => rows_gather_apply T scol e j)

end PerPoint

variable (m : (ℓ : Loc nD τ sig) → Buf (Elt Ideal) ℓ) (c : Dev nD)

/-! ## The launch memory's arrays, each at its literal type -/

/-- The node features. -/
abbrev h_x : S100000x64.Idx → EReal := m ((c.tc : Thread nD τ).loc main_arg0)
/-- The edge array: row 0 the source words, row 1 the landing words. -/
abbrev h_ei : S2x1600000.Idx → BitVec 32 := m ((c.tc : Thread nD τ).loc main_arg1)
/-- The nodes' graph words. -/
abbrev h_bt : S100000.Idx → BitVec 32 := m ((c.tc : Thread nD τ).loc main_arg2)
/-- The first layer's weights and bias. -/
abbrev h_W1 : S64x64.Idx → EReal := m ((c.tc : Thread nD τ).loc main_arg3)
abbrev h_b1 : S64.Idx → EReal := m ((c.tc : Thread nD τ).loc main_arg4)
/-- The second layer's weights and bias. -/
abbrev h_W2 : S64x64.Idx → EReal := m ((c.tc : Thread nD τ).loc main_arg5)
abbrev h_b2 : S64.Idx → EReal := m ((c.tc : Thread nD τ).loc main_arg6)
/-- The head's weights and bias. -/
abbrev h_Wfc : S64x2.Idx → EReal := m ((c.tc : Thread nD τ).loc main_arg7)
abbrev h_bfc : S2.Idx → EReal := m ((c.tc : Thread nD τ).loc main_arg8)

/-- The landing column: per edge, the word of the node it lands on (the reference's stage 10 of the edge array). -/
abbrev dstb : Cert.Inst.EdgeCol := Cert.ReferenceIdeal.Read.val_main_v10 (F := Ideal) (h_ei m c)
/-- The wrapped source column: per edge, the word of the node it leaves from, negative words moved up by 100000 (the
    reference's stage 20). -/
abbrev srcw : Cert.Inst.EdgeCol := Cert.ReferenceIdeal.Read.val_main_v20 (F := Ideal) (h_ei m c)

/-! ## The buffers the launches find and leave, each at its literal type

The number after `w` is the boundary: 1, 3, 5 the entries of the three launches, 2, 4 the exits of the first two. -/

abbrev w1_arg0 : S100000x64.Idx → EReal := W1 m c (Proc.devRef .tc main_arg0)
abbrev w1_arg3 : S64x64.Idx → EReal := W1 m c (Proc.devRef .tc main_arg3)
abbrev w1_v14 : S100000x1.Idx → EReal := W1 m c (Proc.devRef .tc main_v14)
abbrev w2_v15 : S100000x64.Idx → EReal := W2 m c (Proc.devRef .tc main_v15)
abbrev w3_v14 : S100000x1.Idx → EReal := W3 m c (Proc.devRef .tc main_v14)
abbrev w3_v25 : S100000x64.Idx → EReal := W3 m c (Proc.devRef .tc main_v25)
abbrev w3_v26 : S1x64.Idx → EReal := W3 m c (Proc.devRef .tc main_v26)
abbrev w3_arg5 : S64x64.Idx → EReal := W3 m c (Proc.devRef .tc main_arg5)
abbrev w4_v27 : S100000x64.Idx → EReal := W4 m c (Proc.devRef .tc main_v27)
abbrev w5_v14 : S100000x1.Idx → EReal := W5 m c (Proc.devRef .tc main_v14)
abbrev w5_v37 : S100000x64.Idx → EReal := W5 m c (Proc.devRef .tc main_v37)
abbrev w5_v38 : S1x64.Idx → EReal := W5 m c (Proc.devRef .tc main_v38)
abbrev w5_v39 : S100000x1.Idx → BitVec 32 := W5 m c (Proc.devRef .tc main_v39)
abbrev w5_arg7 : S64x2.Idx → EReal := W5 m c (Proc.devRef .tc main_arg7)
abbrev w5_v40 : S1x2.Idx → EReal := W5 m c (Proc.devRef .tc main_v40)

/-! ## The first stretch: the edge words and the scale column -/

/-- No operation writes the features or the first weights before the first launch. -/
theorem W1_arg0 : w1_arg0 m c = h_x m c := W1_of m c main_arg0 (by decide)
theorem W1_arg3 : w1_arg3 m c = h_W1 m c := W1_of m c main_arg3 (by decide)

/-- The source words: row 0 of the edge array followed by the node numbers (the reference's stage 3). -/
theorem W1_v3 : (W1 m c (Proc.devRef .tc main_v3) : S1700000.Idx → BitVec 32)
    = Cert.ReferenceIdeal.Read.val_main_v3 (F := Ideal) (h_ei m c) := by
  show StableHlo.after hostOps0 (W0 m c) (Proc.devRef .tc main_v3) = _
  after_results
  rfl

/-- The landing words: row 1 of the edge array followed by the node numbers (the reference's stage 6). -/
theorem W1_v6 : (W1 m c (Proc.devRef .tc main_v6) : S1700000.Idx → BitVec 32)
    = Cert.ReferenceIdeal.Read.val_main_v6 (F := Ideal) (h_ei m c) := by
  show StableHlo.after hostOps0 (W0 m c) (Proc.devRef .tc main_v6) = _
  after_results
  rfl

/-- The scale column is the reference's scale stage kept as a column. -/
theorem W1_v14 : w1_v14 m c
    = shapeCast S100000x1 (Cert.ReferenceIdeal.Read.val_main_v14 (F := Ideal) (h_ei m c)) shapeCasts_S100000_S100000x1 := by
  show StableHlo.after hostOps0 (W0 m c) (Proc.devRef .tc main_v14) = _
  after_results
  rfl

/-- The scale column at (n, 0): the specification's scale of node `n` over the landing sets. -/
theorem W1_scale (n : Fin 100000) :
    w1_v14 m c (ix2 n (0 : Fin 1)) = Cert.Spec.scale (Cert.Inst.R (dstb m c)) n := by
  rw [W1_v14 m c, Cert.Lib.KeepdimsColumn.shapeCast_a_a1_apply]
  exact scale_apply (h_ei m c) n

/-! ## The first launch: its output array, and what it leaves alone -/

/-- The first launch's output array is what its write-backs add up to. -/
theorem W2_v15 : w2_v15 m c = (dat0 (F := Ideal) (V1 m) c).arrAt 3 cfg0.N := W2_arr m c 3

/-- The edge words and the first bias are not among the first launch's arrays. -/
theorem W2_v3 : (W2 m c (Proc.devRef .tc main_v3) : S1700000.Idx → BitVec 32)
    = Cert.ReferenceIdeal.Read.val_main_v3 (F := Ideal) (h_ei m c) :=
  (W2_of_ne m c main_v3 (by decide)).trans (W1_v3 m c)
theorem W2_v6 : (W2 m c (Proc.devRef .tc main_v6) : S1700000.Idx → BitVec 32)
    = Cert.ReferenceIdeal.Read.val_main_v6 (F := Ideal) (h_ei m c) :=
  (W2_of_ne m c main_v6 (by decide)).trans (W1_v6 m c)
theorem W2_arg4 : (W2 m c (Proc.devRef .tc main_arg4) : S64.Idx → EReal) = h_b1 m c :=
  (W2_of_ne m c main_arg4 (by decide)).trans (W1_of m c main_arg4 (by decide))

/-! ## The second stretch: the first aggregate and the first bias row -/

/-- The scale column is an input array of the first launch and no operation of the second stretch writes it. -/
theorem W3_v14 : w3_v14 m c = w1_v14 m c :=
  (W3_of m c main_v14 (by decide)).trans (W2_in m c 2 rfl)

/-- Nothing writes the second weights before the second launch. -/
theorem W3_arg5 : w3_arg5 m c = h_W2 m c :=
  (W3_of m c main_arg5 (by decide)).trans ((W2_of_ne m c main_arg5 (by decide)).trans (W1_of m c main_arg5 (by decide)))

/-- The first aggregate: the first launch's rows looked up along the wrapped source column and added into the
    landing nodes. -/
theorem W3_v25 : w3_v25 m c = aggOf (dstb m c) (srcw m c) (w2_v15 m c) := by
  show StableHlo.after hostOps1 (W2 m c) (Proc.devRef .tc main_v25) = _
  after_results
  rw [W2_v6 m c, W2_v3 m c]
  rfl

/-- The first aggregate at (n, j). -/
theorem W3_agg (n : Fin 100000) (j : Fin 64) :
    w3_v25 m c (ix2 n j)
      = 0 + ∑ e ∈ Cert.Inst.R (dstb m c) n, w2_v15 m c (ix2 (Cert.Inst.row (srcw m c) e) j) := by
  rw [W3_v25 m c]
  exact aggOf_apply _ _ _ n j

/-- The first bias as a row, at (0, j). -/
theorem W3_b1 (j : Fin 64) : w3_v26 m c (ix2 (0 : Fin 1) j) = h_b1 m c (ix1 j) := by
  have e : w3_v26 m c
      = shapeCast S1x64 (W2 m c (Proc.devRef .tc main_arg4) : S64.Idx → EReal) shapeCasts_S64_S1x64 := by
    show StableHlo.after hostOps1 (W2 m c) (Proc.devRef .tc main_v26) = _
    after_results
    rfl
  rw [e, shapeCast_a_1a_apply, W2_arg4 m c]

/-! ## The second launch: its output array, and what it leaves alone -/

/-- The second launch's output array is what its write-backs add up to. -/
theorem W4_v27 : w4_v27 m c = (dat1 (F := Ideal) (V3 m) c).arrAt 4 cfg1.N := W4_arr m c 4

/-- The edge words, the second bias, the graph words and the head's bias are written by nothing before the third
    stretch. -/
theorem W4_v3 : (W4 m c (Proc.devRef .tc main_v3) : S1700000.Idx → BitVec 32)
    = Cert.ReferenceIdeal.Read.val_main_v3 (F := Ideal) (h_ei m c) :=
  (W4_of_ne m c main_v3 (by decide)).trans ((W3_of m c main_v3 (by decide)).trans (W2_v3 m c))
theorem W4_v6 : (W4 m c (Proc.devRef .tc main_v6) : S1700000.Idx → BitVec 32)
    = Cert.ReferenceIdeal.Read.val_main_v6 (F := Ideal) (h_ei m c) :=
  (W4_of_ne m c main_v6 (by decide)).trans ((W3_of m c main_v6 (by decide)).trans (W2_v6 m c))
theorem W4_arg6 : (W4 m c (Proc.devRef .tc main_arg6) : S64.Idx → EReal) = h_b2 m c :=
  (W4_of_ne m c main_arg6 (by decide)).trans ((W3_of m c main_arg6 (by decide)).trans
    ((W2_of_ne m c main_arg6 (by decide)).trans (W1_of m c main_arg6 (by decide))))
theorem W4_arg2 : (W4 m c (Proc.devRef .tc main_arg2) : S100000.Idx → BitVec 32) = h_bt m c :=
  (W4_of_ne m c main_arg2 (by decide)).trans ((W3_of m c main_arg2 (by decide)).trans
    ((W2_of_ne m c main_arg2 (by decide)).trans (W1_of m c main_arg2 (by decide))))
theorem W4_arg8 : (W4 m c (Proc.devRef .tc main_arg8) : S2.Idx → EReal) = h_bfc m c :=
  (W4_of_ne m c main_arg8 (by decide)).trans ((W3_of m c main_arg8 (by decide)).trans
    ((W2_of_ne m c main_arg8 (by decide)).trans (W1_of m c main_arg8 (by decide))))

/-! ## The third stretch: the second aggregate, the second bias row, the graph column and the head's bias row -/

/-- The scale column is an input array of the second launch too, and no operation of the third stretch writes it. -/
theorem W5_v14 : w5_v14 m c = w1_v14 m c :=
  (W5_of m c main_v14 (by decide)).trans ((W4_in m c 1 rfl).trans (W3_v14 m c))

/-- Nothing writes the head's weights before the third launch. -/
theorem W5_arg7 : w5_arg7 m c = h_Wfc m c :=
  (W5_of m c main_arg7 (by decide)).trans ((W4_of_ne m c main_arg7 (by decide)).trans ((W3_of m c main_arg7 (by decide)).trans
    ((W2_of_ne m c main_arg7 (by decide)).trans (W1_of m c main_arg7 (by decide)))))

/-- The second aggregate: the second launch's rows looked up along the wrapped source column and added into the
    landing nodes. -/
theorem W5_v37 : w5_v37 m c = aggOf (dstb m c) (srcw m c) (w4_v27 m c) := by
  show StableHlo.after hostOps2 (W4 m c) (Proc.devRef .tc main_v37) = _
  after_results
  rw [W4_v6 m c, W4_v3 m c]
  rfl

/-- The second aggregate at (n, j). -/
theorem W5_agg (n : Fin 100000) (j : Fin 64) :
    w5_v37 m c (ix2 n j)
      = 0 + ∑ e ∈ Cert.Inst.R (dstb m c) n, w4_v27 m c (ix2 (Cert.Inst.row (srcw m c) e) j) := by
  rw [W5_v37 m c]
  exact aggOf_apply _ _ _ n j

/-- The second bias as a row, at (0, j). -/
theorem W5_b2 (j : Fin 64) : w5_v38 m c (ix2 (0 : Fin 1) j) = h_b2 m c (ix1 j) := by
  have e : w5_v38 m c
      = shapeCast S1x64 (W4 m c (Proc.devRef .tc main_arg6) : S64.Idx → EReal) shapeCasts_S64_S1x64 := by
    show StableHlo.after hostOps2 (W4 m c) (Proc.devRef .tc main_v38) = _
    after_results
    rfl
  rw [e, shapeCast_a_1a_apply, W4_arg6 m c]

/-- The graph words as a column, at (n, 0). -/
theorem W5_bt (n : Fin 100000) : w5_v39 m c (ix2 n (0 : Fin 1)) = h_bt m c (ix1 n) := by
  have e : w5_v39 m c
      = shapeCast S100000x1 (W4 m c (Proc.devRef .tc main_arg2) : S100000.Idx → BitVec 32) shapeCasts_S100000_S100000x1 := by
    show StableHlo.after hostOps2 (W4 m c) (Proc.devRef .tc main_v39) = _
    after_results
    rfl
  rw [e, Cert.Lib.KeepdimsColumn.shapeCast_a_a1_apply, W4_arg2 m c]

/-- The head's bias as a row, at (0, r). -/
theorem W5_bfc (r : Fin 2) : w5_v40 m c (ix2 (0 : Fin 1) r) = h_bfc m c (ix1 r) := by
  have e : w5_v40 m c
      = shapeCast S1x2 (W4 m c (Proc.devRef .tc main_arg8) : S2.Idx → EReal) shapeCasts_S2_S1x2 := by
    show StableHlo.after hostOps2 (W4 m c) (Proc.devRef .tc main_v40) = _
    after_results
    rfl
  rw [e, shapeCast_a_1a_apply, W4_arg8 m c]

end Cert.KernelIdeal.Hand

end
-- ==== Proof.KI.Value.lean ====
/-
  What the idealized kernel program computes: its result buffer, at (graph, class), is the per-node, one-hot form of
  the network.

  The three host stretches between the launches are read at an index: the first counts the degree and forms the scale
  column; the second looks the first launch's rows up along the source column and sums them into the landing nodes;
  the third does the same with the second launch's rows and lays out the biases and the graph words as the third
  launch takes them. The index columns and the scale are the same operations on the same edge array as the
  reference's stages 10, 20 and 14, so they are stated over those stages.
-/
import proofs.«410454_j88278757802580_2_alg».proof.Proof.Gen.KernelIdeal.Launch
import proofs.«410454_j88278757802580_2_alg».proof.Proof.Gen.KernelIdeal.Skeleton
import proofs.«410454_j88278757802580_2_alg».proof.Proof.Gen.KernelIdeal.Points
import proofs.«410454_j88278757802580_2_alg».proof.Proof.KI.Run
import proofs.«410454_j88278757802580_2_alg».proof.Proof.KI.Value01
import proofs.«410454_j88278757802580_2_alg».proof.Proof.KI.Value2
import proofs.«410454_j88278757802580_2_alg».proof.Proof.KI.Host
import proofs.«410454_j88278757802580_2_alg».proof.Proof.RefRead
import proofs.«410454_j88278757802580_2_alg».proof.Proof.Net
import proofs.«410454_j88278757802580_2_alg».proof.Proof.LibKeepdimsColumn
import Idealize.ShloMosaic.Lib.StableHlo.Run
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (c : Dev nD)

/-! The launch memory's arguments and the result buffer, each named at its literal type. -/
abbrev k_x : S100000x64.Idx → EReal := m ((c.tc : Thread nD τ).loc main_arg0)
abbrev k_ei : S2x1600000.Idx → BitVec 32 := m ((c.tc : Thread nD τ).loc main_arg1)
abbrev k_bt : S100000.Idx → BitVec 32 := m ((c.tc : Thread nD τ).loc main_arg2)
abbrev k_W1 : S64x64.Idx → EReal := m ((c.tc : Thread nD τ).loc main_arg3)
abbrev k_b1 : S64.Idx → EReal := m ((c.tc : Thread nD τ).loc main_arg4)
abbrev k_W2 : S64x64.Idx → EReal := m ((c.tc : Thread nD τ).loc main_arg5)
abbrev k_b2 : S64.Idx → EReal := m ((c.tc : Thread nD τ).loc main_arg6)
abbrev k_Wfc : S64x2.Idx → EReal := m ((c.tc : Thread nD τ).loc main_arg7)
abbrev k_bfc : S2.Idx → EReal := m ((c.tc : Thread nD τ).loc main_arg8)
/-- The result buffer at the end of every execution. -/
abbrev k_out : S64x2.Idx → EReal := W6 (F := Ideal) m c (Proc.devRef .tc main_v41)

/-! ## The launches' values over the landing sets and the source rows

`R n` is the set of edges landing on node `n`, `s e` the node edge `e` leaves from (its wrapped word, clamped),
`scale` the specification's scale over `R`. Each launch's output row is a matrix product of what the launch finds,
scaled by the row's own node; each stretch's aggregate sums the rows found at the sources of a node's landing edges. -/

/-- The first launch's output array at (n, j): the features' product with the first weights, scaled by node `n`. -/
private theorem y1_value (n : Fin 100000) (j : Fin 64) :
    w2_v15 m c (ix2 n j)
      = Cert.Spec.mm (Cert.Inst.tab (k_x m c)) (Cert.Inst.mat (k_W1 m c)) n j
          * Cert.Spec.scale (Cert.Inst.R (dstb m c)) n := by
  rw [W2_v15 m c]
  refine (out0_value (V1 m) c n j).trans ?_
  show (∑ k : Fin 64, w1_arg0 m c (ix2 n k) * w1_arg3 m c (ix2 k j)) * w1_v14 m c (ix2 n (0 : Fin 1)) = _
  rw [W1_arg0 m c, W1_arg3 m c, W1_scale m c n]
  rfl

/-- The first aggregate at (n, k): from zero, over the edges landing on `n`, the scaled product row at the source. -/
private theorem agg1_value (n : Fin 100000) (k : Fin 64) :
    w3_v25 m c (ix2 n k)
      = 0 + ∑ e ∈ Cert.Inst.R (dstb m c) n,
          Cert.Spec.mm (Cert.Inst.tab (k_x m c)) (Cert.Inst.mat (k_W1 m c)) (Cert.Inst.row (srcw m c) e) k
            * Cert.Spec.scale (Cert.Inst.R (dstb m c)) (Cert.Inst.row (srcw m c) e) := by
  rw [W3_agg m c n k]
  exact congrArg _ (Finset.sum_congr rfl fun e _ => y1_value m c _ k)

/-- What the second launch makes of row `n` of its inputs before its product is the first layer's output. -/
private theorem h1_value (n : Fin 100000) (k : Fin 64) :
    max (w3_v14 m c (ix2 n (0 : Fin 1)) * w3_v25 m c (ix2 n k) + w3_v26 m c (ix2 (0 : Fin 1) k)) 0
      = Cert.Net.kerH1 (k_x m c) (dstb m c) (srcw m c) (k_W1 m c) (k_b1 m c) n k := by
  rw [W3_v14 m c, W1_scale m c n, agg1_value m c n k, W3_b1 m c k]
  rfl

/-- The second launch's output array at (n, j): the first layer's output times the second weights, scaled by `n`. -/
private theorem y2_value (n : Fin 100000) (j : Fin 64) :
    w4_v27 m c (ix2 n j)
      = Cert.Spec.mm (Cert.Net.kerH1 (k_x m c) (dstb m c) (srcw m c) (k_W1 m c) (k_b1 m c)) (Cert.Inst.mat (k_W2 m c)) n j
          * Cert.Spec.scale (Cert.Inst.R (dstb m c)) n := by
  rw [W4_v27 m c]
  refine (out1_value (V3 m) c n j).trans ?_
  show (∑ k : Fin 64, max (w3_v14 m c (ix2 n (0 : Fin 1)) * w3_v25 m c (ix2 n k) + w3_v26 m c (ix2 (0 : Fin 1) k)) 0
          * w3_arg5 m c (ix2 k j)) * w3_v14 m c (ix2 n (0 : Fin 1)) = _
  have hs : (∑ k : Fin 64, max (w3_v14 m c (ix2 n (0 : Fin 1)) * w3_v25 m c (ix2 n k) + w3_v26 m c (ix2 (0 : Fin 1) k)) 0
          * w3_arg5 m c (ix2 k j))
      = ∑ k : Fin 64, Cert.Net.kerH1 (k_x m c) (dstb m c) (srcw m c) (k_W1 m c) (k_b1 m c) n k * k_W2 m c (ix2 k j) :=
    Finset.sum_congr rfl fun k _ => by rw [h1_value m c n k, W3_arg5 m c]
  rw [hs, W3_v14 m c, W1_scale m c n]
  rfl

/-- The second aggregate at (n, j): from zero, over the edges landing on `n`, the scaled product row at the source. -/
private theorem agg2_value (n : Fin 100000) (j : Fin 64) :
    w5_v37 m c (ix2 n j)
      = 0 + ∑ e ∈ Cert.Inst.R (dstb m c) n,
          Cert.Spec.mm (Cert.Net.kerH1 (k_x m c) (dstb m c) (srcw m c) (k_W1 m c) (k_b1 m c)) (Cert.Inst.mat (k_W2 m c))
              (Cert.Inst.row (srcw m c) e) j
            * Cert.Spec.scale (Cert.Inst.R (dstb m c)) (Cert.Inst.row (srcw m c) e) := by
  rw [W5_agg m c n j]
  exact congrArg _ (Finset.sum_congr rfl fun e _ => y2_value m c _ j)

/-- What the third launch makes of its input rows is the second layer's output. -/
private theorem h2_value :
    h2V (V5 m) c = Cert.Net.kerH2 (k_x m c) (dstb m c) (srcw m c) (k_W1 m c) (k_b1 m c) (k_W2 m c) (k_b2 m c) := by
  funext n j
  show max (w5_v14 m c (ix2 n (0 : Fin 1)) * w5_v37 m c (ix2 n j) + w5_v38 m c (ix2 (0 : Fin 1) j)) 0 = _
  rw [W5_v14 m c, W1_scale m c n, agg2_value m c n j, W5_b2 m c j]
  rfl

/-- The third launch's one-hot marks are those of the graph words as launched. -/
private theorem oh_value : ohV (V5 m) c = Cert.Inst.oh (k_bt m c) := by
  funext n g
  show (if w5_v39 m c (ix2 n (0 : Fin 1)) = BitVec.ofNat 32 g.val then (1 : EReal) else 0) = _
  rw [W5_bt m c n]
  rfl

/-- THE KERNEL PROGRAM'S VALUE at (graph, class). -/
theorem ker_value (g : Fin 64) (q : Fin 2) :
    k_out m c (ix2 g q)
      = Cert.Net.kerOut (k_x m c) (Cert.ReferenceIdeal.Read.val_main_v10 (F := Ideal) (k_ei m c))
          (Cert.ReferenceIdeal.Read.val_main_v20 (F := Ideal) (k_ei m c)) (k_bt m c)
          (k_W1 m c) (k_b1 m c) (k_W2 m c) (k_b2 m c) (k_Wfc m c) (k_bfc m c) g q := by
  -- the result buffer is the third launch's output array
  have hout : k_out m c (ix2 g q) = y3 (V5 m) c (ix2 g q) := congrFun (W6_main_v41 m c) (ix2 g q)
  -- the head's weights are untouched since the launch memory; its bias row is the bias, laid out
  have hw : (fun k r => e2_wfc (V5 m) c (ix2 k r)) = Cert.Inst.mat2 (k_Wfc m c) := by
    funext k r
    show w5_arg7 m c (ix2 k r) = _
    rw [W5_arg7 m c]
    rfl
  have hb : (fun r => e2_bfc (V5 m) c (ix2 (0 : Fin 1) r)) = Cert.Inst.vec2 (k_bfc m c) := by
    funext r
    exact W5_bfc m c r
  rw [hout, out2_value (V5 m) c g q, oh_value m c, h2_value m c, hw, hb]
  rfl

end Cert.KernelIdeal.Hand

end
-- ==== Proof.LibGatherFlat.lean ====
/-
  A flat lookup (`x[idx]` of a rank-1 table) read at an index.

  Table `[N]`, start indices `[E, 1]` (one index word per looked-up element), result `[E]`: result
  element `e` is the table's element `r`, where `r` is the index word `idx[e, 0]` read as a signed
  integer and clamped into `[0, N - 1]` (a negative number reads element 0, one past the end the last
  element). The table's single axis is collapsed, so the result has no window coordinate to add.
-/
import Idealize.ShloMosaic.PureOps
import Idealize.ShloMosaic.Lib.ValueIdx
import proofs.«410454_j88278757802580_2_alg».proof.Proof.LibGatherRows

noncomputable section

namespace Idealize.ShloMosaic.RowGather

open Idealize.ShloMosaic Idealize.ShloMosaic.ValueIdx

variable {α : Type}

/-- Lookup of single elements: table `[N]`, indices `[E, 1]`, result `[E]`. -/
abbrev flatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

section Flat
variable {N E w : Nat}
  (wf : GatherDims.WF ⟨1, ![N]⟩ ⟨2, ![E, 1]⟩ ⟨1, ![E]⟩ [] [0] [] [0] [] 1 ![1])

/-- The one component of result element `e`'s start index is read at `[e, 0]` of the index array: the
    result's only axis is a batch axis and gives the row, the index vector's axis gives the column 0. -/
private theorem flat_siIdx (e : Fin E) :
    (flatDims N E wf).siIdx (ix1 e) ⟨List.idxOf (0 : Fin 1) (flatDims N E wf).startIndexMap,
      List.idxOf_lt_length_iff.2 (List.mem_singleton.mpr rfl)⟩ = ix2 e (0 : Fin 1) := by
  funext b
  refine Fin.ext ?_
  match b with
  | ⟨0, _⟩ => rfl
  | ⟨1, _⟩ => rfl

/-- The table's axis is collapsed and not a batching one: the clamped start is the whole coordinate. -/
private theorem flat_operand_coord (hN : 0 < N) (idx : IVec ⟨2, ![E, 1]⟩ w) (e : Fin E) :
    (flatDims N E wf).start (ix1 e) idx 0 + (flatDims N E wf).batchCoord (ix1 e) 0
      + (flatDims N E wf).offCoord (ix1 e) 0 = (clampRow N hN (idx (ix2 e (0 : Fin 1)))).val := by
  have hcollapsed : (0 : Fin 1) ∉ (flatDims N E wf).sKept :=
    fun h => ((GatherDims.mem_sKept _ _).mp h).1 (List.mem_singleton.mpr rfl)
  rw [GatherDims.batchCoord_eq_zero _ _ _ List.not_mem_nil, GatherDims.offCoord_eq_zero _ _ _ hcollapsed]
  simp only [Nat.add_zero]
  unfold GatherDims.start
  rw [dif_pos (show (0 : Fin 1) ∈ (flatDims N E wf).startIndexMap from List.mem_singleton.mpr rfl),
    flat_siIdx wf e]
  rfl

end Flat

/-- THE FLAT LOOKUP READ AT `e`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e)
      = x (ix1 (clampRow N hN (idx (ix2 e (0 : Fin 1))))) := by
  unfold Host.gather
  congr 1
  funext a
  refine Fin.ext ?_
  match a with
  | ⟨0, _⟩ => exact flat_operand_coord wf hN idx e

end Idealize.ShloMosaic.RowGather

end
-- ==== Proof.Ref.Scale.lean ====
/-
  The node scale as the reference computes it: stage 14 at node n is  1/√max(deg n, 1) , the degree counted by
  summing ones onto zeros over the edges whose raw landing word is n. The second layer recomputes the same stage.
-/
import proofs.«410454_j88278757802580_2_alg».proof.Proof.RefRead
import proofs.«410454_j88278757802580_2_alg».proof.Proof.Inst
import Idealize.ShloMosaic.Lib.ValueIdx
import Idealize.ShloMosaic.Lib.ValueIdxRank1
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo

variable (x1 : (⟨S2x1600000, .i32⟩ : BufTy).Contents (Elt Ideal))

/-- The printed dimension numbers of the degree count are those of a flat scatter of 1700000 updates onto 100000
    entries. -/
private theorem degree_dims : scatter_S100000_S1700000x1_S1700000_n_0_0_1
    = SegSum.flatDims 100000 1700000 scatter_S100000_S1700000x1_S1700000_n_0_0_1_wf := rfl

/-- Stage 8 is one at every edge. -/
private theorem edge_ones (e : Fin 1700000) : val_main_v8 (F := Ideal) (ix1 e) = (1 : EReal) := by
  rw [val_main_v8_apply, val_main_cst_apply]; exact Ideal.ofBits_one_f32

/-- Stage 11 at node n: zero plus one for every edge whose raw landing word, read signed, is n. -/
private theorem degree_value (n : Fin 100000) :
    val_main_v11 (F := Ideal) x1 (ix1 n) = 0 + ∑ _e ∈ SegSum.rowsOf (val_main_v10 (F := Ideal) x1) n, (1 : EReal) := by
  have h0 : (FloatOps.ofBits .f32 0x00000000#32 : Ideal .f32) = (0 : EReal) := Ideal.ofBits_zero_f32
  rw [val_main_v11, Host.scatterAdd, Ideal.hostScatterAdd_def, degree_dims, SegSum.hostScatterAdd_flat_apply,
    val_main_v9_apply, val_main_cst_0_apply, Finset.sum_congr rfl fun e _ => edge_ones e, h0]

/-- Stage 12 is one at every node. -/
private theorem node_ones (n : Fin 100000) : val_main_v12 (F := Ideal) (ix1 n) = (1 : EReal) := by
  rw [val_main_v12_apply, val_main_cst_1_apply]; exact Ideal.ofBits_one_f32

/-- THE SCALE AT NODE n. -/
theorem scale_value (n : Fin 100000) :
    val_main_v14 (F := Ideal) x1 (ix1 n) = Cert.Spec.scale (Cert.Inst.R (val_main_v10 (F := Ideal) x1)) n := by
  rw [val_main_v14_apply, Ideal.hostUnary_rsqrt_def, val_main_v13_apply, Ideal.maximumf_def, degree_value, node_ones,
    Cert.Spec.scale, Cert.Spec.deg, Cert.Inst.R]

/-- The second layer's recomputed scale is the same stage. -/
theorem scale_again : val_main_v54 (F := Ideal) x1 = val_main_v14 (F := Ideal) x1 := by
  unfold val_main_v54 val_main_v53 val_main_v51 val_main_v52 val_main_v50 val_main_v49 val_main_v48 val_main_cst_8 val_main_cst_9 val_main_cst_10
    val_main_v14 val_main_v13 val_main_v11 val_main_v12 val_main_v10 val_main_v9 val_main_v8 val_main_cst val_main_cst_0 val_main_cst_1
  rfl

/-- The second layer's recomputed index columns are the same stages. -/
theorem srcw_again : val_main_v60 (F := Ideal) x1 = val_main_v20 (F := Ideal) x1 := by
  unfold val_main_v60 val_main_v59 val_main_v56 val_main_v58 val_main_v55 val_main_v57 val_main_c_11 val_main_c_12
    val_main_v20 val_main_v19 val_main_v16 val_main_v18 val_main_v15 val_main_v17 val_main_c val_main_c_2
  rfl
theorem dstw_again : val_main_v67 (F := Ideal) x1 = val_main_v27 (F := Ideal) x1 := by
  unfold val_main_v67 val_main_v66 val_main_v63 val_main_v65 val_main_v62 val_main_v64 val_main_c_13 val_main_c_14
    val_main_v27 val_main_v26 val_main_v23 val_main_v25 val_main_v22 val_main_v24 val_main_c_3 val_main_c_4
  rfl
theorem dstb_again : val_main_v81 (F := Ideal) x1 = val_main_v10 (F := Ideal) x1 := by
  unfold val_main_v81 val_main_v10
  rfl
theorem srcw_again' : val_main_v75 (F := Ideal) x1 = val_main_v20 (F := Ideal) x1 := by
  unfold val_main_v75 val_main_v74 val_main_v71 val_main_v73 val_main_v70 val_main_v72 val_main_c_15 val_main_c_16
    val_main_v20 val_main_v19 val_main_v16 val_main_v18 val_main_v15 val_main_v17 val_main_c val_main_c_2
  rfl
theorem srcw_first : val_main_v35 (F := Ideal) x1 = val_main_v20 (F := Ideal) x1 := by
  unfold val_main_v35 val_main_v34 val_main_v31 val_main_v33 val_main_v30 val_main_v32 val_main_c_5 val_main_c_6
    val_main_v20 val_main_v19 val_main_v16 val_main_v18 val_main_v15 val_main_v17 val_main_c val_main_c_2
  rfl
theorem dstb_first : val_main_v41 (F := Ideal) x1 = val_main_v10 (F := Ideal) x1 := by
  unfold val_main_v41 val_main_v10
  rfl

end Cert.ReferenceIdeal.RefValue

end
-- ==== Proof.Ref.Head.lean ====
/-
  The reference's last stretch — per-graph sums and counts, the mean, the two logits and their log-softmax — read at
  (graph, class), for ANY table T that the second layer's output (stage 86) is known to be.

  The sums are a segment sum of the rows onto a zero 64 × 64 table by the graph column (the graph words broadcast to a
  column), the counts a segment sum of ones onto 64 zeros; a count below one is read as one; the quotient, the
  64 × 2 product and the bias give the logits; the row maximum is a fold from -∞ over the two classes, the further
  maximum with -∞ changes nothing; then the shifted logits, the exponentials summed from 0, and the logarithm.
-/
import proofs.«410454_j88278757802580_2_alg».proof.Proof.RefRead
import proofs.«410454_j88278757802580_2_alg».proof.Proof.Net
import proofs.«410454_j88278757802580_2_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo

variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S64x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x2, .f32⟩ : BufTy).Contents (Elt Ideal))
  (x8 : (⟨S2, .f32⟩ : BufTy).Contents (Elt Ideal))

/-! ### The scalar constants -/

/-- The pattern of 1.0 is the number one. -/
private theorem ofBits_one_f32 : Ideal.ofBits .f32 0x3F800000#32 = 1 := by
  simp [Ideal.ofBits, Ideal.ieee, -EReal.coe_mul]; norm_num

/-- The pattern of -∞ is the bottom of the extended reals. -/
private theorem ofBits_ninf_f32 : Ideal.ofBits .f32 0xFF800000#32 = ⊥ := by
  simp [Ideal.ofBits, Ideal.ieee]

/-! ### The per-graph sums and counts: segment sums by the graph column -/

/-- The table the rows are summed onto is zero. -/
private theorem v87_at (g j : Fin 64) : (val_main_v87 (F := Ideal) (ix2 g j) : EReal) = 0 := by
  rw [val_main_v87_apply, val_main_cst_18_apply, Ideal.ofBits_def, Ideal.ofBits_zero_f32]

/-- The graph column at (n, 0) is node n's graph word. -/
private theorem v88_at (n : Fin 100000) : val_main_v88 (F := Ideal) x2 (ix2 n (0 : Fin 1)) = x2 (ix1 n) := by
  rw [val_main_v88_apply]
  exact congrArg x2 (funext fun a => match a with | ⟨0, _⟩ => rfl)

/-- The rows that land on graph g are g's members. -/
private theorem rowsOf_v88 (g : Fin 64) : SegSum.rowsOf (val_main_v88 (F := Ideal) x2) g = Cert.Inst.B x2 g := by
  unfold SegSum.rowsOf Cert.Inst.B
  refine Finset.filter_congr fun n _ => ?_
  rw [v88_at]

/-- The printed dimension numbers of the row scatter are those of a row segment sum. -/
private theorem rows_record :
    scatter_S64x64_S100000x1_S100000x64_1_0_0_1
      = SegSum.rowsDims 64 100000 64 Facts₀.scatter_S64x64_S100000x1_S100000x64_1_0_0_1_wf := rfl

/-- The printed dimension numbers of the flat scatter are those of a flat segment sum. -/
private theorem flat_record :
    scatter_S64_S100000x1_S100000_n_0_0_1
      = SegSum.flatDims 64 100000 Facts₀.scatter_S64_S100000x1_S100000_n_0_0_1_wf := rfl

/-- The per-graph sums of a known table's rows. -/
private theorem v89_at (T : Cert.Spec.Tab)
    (hT : ∀ (n : Fin 100000) (j : Fin 64), val_main_v86 (F := Ideal) x0 x1 x3 x4 x5 x6 (ix2 n j) = T n j)
    (g j : Fin 64) :
    val_main_v89 (F := Ideal) x0 x1 x2 x3 x4 x5 x6 (ix2 g j) = Cert.Spec.poolMembers (Cert.Inst.B x2) T g j := by
  unfold val_main_v89 Host.scatterAdd
  rw [Ideal.hostScatterAdd_def, rows_record, SegSum.hostScatterAdd_rows_apply, v87_at, rowsOf_v88]
  unfold Cert.Spec.poolMembers
  exact congrArg (0 + ·) (Finset.sum_congr rfl fun n _ => hT n j)

/-- The counts are summed onto zeros, -/
private theorem v91_at (g : Fin 64) : (val_main_v91 (F := Ideal) (ix1 g) : EReal) = 0 := by
  rw [val_main_v91_apply, val_main_cst_20_apply, Ideal.ofBits_def, Ideal.ofBits_zero_f32]

/-- … every node contributing a one, -/
private theorem v90_at (n : Fin 100000) : (val_main_v90 (F := Ideal) (ix1 n) : EReal) = 1 := by
  rw [val_main_v90_apply, val_main_cst_19_apply, Ideal.ofBits_def, ofBits_one_f32]

/-- … by the same graph column. -/
private theorem v92_at (n : Fin 100000) : val_main_v92 (F := Ideal) x2 (ix2 n (0 : Fin 1)) = x2 (ix1 n) := by
  rw [val_main_v92_apply]
  exact congrArg x2 (funext fun a => match a with | ⟨0, _⟩ => rfl)

private theorem rowsOf_v92 (g : Fin 64) : SegSum.rowsOf (val_main_v92 (F := Ideal) x2) g = Cert.Inst.B x2 g := by
  unfold SegSum.rowsOf Cert.Inst.B
  refine Finset.filter_congr fun n _ => ?_
  rw [v92_at]

/-- The per-graph member counts. -/
private theorem v93_at (g : Fin 64) :
    val_main_v93 (F := Ideal) x2 (ix1 g) = Cert.Spec.countMembers (Cert.Inst.B x2) g := by
  unfold val_main_v93 Host.scatterAdd
  rw [Ideal.hostScatterAdd_def, flat_record, SegSum.hostScatterAdd_flat_apply, v91_at, rowsOf_v92]
  unfold Cert.Spec.countMembers
  exact congrArg (0 + ·) (Finset.sum_congr rfl fun n _ => v90_at n)

/-! ### The mean features and the logits -/

/-- A count below one is read as one. -/
private theorem v95_at (g : Fin 64) :
    val_main_v95 (F := Ideal) x2 (ix1 g) = max (Cert.Spec.countMembers (Cert.Inst.B x2) g) 1 := by
  rw [val_main_v95_apply, Ideal.maximumf_def, v93_at, val_main_v94_apply, val_main_cst_21_apply, Ideal.ofBits_def,
    ofBits_one_f32]

/-- The count column spread over the 64 features. -/
private theorem v97_at (g j : Fin 64) :
    val_main_v97 (F := Ideal) x2 (ix2 g j) = max (Cert.Spec.countMembers (Cert.Inst.B x2) g) 1 := by
  rw [val_main_v97_apply, val_main_v96_apply]
  refine Eq.trans (congrArg (val_main_v95 (F := Ideal) x2) ?_) (v95_at x2 g)
  exact funext fun a => match a with | ⟨0, _⟩ => rfl

/-- The mean feature: the sum over the count. -/
private theorem v98_at (T : Cert.Spec.Tab)
    (hT : ∀ (n : Fin 100000) (j : Fin 64), val_main_v86 (F := Ideal) x0 x1 x3 x4 x5 x6 (ix2 n j) = T n j)
    (g j : Fin 64) :
    val_main_v98 (F := Ideal) x0 x1 x2 x3 x4 x5 x6 (ix2 g j)
      = Cert.Spec.mean (Cert.Spec.poolMembers (Cert.Inst.B x2) T) (fun g _ => Cert.Spec.countMembers (Cert.Inst.B x2) g) g j := by
  rw [val_main_v98_apply, Ideal.hostDivf_def, v89_at x0 x1 x2 x3 x4 x5 x6 T hT, v97_at]
  rfl

/-- The bias row at (g, q) is the bias of class q. -/
private theorem v101_at (g : Fin 64) (q : Fin 2) : val_main_v101 (F := Ideal) x8 (ix2 g q) = Cert.Inst.vec2 x8 q := by
  rw [val_main_v101_apply, val_main_v100_apply]
  unfold Cert.Inst.vec2
  exact congrArg x8 (funext fun a => match a with | ⟨0, _⟩ => rfl)

/-- The two logits of graph g. -/
private theorem v102_at (T : Cert.Spec.Tab)
    (hT : ∀ (n : Fin 100000) (j : Fin 64), val_main_v86 (F := Ideal) x0 x1 x3 x4 x5 x6 (ix2 n j) = T n j)
    (g : Fin 64) (q : Fin 2) :
    val_main_v102 (F := Ideal) x0 x1 x2 x3 x4 x5 x6 x7 x8 (ix2 g q)
      = Cert.Spec.logit (Cert.Spec.poolMembers (Cert.Inst.B x2) T) (fun g _ => Cert.Spec.countMembers (Cert.Inst.B x2) g)
          (Cert.Inst.mat2 x7) (Cert.Inst.vec2 x8) g q := by
  rw [val_main_v102_apply, Ideal.addf_def, val_main_v99_apply, v101_at]
  unfold Cert.Spec.logit
  refine congrArg (· + Cert.Inst.vec2 x8 q) (Finset.sum_congr rfl fun k _ => ?_)
  have el : lidx_main_v99 (ix2 g q) k = ix2 g k :=
    funext fun a => match a with | ⟨0, _⟩ => rfl | ⟨1, _⟩ => rfl
  have er : ridx_main_v99 (ix2 g q) k = ix2 k q :=
    funext fun a => match a with | ⟨0, _⟩ => rfl | ⟨1, _⟩ => rfl
  rw [el, er, v98_at x0 x1 x2 x3 x4 x5 x6 T hT]
  rfl

/-! ### The two reductions over the pair of classes -/

/-- The reduced index g with the class k put back is (g, k). -/
private theorem lift_col (h : S64x2.Reduces [1] S64) (g : Fin 64) (k : Fin 2) : h.lift (ix1 g) k = ix2 g k := by
  funext ax
  refine Fin.ext ?_
  match ax with
  | ⟨0, _⟩ => rfl
  | ⟨1, _⟩ => rfl

/-- A maximum-reduce over the two classes, folded from -∞, is the larger of the two entries. -/
private theorem hostMax_at (v : S64x2.Idx → Ideal .f32) (init : S_.Idx → Ideal .f32) (hinit : ∀ i, init i = ⊥)
    (h' : S64x2.ReducesTo [1] S64) (hu : 0 < S_.numel) (g : Fin 64) :
    Host.reduce FloatOps.maximumf v init h' hu (ix1 g) = max (v (ix2 g 0)) (v (ix2 g 1)) := by
  have h : S64x2.Reduces [1] S64 := by decide
  rw [Host.reduce_eq_fold_single FloatOps.maximumf v init h' h hu, hinit]
  show (Finset.univ : Finset (Fin 2)).fold max (⊥ : EReal) (fun k : Fin 2 => v (h.lift (ix1 g) k)) = _
  have hf : (fun k : Fin 2 => v (h.lift (ix1 g) k)) = fun k : Fin 2 => v (ix2 g k) :=
    funext fun k => by rw [lift_col]
  have huniv : (Finset.univ : Finset (Fin 2)) = insert 0 {1} := by decide
  rw [hf, huniv, Finset.fold_insert (by decide), Finset.fold_singleton, max_bot_right]

/-! ### The log-softmax of the logits -/

/-- The row maximum: the larger of the two logits. -/
private theorem c2v0_at (T : Cert.Spec.Tab)
    (hT : ∀ (n : Fin 100000) (j : Fin 64), val_main_v86 (F := Ideal) x0 x1 x3 x4 x5 x6 (ix2 n j) = T n j)
    (g : Fin 64) :
    val_main_call2_v0 (F := Ideal) x0 x1 x2 x3 x4 x5 x6 x7 x8 (ix1 g)
      = Cert.Spec.rowMax (Cert.Spec.poolMembers (Cert.Inst.B x2) T) (fun g _ => Cert.Spec.countMembers (Cert.Inst.B x2) g)
          (Cert.Inst.mat2 x7) (Cert.Inst.vec2 x8) g := by
  unfold val_main_call2_v0
  refine (hostMax_at _ _ (fun i => by rw [val_main_call2_cst_apply, Ideal.ofBits_def, ofBits_ninf_f32]) _ _ g).trans ?_
  rw [v102_at x0 x1 x2 x3 x4 x5 x6 x7 x8 T hT, v102_at x0 x1 x2 x3 x4 x5 x6 x7 x8 T hT]
  rfl

/-- A further maximum with -∞ changes nothing. -/
private theorem c2v2_at (T : Cert.Spec.Tab)
    (hT : ∀ (n : Fin 100000) (j : Fin 64), val_main_v86 (F := Ideal) x0 x1 x3 x4 x5 x6 (ix2 n j) = T n j)
    (g : Fin 64) :
    val_main_call2_v2 (F := Ideal) x0 x1 x2 x3 x4 x5 x6 x7 x8 (ix1 g)
      = Cert.Spec.rowMax (Cert.Spec.poolMembers (Cert.Inst.B x2) T) (fun g _ => Cert.Spec.countMembers (Cert.Inst.B x2) g)
          (Cert.Inst.mat2 x7) (Cert.Inst.vec2 x8) g := by
  rw [val_main_call2_v2_apply, Ideal.maximumf_def, val_main_call2_v1_apply, val_main_call2_cst_0_apply, Ideal.ofBits_def,
    ofBits_ninf_f32, max_bot_left, c2v0_at x0 x1 x2 x3 x4 x5 x6 x7 x8 T hT]

/-- The row maximum kept as a column and spread over the two classes. -/
private theorem c2v4_at (T : Cert.Spec.Tab)
    (hT : ∀ (n : Fin 100000) (j : Fin 64), val_main_v86 (F := Ideal) x0 x1 x3 x4 x5 x6 (ix2 n j) = T n j)
    (g : Fin 64) (q : Fin 2) :
    val_main_call2_v4 (F := Ideal) x0 x1 x2 x3 x4 x5 x6 x7 x8 (ix2 g q)
      = Cert.Spec.rowMax (Cert.Spec.poolMembers (Cert.Inst.B x2) T) (fun g _ => Cert.Spec.countMembers (Cert.Inst.B x2) g)
          (Cert.Inst.mat2 x7) (Cert.Inst.vec2 x8) g := by
  rw [val_main_call2_v4_apply, val_main_call2_v3_apply]
  refine Eq.trans (congrArg (val_main_call2_v2 (F := Ideal) x0 x1 x2 x3 x4 x5 x6 x7 x8) ?_) (c2v2_at x0 x1 x2 x3 x4 x5 x6 x7 x8 T hT g)
  exact funext fun a => match a with | ⟨0, _⟩ => rfl

/-- The shifted logit. -/
private theorem c2v5_at (T : Cert.Spec.Tab)
    (hT : ∀ (n : Fin 100000) (j : Fin 64), val_main_v86 (F := Ideal) x0 x1 x3 x4 x5 x6 (ix2 n j) = T n j)
    (g : Fin 64) (q : Fin 2) :
    val_main_call2_v5 (F := Ideal) x0 x1 x2 x3 x4 x5 x6 x7 x8 (ix2 g q)
      = Cert.Spec.shifted (Cert.Spec.poolMembers (Cert.Inst.B x2) T) (fun g _ => Cert.Spec.countMembers (Cert.Inst.B x2) g)
          (Cert.Inst.mat2 x7) (Cert.Inst.vec2 x8) g q := by
  rw [val_main_call2_v5_apply, Ideal.subf_def, v102_at x0 x1 x2 x3 x4 x5 x6 x7 x8 T hT, c2v4_at x0 x1 x2 x3 x4 x5 x6 x7 x8 T hT]
  rfl

/-- Its exponential. -/
private theorem c2v6_at (T : Cert.Spec.Tab)
    (hT : ∀ (n : Fin 100000) (j : Fin 64), val_main_v86 (F := Ideal) x0 x1 x3 x4 x5 x6 (ix2 n j) = T n j)
    (g : Fin 64) (q : Fin 2) :
    val_main_call2_v6 (F := Ideal) x0 x1 x2 x3 x4 x5 x6 x7 x8 (ix2 g q)
      = Ideal.exp (Cert.Spec.shifted (Cert.Spec.poolMembers (Cert.Inst.B x2) T) (fun g _ => Cert.Spec.countMembers (Cert.Inst.B x2) g)
          (Cert.Inst.mat2 x7) (Cert.Inst.vec2 x8) g q) := by
  rw [val_main_call2_v6_apply, Ideal.hostUnary_exp_def, c2v5_at x0 x1 x2 x3 x4 x5 x6 x7 x8 T hT]

/-- The exponentials summed over the two classes, from zero. -/
private theorem c2v7_at (T : Cert.Spec.Tab)
    (hT : ∀ (n : Fin 100000) (j : Fin 64), val_main_v86 (F := Ideal) x0 x1 x3 x4 x5 x6 (ix2 n j) = T n j)
    (g : Fin 64) :
    val_main_call2_v7 (F := Ideal) x0 x1 x2 x3 x4 x5 x6 x7 x8 (ix1 g)
      = Cert.Spec.sumExp (Cert.Spec.poolMembers (Cert.Inst.B x2) T) (fun g _ => Cert.Spec.countMembers (Cert.Inst.B x2) g)
          (Cert.Inst.mat2 x7) (Cert.Inst.vec2 x8) g := by
  have e0 : idx_main_call2_v7 (ix1 g) 0 = ix2 g (0 : Fin 2) :=
    funext fun a => match a with | ⟨0, _⟩ => rfl | ⟨1, _⟩ => rfl
  have e1 : idx_main_call2_v7 (ix1 g) 1 = ix2 g (1 : Fin 2) :=
    funext fun a => match a with | ⟨0, _⟩ => rfl | ⟨1, _⟩ => rfl
  rw [val_main_call2_v7_apply, val_main_call2_cst_1_apply, Ideal.ofBits_def, Ideal.ofBits_zero_f32, zero_add,
    Fin.sum_univ_two, e0, e1, c2v6_at x0 x1 x2 x3 x4 x5 x6 x7 x8 T hT, c2v6_at x0 x1 x2 x3 x4 x5 x6 x7 x8 T hT]
  rfl

/-- The logarithm of that sum, kept as a column and spread over the two classes. -/
private theorem c2v10_at (T : Cert.Spec.Tab)
    (hT : ∀ (n : Fin 100000) (j : Fin 64), val_main_v86 (F := Ideal) x0 x1 x3 x4 x5 x6 (ix2 n j) = T n j)
    (g : Fin 64) (q : Fin 2) :
    val_main_call2_v10 (F := Ideal) x0 x1 x2 x3 x4 x5 x6 x7 x8 (ix2 g q)
      = Ideal.log (Cert.Spec.sumExp (Cert.Spec.poolMembers (Cert.Inst.B x2) T) (fun g _ => Cert.Spec.countMembers (Cert.Inst.B x2) g)
          (Cert.Inst.mat2 x7) (Cert.Inst.vec2 x8) g) := by
  rw [val_main_call2_v10_apply, val_main_call2_v9_apply, Ideal.hostUnary_log_def, val_main_call2_v8_apply]
  refine congrArg Ideal.log
    (Eq.trans (congrArg (val_main_call2_v7 (F := Ideal) x0 x1 x2 x3 x4 x5 x6 x7 x8) ?_) (c2v7_at x0 x1 x2 x3 x4 x5 x6 x7 x8 T hT g))
  exact funext fun a => match a with | ⟨0, _⟩ => rfl

/-- THE REFERENCE'S POOLING AND HEAD over a known second-layer table. -/
theorem ref_head (T : Cert.Spec.Tab)
    (hT : ∀ (n : Fin 100000) (j : Fin 64), val_main_v86 (F := Ideal) x0 x1 x3 x4 x5 x6 (ix2 n j) = T n j)
    (g : Fin 64) (q : Fin 2) :
    val_main_v103 (F := Ideal) x0 x1 x2 x3 x4 x5 x6 x7 x8 (ix2 g q)
      = Cert.Spec.logSoftmax (Cert.Spec.poolMembers (Cert.Inst.B x2) T) (fun g _ => Cert.Spec.countMembers (Cert.Inst.B x2) g)
          (Cert.Inst.mat2 x7) (Cert.Inst.vec2 x8) g q := by
  rw [val_main_v103_apply, Ideal.subf_def, c2v5_at x0 x1 x2 x3 x4 x5 x6 x7 x8 T hT, c2v10_at x0 x1 x2 x3 x4 x5 x6 x7 x8 T hT]
  rfl

end Cert.ReferenceIdeal.RefValue

end
-- ==== Proof.Ref.Value.lean ====
/-
  What the reference program computes, read stage by stage, is the per-edge, member-sum form of the network over
  its own index columns: the raw landing column (stage 10), the wrapped source column (stage 20) and the wrapped
  landing column (stage 27).

  A lookup `x[idx]` reads the table at the row the index word names (the word read signed and clamped into range);
  a segment sum adds, onto a zero table, the update rows whose raw landing word is the row's number. So one layer is,
  at node n and feature j, the bias plus the sum over the edges landing on n of the source row of (table · weights)
  times the edge's factor (source row's scale times landing row's scale), negatives cut. The reference recomputes
  its columns, its scale and its factor for the second layer; the recomputed stages are the same terms. The second
  layer reads the first layer's output as its table; the pooling and the head are read over that second table.
-/
import proofs.«410454_j88278757802580_2_alg».proof.Proof.RefRead
import proofs.«410454_j88278757802580_2_alg».proof.Proof.Net
import proofs.«410454_j88278757802580_2_alg».proof.Proof.LibGatherFlat
import proofs.«410454_j88278757802580_2_alg».proof.Proof.Ref.Scale
import proofs.«410454_j88278757802580_2_alg».proof.Proof.Ref.Head
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo

variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S64x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x2, .f32⟩ : BufTy).Contents (Elt Ideal))
  (x8 : (⟨S2, .f32⟩ : BufTy).Contents (Elt Ideal))

/-! ## The wrapped landing column -/

/-- The wrapped landing column is the wrap of the raw landing column, word by word: stage 26 selects, on the
    sign test of the raw word against 0, the raw word plus 100000 or the raw word itself. -/
theorem dstw_wrap (e : Fin 1700000) :
    val_main_v27 (F := Ideal) x1 (ix2 e (0 : Fin 1)) = RowGather.wrap (val_main_v10 (F := Ideal) x1 (ix2 e (0 : Fin 1))) := by
  rw [val_main_v27_apply, val_main_v26_apply, val_main_v23_apply, val_main_v25_apply, val_main_v22_apply,
    val_main_v24_apply, val_main_c_3_apply, val_main_c_4_apply, val_main_v10_apply]
  rfl

/-! ## Lookups and segment sums in the spelling of their read lemmas -/

/-- At the exact values the host's accumulating scatter is the exact sum. -/
private theorem scatterAdd_exact {s si u : Shape} {w : Nat} (d : ScatterDims s si u) (x : FVec Ideal s .f32)
    (idx : IVec si w) (upd : FVec Ideal u .f32) :
    Host.scatterAdd d x idx upd = Ideal.hostScatterAdd d x idx upd := rfl

/-- The printed record of the lookup in a per-node array is the flat lookup's. -/
private theorem gatherNode_eq : gather_S100000_S1700000x1_S1700000_n_0_n_n_0_1_1
    = RowGather.flatDims 100000 1700000 Facts₀.gather_S100000_S1700000x1_S1700000_n_0_n_n_0_1_1_wf := rfl

/-- The printed record of the lookup of feature rows is the row lookup's. -/
private theorem gatherRows_eq : gather_S100000x64_S1700000x1_S1700000x64_1_0_n_n_0_1_164
    = RowGather.rowDims 100000 64 1700000 Facts₀.gather_S100000x64_S1700000x1_S1700000x64_1_0_n_n_0_1_164_wf := rfl

/-- The printed record of the segment sum of feature rows is the row segment sum's. -/
private theorem scatterRows_eq : scatter_S100000x64_S1700000x1_S1700000x64_1_0_0_1
    = SegSum.rowsDims 100000 1700000 64 Facts₀.scatter_S100000x64_S1700000x1_S1700000x64_1_0_0_1_wf := rfl

/-- A lookup of rows of a table `X` by an edge column reads row `row col e` of `X`. -/
private theorem rows_lookup (X : (⟨2, ![100000, 64]⟩ : Shape).Idx → EReal) (col : Inst.EdgeCol)
    (e : Fin 1700000) (j : Fin 64) :
    Host.gather gather_S100000x64_S1700000x1_S1700000x64_1_0_n_n_0_1_164 X col (ix2 e j)
      = X (ix2 (Inst.row col e) j) := by
  rw [gatherRows_eq]
  exact RowGather.gather_rows_apply (by decide) _ X col e j

/-- A segment sum of update rows `U` onto a table `Z` by the raw landing column adds, at node `n`, the rows
    of the edges that land on `n`. -/
private theorem rows_segsum (Z : (⟨2, ![100000, 64]⟩ : Shape).Idx → EReal) (col : Inst.EdgeCol)
    (U : (⟨2, ![1700000, 64]⟩ : Shape).Idx → EReal) (n : Fin 100000) (j : Fin 64) :
    Host.scatterAdd (F := Ideal) (φ := .f32) scatter_S100000x64_S1700000x1_S1700000x64_1_0_0_1 Z col U (ix2 n j)
      = Z (ix2 n j) + ∑ e ∈ Inst.R col n, U (ix2 e j) := by
  rw [scatterAdd_exact, scatterRows_eq]
  exact SegSum.hostScatterAdd_rows_apply _ Z col U n j

/-! ## The per-edge factor -/

/-- A lookup of the scale by an edge column reads the scale of the row the column's word names. -/
private theorem scale_lookup (col : Inst.EdgeCol) (e : Fin 1700000) :
    Host.gather gather_S100000_S1700000x1_S1700000_n_0_n_n_0_1_1 (val_main_v14 (F := Ideal) x1) col (ix1 e)
      = Spec.scale (Inst.R (val_main_v10 (F := Ideal) x1)) (Inst.row col e) := by
  rw [gatherNode_eq]
  refine (RowGather.gather_flat_apply (by decide) _ (val_main_v14 (F := Ideal) x1) col e).trans ?_
  exact scale_value x1 _

/-- Stage 29, the first layer's per-edge factor: the source row's scale times the landing row's scale. -/
private theorem factor1 (e : Fin 1700000) :
    val_main_v29 (F := Ideal) x1 (ix1 e)
      = Spec.scale (Inst.R (val_main_v10 (F := Ideal) x1)) (Inst.row (val_main_v20 (F := Ideal) x1) e)
        * Spec.scale (Inst.R (val_main_v10 (F := Ideal) x1)) (Inst.row (val_main_v27 (F := Ideal) x1) e) := by
  rw [val_main_v29_apply, Ideal.mulf_def]
  unfold val_main_v21 val_main_v28
  rw [scale_lookup, scale_lookup]

/-- Stage 69, the second layer's per-edge factor: the same product, from the recomputed scale and columns. -/
private theorem factor2 (e : Fin 1700000) :
    val_main_v69 (F := Ideal) x1 (ix1 e)
      = Spec.scale (Inst.R (val_main_v10 (F := Ideal) x1)) (Inst.row (val_main_v20 (F := Ideal) x1) e)
        * Spec.scale (Inst.R (val_main_v10 (F := Ideal) x1)) (Inst.row (val_main_v27 (F := Ideal) x1) e) := by
  rw [val_main_v69_apply, Ideal.mulf_def]
  unfold val_main_v61 val_main_v68
  rw [scale_again, srcw_again, dstw_again, scale_lookup, scale_lookup]

/-! ## The first layer -/

/-- Stage 7 is the product of the input features with the first weight matrix. -/
private theorem product1 (r : Fin 100000) (j : Fin 64) :
    val_main_v7 (F := Ideal) x0 x3 (ix2 r j) = Spec.mm (Inst.tab x0) (Inst.mat x3) r j := by
  rw [val_main_v7_apply]
  unfold Spec.mm Inst.tab Inst.mat
  refine Finset.sum_congr rfl fun k _ => ?_
  have hl : lidx_main_v7 (ix2 r j) k = ix2 r k := by
    funext a; match a with | ⟨0, _⟩ => rfl | ⟨1, _⟩ => rfl
  have hr : ridx_main_v7 (ix2 r j) k = ix2 k j := by
    funext a; match a with | ⟨0, _⟩ => rfl | ⟨1, _⟩ => rfl
  rw [hl, hr]

/-- Stage 39, the first layer's message of edge `e`: the source row of the product, times the edge's factor. -/
private theorem message1 (e : Fin 1700000) (j : Fin 64) :
    val_main_v39 (F := Ideal) x0 x1 x3 (ix2 e j)
      = Spec.mm (Inst.tab x0) (Inst.mat x3) (Inst.row (val_main_v20 (F := Ideal) x1) e) j
        * (Spec.scale (Inst.R (val_main_v10 (F := Ideal) x1)) (Inst.row (val_main_v20 (F := Ideal) x1) e)
          * Spec.scale (Inst.R (val_main_v10 (F := Ideal) x1)) (Inst.row (val_main_v27 (F := Ideal) x1) e)) := by
  have hcol : val_main_v38 (F := Ideal) x1 (ix2 e j) = val_main_v29 (F := Ideal) x1 (ix1 e) := by
    rw [val_main_v38_apply, val_main_v37_apply]
    exact congrArg (val_main_v29 (F := Ideal) x1) (funext fun a => match a with | ⟨0, _⟩ => rfl)
  rw [val_main_v39_apply, Ideal.mulf_def, hcol, factor1]
  unfold val_main_v36
  rw [srcw_first, rows_lookup, product1]

/-- Stage 46 is the first layer's output in its per-edge form. -/
private theorem layer1 (n : Fin 100000) (j : Fin 64) :
    val_main_v46 (F := Ideal) x0 x1 x3 x4 (ix2 n j)
      = Net.refH1 x0 (val_main_v10 (F := Ideal) x1) (val_main_v20 (F := Ideal) x1) (val_main_v27 (F := Ideal) x1) x3 x4 n j := by
  have hbias : val_main_v44 (F := Ideal) x4 (ix2 n j) = Inst.vec x4 j := by
    rw [val_main_v44_apply, val_main_v43_apply]
    exact congrArg x4 (funext fun a => match a with | ⟨0, _⟩ => rfl)
  have hsum : val_main_v42 (F := Ideal) x0 x1 x3 (ix2 n j)
      = 0 + ∑ e ∈ Inst.R (val_main_v10 (F := Ideal) x1) n,
          Spec.mm (Inst.tab x0) (Inst.mat x3) (Inst.row (val_main_v20 (F := Ideal) x1) e) j
            * (Spec.scale (Inst.R (val_main_v10 (F := Ideal) x1)) (Inst.row (val_main_v20 (F := Ideal) x1) e)
              * Spec.scale (Inst.R (val_main_v10 (F := Ideal) x1)) (Inst.row (val_main_v27 (F := Ideal) x1) e)) := by
    unfold val_main_v42
    rw [dstb_first, rows_segsum, val_main_v40_apply, val_main_cst_7_apply, Ideal.ofBits_def, Ideal.ofBits_zero_f32]
    exact congrArg (0 + ·) (Finset.sum_congr rfl fun e _ => message1 x0 x1 x3 e j)
  rw [val_main_v46_apply, val_main_v45_apply, Ideal.maximumf_def, Ideal.addf_def, hsum, hbias,
    val_main_call0_v0_apply, val_main_call0_cst_apply, Ideal.ofBits_def, Ideal.ofBits_zero_f32]
  unfold Net.refH1 Spec.layerEdge
  rfl

/-! ## The second layer -/

/-- Stage 47 is the product of the first layer's output with the second weight matrix. -/
private theorem product2 (r : Fin 100000) (j : Fin 64) :
    val_main_v47 (F := Ideal) x0 x1 x3 x4 x5 (ix2 r j)
      = Spec.mm (Net.refH1 x0 (val_main_v10 (F := Ideal) x1) (val_main_v20 (F := Ideal) x1) (val_main_v27 (F := Ideal) x1) x3 x4)
          (Inst.mat x5) r j := by
  rw [val_main_v47_apply]
  unfold Spec.mm Inst.mat
  refine Finset.sum_congr rfl fun k _ => ?_
  have hl : lidx_main_v47 (ix2 r j) k = ix2 r k := by
    funext a; match a with | ⟨0, _⟩ => rfl | ⟨1, _⟩ => rfl
  have hr : ridx_main_v47 (ix2 r j) k = ix2 k j := by
    funext a; match a with | ⟨0, _⟩ => rfl | ⟨1, _⟩ => rfl
  rw [hl, hr, layer1]

/-- Stage 79, the second layer's message of edge `e`: the source row of the second product, times the edge's
    factor. -/
private theorem message2 (e : Fin 1700000) (j : Fin 64) :
    val_main_v79 (F := Ideal) x0 x1 x3 x4 x5 (ix2 e j)
      = Spec.mm (Net.refH1 x0 (val_main_v10 (F := Ideal) x1) (val_main_v20 (F := Ideal) x1) (val_main_v27 (F := Ideal) x1) x3 x4)
          (Inst.mat x5) (Inst.row (val_main_v20 (F := Ideal) x1) e) j
        * (Spec.scale (Inst.R (val_main_v10 (F := Ideal) x1)) (Inst.row (val_main_v20 (F := Ideal) x1) e)
          * Spec.scale (Inst.R (val_main_v10 (F := Ideal) x1)) (Inst.row (val_main_v27 (F := Ideal) x1) e)) := by
  have hcol : val_main_v78 (F := Ideal) x1 (ix2 e j) = val_main_v69 (F := Ideal) x1 (ix1 e) := by
    rw [val_main_v78_apply, val_main_v77_apply]
    exact congrArg (val_main_v69 (F := Ideal) x1) (funext fun a => match a with | ⟨0, _⟩ => rfl)
  rw [val_main_v79_apply, Ideal.mulf_def, hcol, factor2]
  unfold val_main_v76
  rw [srcw_again', rows_lookup, product2]

/-- Stage 86 is the second layer's output in its per-edge form. -/
private theorem layer2 (n : Fin 100000) (j : Fin 64) :
    val_main_v86 (F := Ideal) x0 x1 x3 x4 x5 x6 (ix2 n j)
      = Net.refH2 x0 (val_main_v10 (F := Ideal) x1) (val_main_v20 (F := Ideal) x1) (val_main_v27 (F := Ideal) x1) x3 x4 x5 x6 n j := by
  have hbias : val_main_v84 (F := Ideal) x6 (ix2 n j) = Inst.vec x6 j := by
    rw [val_main_v84_apply, val_main_v83_apply]
    exact congrArg x6 (funext fun a => match a with | ⟨0, _⟩ => rfl)
  have hsum : val_main_v82 (F := Ideal) x0 x1 x3 x4 x5 (ix2 n j)
      = 0 + ∑ e ∈ Inst.R (val_main_v10 (F := Ideal) x1) n,
          Spec.mm (Net.refH1 x0 (val_main_v10 (F := Ideal) x1) (val_main_v20 (F := Ideal) x1) (val_main_v27 (F := Ideal) x1) x3 x4)
              (Inst.mat x5) (Inst.row (val_main_v20 (F := Ideal) x1) e) j
            * (Spec.scale (Inst.R (val_main_v10 (F := Ideal) x1)) (Inst.row (val_main_v20 (F := Ideal) x1) e)
              * Spec.scale (Inst.R (val_main_v10 (F := Ideal) x1)) (Inst.row (val_main_v27 (F := Ideal) x1) e)) := by
    unfold val_main_v82
    rw [dstb_again, rows_segsum, val_main_v80_apply, val_main_cst_17_apply, Ideal.ofBits_def, Ideal.ofBits_zero_f32]
    exact congrArg (0 + ·) (Finset.sum_congr rfl fun e _ => message2 x0 x1 x3 x4 x5 e j)
  rw [val_main_v86_apply, val_main_v85_apply, Ideal.maximumf_def, Ideal.addf_def, hsum, hbias,
    val_main_call1_v0_apply, val_main_call1_cst_apply, Ideal.ofBits_def, Ideal.ofBits_zero_f32]
  unfold Net.refH2 Spec.layerEdge
  rfl

/-! ## The whole reference -/

/-- THE REFERENCE'S VALUE: its result at (graph, class) is the per-edge, member-sum form of the network. -/
theorem ref_value (g : Fin 64) (q : Fin 2) :
    val_main_v103 (F := Ideal) x0 x1 x2 x3 x4 x5 x6 x7 x8 (ix2 g q)
      = Cert.Net.refOut x0 (val_main_v10 (F := Ideal) x1) (val_main_v20 (F := Ideal) x1) (val_main_v27 (F := Ideal) x1) x2
          x3 x4 x5 x6 x7 x8 g q := by
  unfold Cert.Net.refOut
  exact ref_head x0 x1 x2 x3 x4 x5 x6 x7 x8
    (Net.refH2 x0 (val_main_v10 (F := Ideal) x1) (val_main_v20 (F := Ideal) x1) (val_main_v27 (F := Ideal) x1) x3 x4 x5 x6)
    (fun n j => layer2 x0 x1 x3 x4 x5 x6 n j) g q

end Cert.ReferenceIdeal.RefValue

end
-- ==== Proof.lean ====
/-
  The proof of `Cert.Claim`: a two-layer graph convolution with mean pooling, a two-class head and a log-softmax,
  computed by three TensorCore launches with host lookups and segment sums between them, against the plain jnp form.

  FRAMES. Each kernel program is three host stretches and three launches. A launch's grid is 20 points over blocks of
  5000 rows; the first two launches carry nothing from point to point, the third carries its two 64 × 64 accumulators,
  and what they hold after each point is the invariant. Every launch leaves its input arrays as it found them and
  writes only its own output array, no host stretch writes an argument, so every execution ends with the nine
  arguments as launched. The same text proves it for the word-level program and for the idealized one (the ideal
  pass rewrote nothing, so the two programs are one text). The reference has no launch: its frame is its run.

  VALUES, on the extended reals. Write c(n) = 1/√max(deg n, 1) for a node's scale, deg n the number of edges landing
  on n. The kernel program scales rows by c before the sum over a node's landing edges and scales the sum by c(n)
  after it; the reference scales every edge's row by c(source) · c(landing). They agree because c(n) is a
  NON-NEGATIVE REAL, and such a factor distributes over a finite sum of extended reals (no finiteness of the
  features is needed), and because an edge that lands on n reads the landing scale at n: its raw landing word is the
  number n, which the wrap of negative words and the clamp into range leave alone. The kernel pools by one-hot
  products summed over all nodes in 20 blocks, the reference by a segment sum over each graph's members: the same,
  since 0 · x = 0 and 1 · x = x for every extended real x. The head is the same expression in both, the reference's
  extra maximum with -∞ being the identity. The precondition (finite inputs) is not used.
-/
import proofs.«410454_j88278757802580_2_alg».proof.Defs
import proofs.«410454_j88278757802580_2_alg».proof.Proof.Gen.Kernel
import proofs.«410454_j88278757802580_2_alg».proof.Proof.Gen.KernelIdeal
import proofs.«410454_j88278757802580_2_alg».proof.Proof.Gen.ReferenceIdeal
import proofs.«410454_j88278757802580_2_alg».proof.Proof.Gen.Pre_finite_inputs
import proofs.«410454_j88278757802580_2_alg».proof.Proof.K.Run
import proofs.«410454_j88278757802580_2_alg».proof.Proof.KI.Run
import proofs.«410454_j88278757802580_2_alg».proof.Proof.KI.Value
import proofs.«410454_j88278757802580_2_alg».proof.Proof.Ref.Value
import proofs.«410454_j88278757802580_2_alg».proof.Proof.RefRead
import proofs.«410454_j88278757802580_2_alg».proof.Proof.Net
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

open Cert.KernelIdeal Cert.KernelIdeal.Hand in
/-- The idealized kernel program's run with its result buffer named: every execution ends with the result buffer at the
    third launch's output array and the arguments as launched. -/
theorem ker_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v41) = W6 (F := Ideal) m c (Proc.devRef .tc main_v41)
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)
          ∧ r.2.mem ((c.tc : Thread nD τ).loc main_arg8) = m ((c.tc : Thread nD τ).loc main_arg8)) :=
  (θ_run (Cert.KernelIdeal.defs (F := Ideal)) _ _).mono (fun r h c =>
    ⟨h c _ (mem_uc main_v41 (by decide)),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c)⟩) (run_all m ρ)

open Idealize.ShloMosaic.ValueIdx in
/-- From memories that agree on the arguments both idealized programs run, and the reference's result is the kernel
    program's, entry by entry: the reference's value is the per-edge form of the network, the kernel program's the
    per-node form, over the same index columns of the same edge array, and the two forms agree. -/
theorem algebraic : Cert.algebraic_KernelIdeal_ReferenceIdeal := by
  intro m ρ m' ρ' _ hagree
  refine ⟨fun c => Cert.KernelIdeal.Hand.W6 (F := Ideal) m c (Proc.devRef .tc Cert.KernelIdeal.main_v41), ker_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v103_eq, h0, h1, h2, h3, h4, h5, h6, h7, h8]
  funext i
  obtain ⟨g, q, rfl⟩ : ∃ (g : Fin 64) (q : Fin 2), i = ix2 g q := ⟨i 0, i 1, eq_ix2 i⟩
  exact ((Cert.ReferenceIdeal.RefValue.ref_value _ _ _ _ _ _ _ _ _ g q).trans
    (Cert.Net.kerOut_eq_refOut _ _ _ _ _ _ _ _ _ _ _ (Cert.ReferenceIdeal.RefValue.dstw_wrap _) g q).symm).trans
    (Cert.KernelIdeal.Hand.ker_value m c g q).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
